-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x3 : Shape := ⟨2, ![4194304, 3]⟩
abbrev S4194304 : Shape := ⟨1, ![4194304]⟩
abbrev S7 : Shape := ⟨1, ![7]⟩
abbrev S_ : Shape := ⟨0, ![]⟩
abbrev S4194304x1 : Shape := ⟨2, ![4194304, 1]⟩

class Facts : Prop where
  bcast_S_S4194304x3 : S_.BroadcastsInDim S4194304x3 (![] : Fin 0 → Fin S4194304x3.rank)
  reducesTo_S4194304x3_S_d0_1 : S4194304x3.ReducesTo [0, 1] S_
  h_S_ : 0 < S_.numel
  bcast_S_S7 : S_.BroadcastsInDim S7 (![] : Fin 0 → Fin S7.rank)
  reducesTo_S7_S_d0 : S7.ReducesTo [0] S_
  slices_S4194304x3_S4194304x1_0_2 : S4194304x3.Slices ![0, 2] S4194304x1
  shapeCasts_S4194304x1_S4194304 : S4194304x1.ShapeCasts S4194304
  bcast_S_S4194304 : S_.BroadcastsInDim S4194304 (![] : Fin 0 → Fin S4194304.rank)
  reducesTo_S4194304_S_d0 : S4194304.ReducesTo [0] S_

variable [Facts]

def fn_part1 {F : FTy → Type} [FloatOps F] (main_arg2 : IVec S4194304 32) (main_v8 : IVec S_ 1) (main_v17 : IVec S4194304 1) : IVec S_ 1 :=
  let main_c_4 : IVec S_ 1 := constantI S_ 1 1#1
  let main_v18 : IVec S_ 1 := (fun x v => Host.reduce IntOp.andi x v reducesTo_S4194304_S_d0 h_S_) main_v17 main_c_4
  let main_v19 : IVec S_ 1 := andi main_v8 main_v18
  let main_c_5 : IVec S_ 32 := constantI S_ 32 1#32
  let main_v20 : IVec S4194304 32 := broadcastInDim S4194304 ![] bcast_S_S4194304 main_c_5
  let main_v21 : IVec S4194304 1 := cmpi .sge main_arg2 main_v20
  let main_c_6 : IVec S_ 32 := constantI S_ 32 21#32
  let main_v22 : IVec S4194304 32 := broadcastInDim S4194304 ![] bcast_S_S4194304 main_c_6
  let main_v23 : IVec S4194304 1 := cmpi .sle main_arg2 main_v22
  let main_v24 : IVec S4194304 1 := andi main_v21 main_v23
  let main_c_7 : IVec S_ 1 := constantI S_ 1 1#1
  let main_v25 : IVec S_ 1 := (fun x v => Host.reduce IntOp.andi x v reducesTo_S4194304_S_d0 h_S_) main_v24 main_c_7
  let main_v26 : IVec S_ 1 := andi main_v19 main_v25
  main_v26

def fn {F : FTy → Type} [FloatOps F] (main_arg0 : FVec F S4194304x3 .f32) (main_arg1 : IVec S4194304x3 32) (main_arg2 : IVec S4194304 32) (main_arg3 : FVec F S7 .f32) : IVec S_ 1 :=
  let main_v0 : FVec F S4194304x3 .f32 := Host.absf main_arg0
  let main_cst : FVec F S_ .f32 := constant S_ .f32 0x7F800000#32
  let main_v1 : FVec F S4194304x3 .f32 := broadcastInDim S4194304x3 ![] bcast_S_S4194304x3 main_cst
  let main_v2 : IVec S4194304x3 1 := cmpf .olt main_v0 main_v1
  let main_c : IVec S_ 1 := constantI S_ 1 1#1
  let main_v3 : IVec S_ 1 := (fun x v => Host.reduce IntOp.andi x v reducesTo_S4194304x3_S_d0_1 h_S_) main_v2 main_c
  let main_v4 : FVec F S7 .f32 := Host.absf main_arg3
  let main_cst_0 : FVec F S_ .f32 := constant S_ .f32 0x7F800000#32
  let main_v5 : FVec F S7 .f32 := broadcastInDim S7 ![] bcast_S_S7 main_cst_0
  let main_v6 : IVec S7 1 := cmpf .olt main_v4 main_v5
  let main_c_1 : IVec S_ 1 := constantI S_ 1 1#1
  let main_v7 : IVec S_ 1 := (fun x v => Host.reduce IntOp.andi x v reducesTo_S7_S_d0 h_S_) main_v6 main_c_1
  let main_v8 : IVec S_ 1 := andi main_v3 main_v7
  let main_v9 : IVec S4194304x1 32 := (extractStridedSlice S4194304x1 ![0, 2] · slices_S4194304x3_S4194304x1_0_2) main_arg1
  let main_v10 : IVec S4194304 32 := shapeCast S4194304 main_v9 shapeCasts_S4194304x1_S4194304
  let main_c_2 : IVec S_ 32 := constantI S_ 32 100#32
  let main_v11 : IVec S4194304 32 := broadcastInDim S4194304 ![] bcast_S_S4194304 main_c_2
  let main_v12 : IVec S4194304 1 := cmpi .sge main_v10 main_v11
  let main_v13 : IVec S4194304x1 32 := (extractStridedSlice S4194304x1 ![0, 2] · slices_S4194304x3_S4194304x1_0_2) main_arg1
  let main_v14 : IVec S4194304 32 := shapeCast S4194304 main_v13 shapeCasts_S4194304x1_S4194304
  let main_c_3 : IVec S_ 32 := constantI S_ 32 800#32
  let main_v15 : IVec S4194304 32 := broadcastInDim S4194304 ![] bcast_S_S4194304 main_c_3
  let main_v16 : IVec S4194304 1 := cmpi .slt main_v14 main_v15
  let main_v17 : IVec S4194304 1 := andi main_v12 main_v16
  fn_part1 (F := F) main_arg2 main_v8 main_v17
-- ==== Kernel.lean ====
abbrev S4194304x3 : Shape := ⟨2, ![4194304, 3]⟩
abbrev S4194304 : Shape := ⟨1, ![4194304]⟩
abbrev S7 : Shape := ⟨1, ![7]⟩
abbrev S3x4194304 : Shape := ⟨2, ![3, 4194304]⟩
abbrev S3x32768x128 : Shape := ⟨3, ![3, 32768, 128]⟩
abbrev S32768x128 : Shape := ⟨2, ![32768, 128]⟩
abbrev S_ : Shape := ⟨0, ![]⟩
abbrev S8x128 : Shape := ⟨2, ![8, 128]⟩
abbrev S1 : Shape := ⟨1, ![1]⟩
abbrev S2 : Shape := ⟨1, ![2]⟩
abbrev S2x8x128 : Shape := ⟨3, ![2, 8, 128]⟩
abbrev S3x2048x128 : Shape := ⟨3, ![3, 2048, 128]⟩
abbrev S2048x128 : Shape := ⟨2, ![2048, 128]⟩
abbrev S1x8x128 : Shape := ⟨3, ![1, 8, 128]⟩
abbrev S1x2048x128 : Shape := ⟨3, ![1, 2048, 128]⟩
abbrev S1x128 : Shape := ⟨2, ![1, 128]⟩
abbrev S128 : Shape := ⟨1, ![128]⟩
abbrev S256x8x128 : Shape := ⟨3, ![256, 8, 128]⟩
abbrev S1x1x1 : Shape := ⟨3, ![1, 1, 1]⟩
abbrev S2x1x1 : Shape := ⟨3, ![2, 1, 1]⟩

abbrev nBuf : Space → Nat
  | .hbm => 38
  | .vmem => 16
  | .smem => 0
  | _ => 0

abbrev bufTy : (tb : Table) → Fin (tcTables nBuf tb) → BufTy
  | .hbm, ⟨0, _⟩ => ⟨S4194304x3, .f32⟩
  | .hbm, ⟨1, _⟩ => ⟨S4194304x3, .i32⟩
  | .hbm, ⟨2, _⟩ => ⟨S4194304, .i32⟩
  | .hbm, ⟨3, _⟩ => ⟨S7, .f32⟩
  | .hbm, ⟨4, _⟩ => ⟨S3x4194304, .f32⟩
  | .hbm, ⟨5, _⟩ => ⟨S3x32768x128, .f32⟩
  | .hbm, ⟨6, _⟩ => ⟨S3x4194304, .i32⟩
  | .hbm, ⟨7, _⟩ => ⟨S3x32768x128, .i32⟩
  | .hbm, ⟨8, _⟩ => ⟨S32768x128, .i32⟩
  | .hbm, ⟨9, _⟩ => ⟨S_, .f32⟩
  | .hbm, ⟨10, _⟩ => ⟨S8x128, .f32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S2, .i32⟩
  | .hbm, ⟨16, _⟩ => ⟨S8x128, .f32⟩
  | .hbm, ⟨17, _⟩ => ⟨S2x8x128, .f32⟩
  | .hbm, ⟨18, _⟩ => ⟨S2x8x128, .f32⟩
  | .hbm, ⟨19, _⟩ => ⟨S2x8x128, .f32⟩
  | .hbm, ⟨20, _⟩ => ⟨S2x1x1, .f32⟩
  | .hbm, ⟨21, _⟩ => ⟨S2, .f32⟩
  | .hbm, ⟨22, _⟩ => ⟨S_, .f32⟩
  | .hbm, ⟨23, _⟩ => ⟨S_, .f32⟩
  | .hbm, ⟨24, _⟩ => ⟨S2x1x1, .f32⟩
  | .hbm, ⟨25, _⟩ => ⟨S2, .f32⟩
  | .hbm, ⟨26, _⟩ => ⟨S_, .f32⟩
  | .hbm, ⟨27, _⟩ => ⟨S_, .f32⟩
  | .hbm, ⟨28, _⟩ => ⟨S2x1x1, .f32⟩
  | .hbm, ⟨29, _⟩ => ⟨S2, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S3x2048x128, .f32⟩
  | .local _ .vmem, ⟨1, _⟩ => ⟨S3x2048x128, .f32⟩
  | .local _ .vmem, ⟨2, _⟩ => ⟨S3x2048x128, .i32⟩
  | .local _ .vmem, ⟨3, _⟩ => ⟨S3x2048x128, .i32⟩
  | .local _ .vmem, ⟨4, _⟩ => ⟨S2048x128, .i32⟩
  | .local _ .vmem, ⟨5, _⟩ => ⟨S2048x128, .i32⟩
  | .local _ .vmem, ⟨6, _⟩ => ⟨S8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S1x8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | _, _ => ⟨S4194304x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32_63 : BitVec 32 := 7#32
  let v175 : BitVec 1 := Scalar.cmpi .eq arg1 c7_i32_63
  let v176 : BitVec 32 := Scalar.extui v175
  let c0_i32_64 : BitVec 32 := 0#32
  let v177 : BitVec 1 := Scalar.cmpi .ne v176 c0_i32_64
  v177

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x2048x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  transposes_S4194304x3_S3x4194304_1_0 : S4194304x3.Transposes [1, 0] S3x4194304
  shapeCasts_S3x4194304_S3x32768x128 : S3x4194304.ShapeCasts S3x32768x128
  shapeCasts_S4194304_S32768x128 : S4194304.ShapeCasts S32768x128
  bcast_S_S8x128 : S_.BroadcastsInDim S8x128 (![] : Fin 0 → Fin S8x128.rank)
  bcast_S_S1 : S_.BroadcastsInDim S1 (![] : Fin 0 → Fin S1.rank)
  concatenates_S1_S1_S2_d0 : Shape.Concatenates [S1, S1] S2 0
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S3x2048x128_S1x2048x128_0_0_0 : ∀ a, (![0, 0, 0] : Fin 3 → Nat) a + S1x2048x128.size a ≤ S3x2048x128.size a
  h_S1x2048x128 : 0 < S1x2048x128.numel
  shapeCasts_S1x2048x128_S2048x128 : S1x2048x128.ShapeCasts S2048x128
  inb_S3x2048x128_S1x2048x128_1_0_0 : ∀ a, (![1, 0, 0] : Fin 3 → Nat) a + S1x2048x128.size a ≤ S3x2048x128.size a
  inb_S3x2048x128_S1x2048x128_2_0_0 : ∀ a, (![2, 0, 0] : Fin 3 → Nat) a + S1x2048x128.size a ≤ S3x2048x128.size a
  natLt_1_32 : 1 < 32
  inb_S8x128_S1x128_0_0 : ∀ a, (![0, 0] : Fin 2 → Nat) a + S1x128.size a ≤ S8x128.size a
  h_S1x128 : 0 < S1x128.numel
  shapeCasts_S1x128_S128 : S1x128.ShapeCasts S128
  slices_S128_o0_S1 : S128.Slices ![0] S1
  inpos_S1_p0 : ∀ a, (![0] : Fin 1 → Nat) a < S1.size a
  slices_S128_o1_S1 : S128.Slices ![1] S1
  slices_S128_o2_S1 : S128.Slices ![2] S1
  slices_S128_o3_S1 : S128.Slices ![3] S1
  slices_S128_o4_S1 : S128.Slices ![4] S1
  slices_S128_o5_S1 : S128.Slices ![5] S1
  slices_S128_o6_S1 : S128.Slices ![6] S1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S2048x128_S256x8x128 : S2048x128.ShapeCasts S256x8x128
  reduces_S256x8x128_S8x128 : S256x8x128.Reduces [0] S8x128
  shapeCasts_S8x128_S1x8x128 : S8x128.ShapeCasts S1x8x128
  reduces_S1x8x128_S1 : S1x8x128.Reduces [1, 2] S1
  shapeCasts_S1_S1x1x1 : S1.ShapeCasts S1x1x1
  inpos_S1x1x1_p0_0_0 : ∀ a, (![0, 0, 0] : Fin 3 → Nat) a < S1x1x1.size a
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  scatter_S8x128_S2_S7_0_0_01_0_wf : ScatterDims.WF S8x128 S2 S7 [0] [0] [0, 1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x2048x128.size a ≤ S3x32768x128.size a
  hwx0_0 : ∀ i : grid0.Coords, EltTy.bits .f32 = 32 ∨ (Rect.block (s := S3x32768x128) S3x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x2048x128.size a ≤ S3x32768x128.size a
  hwx0_1 : ∀ i : grid0.Coords, EltTy.bits .i32 = 32 ∨ (Rect.block (s := S3x32768x128) S3x2048x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S32768x128.size a
  hwx0_2 : ∀ i : grid0.Coords, EltTy.bits .i32 = 32 ∨ (Rect.block (s := S32768x128) S2048x128.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S2x8x128.size a
  hwx0_5 : ∀ i : grid0.Coords, EltTy.bits .f32 = 32 ∨ (Rect.block (s := S2x8x128) S1x8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S2x8x128.size a
  hwx0_6 : ∀ i : grid0.Coords, EltTy.bits .f32 = 32 ∨ (Rect.block (s := S2x8x128) S1x8x128.size (cc0_transform_6 i) (hinb0_6 i)).WholeWords (EltTy.packing .f32)

variable [Facts₀]

def scatter_S8x128_S2_S7_0_0_01_0 : ScatterDims S8x128 S2 S7 where
  updateWindowDims := [0]
  insertedWindowDims := [0]
  scatterDimsToOperandDims := [0, 1]
  indexVectorDim := 0
  wf := scatter_S8x128_S2_S7_0_0_01_0_wf

abbrev win0_0 : Pipeline.Window sig grid0 :=
  Pipeline.Window.ofSpec (Memref.whole main_v1) S3x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S3x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10_0) S1x8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_1) S1x8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_2) S1x8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4194304x3 : Shape := ⟨2, ![4194304, 3]⟩
abbrev S4194304 : Shape := ⟨1, ![4194304]⟩
abbrev S7 : Shape := ⟨1, ![7]⟩
abbrev S21x2 : Shape := ⟨2, ![21, 2]⟩
abbrev S4194304x1 : Shape := ⟨2, ![4194304, 1]⟩
abbrev S_ : Shape := ⟨0, ![]⟩
abbrev S4194304x2 : Shape := ⟨2, ![4194304, 2]⟩

abbrev nBuf : Space → Nat
  | .hbm => 134
  | .vmem => 0
  | .smem => 0
  | _ => 0

abbrev hbmTy0_0 (i : Nat) : BufTy := match i % 128 with
  | 0 => ⟨S4194304x3, .f32⟩
  | 1 => ⟨S4194304x3, .i32⟩
  | 2 => ⟨S4194304, .i32⟩
  | 3 => ⟨S7, .f32⟩
  | 4 => ⟨S21x2, .f32⟩
  | 5 => ⟨S21x2, .f32⟩
  | 6 => ⟨S4194304x3, .f32⟩
  | 7 => ⟨S4194304x1, .i32⟩
  | 8 => ⟨S4194304, .i32⟩
  | 9 => ⟨S_, .i32⟩
  | 10 => ⟨S_, .i32⟩
  | 11 => ⟨S4194304, .i32⟩
  | 12 => ⟨S4194304, .i32⟩
  | 13 => ⟨S4194304, .i32⟩
  | 14 => ⟨S_, .i32⟩
  | 15 => ⟨S4194304, .i32⟩
  | 16 => ⟨S4194304, .i1⟩
  | 17 => ⟨S4194304, .i32⟩
  | 18 => ⟨S4194304, .i32⟩
  | 19 => ⟨S_, .i32⟩
  | 20 => ⟨S4194304, .i32⟩
  | 21 => ⟨S4194304, .i1⟩
  | 22 => ⟨S4194304, .i1⟩
  | 23 => ⟨S_, .i32⟩
  | 24 => ⟨S4194304, .i32⟩
  | 25 => ⟨S4194304, .i32⟩
  | 26 => ⟨S4194304, .i32⟩
  | 27 => ⟨S_, .i32⟩
  | 28 => ⟨S4194304, .i32⟩
  | 29 => ⟨S4194304, .i32⟩
  | 30 => ⟨S_, .i32⟩
  | 31 => ⟨S4194304, .i32⟩
  | 32 => ⟨S4194304, .i1⟩
  | 33 => ⟨S_, .i32⟩
  | 34 => ⟨S4194304, .i32⟩
  | 35 => ⟨S4194304, .i32⟩
  | 36 => ⟨S4194304, .i32⟩
  | 37 => ⟨S4194304x1, .i32⟩
  | 38 => ⟨S4194304, .f32⟩
  | 39 => ⟨S4194304x2, .f32⟩
  | 40 => ⟨S4194304x2, .f32⟩
  | 41 => ⟨S4194304x2, .f32⟩
  | 42 => ⟨S4194304x2, .f32⟩
  | 43 => ⟨S4194304x1, .f32⟩
  | 44 => ⟨S4194304x2, .f32⟩
  | 45 => ⟨S4194304x2, .f32⟩
  | 46 => ⟨S_, .f32⟩
  | 47 => ⟨S4194304, .f32⟩
  | 48 => ⟨S_, .f32⟩
  | 49 => ⟨S4194304, .f32⟩
  | 50 => ⟨S4194304, .f32⟩
  | 51 => ⟨S_, .f32⟩
  | 52 => ⟨S_, .f32⟩
  | 53 => ⟨S_, .f32⟩
  | 54 => ⟨S_, .f32⟩
  | 55 => ⟨S4194304x1, .f32⟩
  | 56 => ⟨S4194304, .f32⟩
  | 57 => ⟨S4194304x1, .f32⟩
  | 58 => ⟨S4194304, .f32⟩
  | 59 => ⟨S4194304, .f32⟩
  | 60 => ⟨S4194304, .f32⟩
  | 61 => ⟨S4194304, .f32⟩
  | 62 => ⟨S_, .f32⟩
  | 63 => ⟨S_, .f32⟩
  | 64 => ⟨S_, .f32⟩
  | 65 => ⟨S_, .f32⟩
  | 66 => ⟨S_, .i32⟩
  | 67 => ⟨S4194304, .i32⟩
  | 68 => ⟨S4194304, .i32⟩
  | 69 => ⟨S_, .i32⟩
  | 70 => ⟨S4194304, .i32⟩
  | 71 => ⟨S4194304, .i1⟩
  | 72 => ⟨S_, .i32⟩
  | 73 => ⟨S4194304, .i32⟩
  | 74 => ⟨S4194304, .i32⟩
  | 75 => ⟨S4194304, .i32⟩
  | 76 => ⟨S4194304x1, .i32⟩
  | 77 => ⟨S4194304x2, .f32⟩
  | 78 => ⟨S_, .i32⟩
  | 79 => ⟨S4194304, .i32⟩
  | 80 => ⟨S4194304, .i1⟩
  | 81 => ⟨S_, .i32⟩
  | 82 => ⟨S4194304, .i32⟩
  | 83 => ⟨S4194304, .i32⟩
  | 84 => ⟨S4194304, .i32⟩
  | 85 => ⟨S4194304x1, .i32⟩
  | 86 => ⟨S4194304x2, .f32⟩
  | 87 => ⟨S4194304x1, .f32⟩
  | 88 => ⟨S4194304, .f32⟩
  | 89 => ⟨S4194304x1, .f32⟩
  | 90 => ⟨S4194304, .f32⟩
  | 91 => ⟨S4194304x1, .f32⟩
  | 92 => ⟨S4194304, .f32⟩
  | 93 => ⟨S4194304, .i1⟩
  | 94 => ⟨S4194304, .f32⟩
  | 95 => ⟨S4194304, .f32⟩
  | 96 => ⟨S_, .f32⟩
  | 97 => ⟨S_, .f32⟩
  | 98 => ⟨S4194304, .f32⟩
  | 99 => ⟨S4194304, .f32⟩
  | 100 => ⟨S4194304, .i1⟩
  | 101 => ⟨S4194304, .f32⟩
  | 102 => ⟨S4194304, .f32⟩
  | 103 => ⟨S_, .f32⟩
  | 104 => ⟨S_, .f32⟩
  | 105 => ⟨S4194304, .f32⟩
  | 106 => ⟨S4194304, .f32⟩
  | 107 => ⟨S4194304, .f32⟩
  | 108 => ⟨S4194304x1, .f32⟩
  | 109 => ⟨S4194304, .f32⟩
  | 110 => ⟨S4194304x1, .f32⟩
  | 111 => ⟨S4194304, .f32⟩
  | 112 => ⟨S4194304x1, .f32⟩
  | 113 => ⟨S4194304, .f32⟩
  | 114 => ⟨S4194304, .i1⟩
  | 115 => ⟨S4194304, .f32⟩
  | 116 => ⟨S4194304, .f32⟩
  | 117 => ⟨S_, .f32⟩
  | 118 => ⟨S_, .f32⟩
  | 119 => ⟨S4194304, .f32⟩
  | 120 => ⟨S4194304, .f32⟩
  | 121 => ⟨S4194304, .i1⟩
  | 122 => ⟨S4194304, .f32⟩
  | 123 => ⟨S4194304, .f32⟩
  | 124 => ⟨S_, .f32⟩
  | 125 => ⟨S_, .f32⟩
  | 126 => ⟨S4194304, .f32⟩
  | 127 => ⟨S4194304, .f32⟩
  | _ => ⟨S4194304x3, .f32⟩

abbrev hbmTy0_1 (i : Nat) : BufTy := match i % 128 with
  | 0 => ⟨S4194304, .f32⟩
  | 1 => ⟨S4194304, .f32⟩
  | 2 => ⟨S_, .f32⟩
  | 3 => ⟨S_, .f32⟩
  | 4 => ⟨S_, .f32⟩
  | 5 => ⟨S_, .f32⟩
  | _ => ⟨S4194304x3, .f32⟩

abbrev hbmTy (i : Nat) : BufTy := match i / 128 with
  | 0 => hbmTy0_0 i
  | 1 => hbmTy0_1 i
  | _ => ⟨S4194304x3, .f32⟩

abbrev bufTy : (tb : Table) → Fin (tcTables nBuf tb) → BufTy
  | .hbm, ⟨i, _⟩ => hbmTy i
  | _, _ => ⟨S4194304x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_c_1 : Ref sig .tc := ⟨.hbm, 27, rfl⟩
abbrev main_v4 : Ref sig .tc := ⟨.hbm, 28, rfl⟩
abbrev main_v5 : Ref sig .tc := ⟨.hbm, 29, rfl⟩
abbrev main_c_2 : Ref sig .tc := ⟨.hbm, 30, rfl⟩
abbrev main_v6 : Ref sig .tc := ⟨.hbm, 31, rfl⟩
abbrev main_v7 : Ref sig .tc := ⟨.hbm, 32, rfl⟩
abbrev main_c_3 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_4 : Ref sig .tc := ⟨.hbm, 46, rfl⟩
abbrev main_v20 : Ref sig .tc := ⟨.hbm, 47, rfl⟩
abbrev main_cst_5 : Ref sig .tc := ⟨.hbm, 48, rfl⟩
abbrev main_v21 : Ref sig .tc := ⟨.hbm, 49, rfl⟩
abbrev main_v22 : Ref sig .tc := ⟨.hbm, 50, rfl⟩
abbrev main_cst_6 : Ref sig .tc := ⟨.hbm, 51, rfl⟩
abbrev main_v23 : Ref sig .tc := ⟨.hbm, 52, rfl⟩
abbrev main_cst_7 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_8 : Ref sig .tc := ⟨.hbm, 62, rfl⟩
abbrev main_v32 : Ref sig .tc := ⟨.hbm, 63, rfl⟩
abbrev main_cst_9 : Ref sig .tc := ⟨.hbm, 64, rfl⟩
abbrev main_v33 : Ref sig .tc := ⟨.hbm, 65, rfl⟩
abbrev main_c_10 : Ref sig .tc := ⟨.hbm, 66, rfl⟩
abbrev main_v34 : Ref sig .tc := ⟨.hbm, 67, rfl⟩
abbrev main_v35 : Ref sig .tc := ⟨.hbm, 68, rfl⟩
abbrev main_c_11 : Ref sig .tc := ⟨.hbm, 69, rfl⟩
abbrev main_v36 : Ref sig .tc := ⟨.hbm, 70, rfl⟩
abbrev main_v37 : Ref sig .tc := ⟨.hbm, 71, rfl⟩
abbrev main_c_12 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_c_13 : Ref sig .tc := ⟨.hbm, 78, rfl⟩
abbrev main_v43 : Ref sig .tc := ⟨.hbm, 79, rfl⟩
abbrev main_v44 : Ref sig .tc := ⟨.hbm, 80, rfl⟩
abbrev main_c_14 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_15 : Ref sig .tc := ⟨.hbm, 96, rfl⟩
abbrev main_call1_v0 : Ref sig .tc := ⟨.hbm, 97, rfl⟩
abbrev main_call1_v1 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_16 : Ref sig .tc := ⟨.hbm, 103, rfl⟩
abbrev main_call2_v0 : Ref sig .tc := ⟨.hbm, 104, rfl⟩
abbrev main_call2_v1 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_17 : Ref sig .tc := ⟨.hbm, 117, rfl⟩
abbrev main_call3_v0 : Ref sig .tc := ⟨.hbm, 118, rfl⟩
abbrev main_call3_v1 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_cst_18 : Ref sig .tc := ⟨.hbm, 124, rfl⟩
abbrev main_call4_v0 : Ref sig .tc := ⟨.hbm, 125, rfl⟩
abbrev main_call4_v1 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_cst_19 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩

abbrev nD : Nat := 1
abbrev τ : Topo := Topo.v7x

variable {F : FTy → Type} [FloatOps F]

class Facts₀ : Prop where
  slices_S4194304x3_S4194304x1_0_2 : S4194304x3.Slices ![0, 2] S4194304x1
  shapeCasts_S4194304x1_S4194304 : S4194304x1.ShapeCasts S4194304
  bcast_S_S4194304 : S_.BroadcastsInDim S4194304 (![] : Fin 0 → Fin S4194304.rank)
  bcast_S4194304_S4194304x1_0 : S4194304.BroadcastsInDim S4194304x1 (![0] : Fin 1 → Fin S4194304x1.rank)
  slices_S4194304x3_S4194304x2_0_0 : S4194304x3.Slices ![0, 0] S4194304x2
  bcast_S4194304x1_S4194304x2_0_1 : S4194304x1.BroadcastsInDim S4194304x2 (![0, 1] : Fin 2 → Fin S4194304x2.rank)
  reducesTo_S4194304x2_S4194304_d1 : S4194304x2.ReducesTo [1] S4194304
  h_S_ : 0 < S_.numel
  reducesTo_S4194304_S_d0 : S4194304.ReducesTo [0] S_
  slices_S4194304x3_S4194304x1_0_0 : S4194304x3.Slices ![0, 0] S4194304x1
  slices_S4194304x2_S4194304x1_0_0 : S4194304x2.Slices ![0, 0] S4194304x1
  slices_S4194304x2_S4194304x1_0_1 : S4194304x2.Slices ![0, 1] S4194304x1
  slices_S4194304x3_S4194304x1_0_1 : S4194304x3.Slices ![0, 1] S4194304x1
  gather_S7_S4194304x1_S4194304_n_0_n_n_0_1_1_wf : GatherDims.WF S7 S4194304x1 S4194304 [] [0] [] [0] [] 1 ![1]
  gather_S21x2_S4194304x1_S4194304x2_1_0_n_n_0_1_12_wf : GatherDims.WF S21x2 S4194304x1 S4194304x2 [1] [0] [] [0] [] 1 ![1, 2]

variable [Facts₀]

def gather_S7_S4194304x1_S4194304_n_0_n_n_0_1_1 : GatherDims S7 S4194304x1 S4194304 where
  offsetDims := []
  collapsedSliceDims := [0]
  operandBatchingDims := []
  startIndicesBatchingDims := []
  startIndexMap := [0]
  indexVectorDim := 1
  sliceSizes := ![1]
  wf := gather_S7_S4194304x1_S4194304_n_0_n_n_0_1_1_wf
def gather_S21x2_S4194304x1_S4194304x2_1_0_n_n_0_1_12 : GatherDims S21x2 S4194304x1 S4194304x2 where
  offsetDims := [1]
  collapsedSliceDims := [0]
  operandBatchingDims := []
  startIndicesBatchingDims := []
  startIndexMap := [0]
  indexVectorDim := 1
  sliceSizes := ![1, 2]
  wf := gather_S21x2_S4194304x1_S4194304x2_1_0_n_n_0_1_12_wf

class Facts : Prop extends Facts₀ where

variable [Facts]
-- ==== Proof.Spec.lean ====
/-
  The loss both programs compute, sample by sample.

  A sample `b` has three predictions `X b 0..2`, three integer targets `T b 0..2` and a cycle state `C b`.
  Its weight is `W` at the class index `T b 2 / 100 - 1`; its two sensor terms are the squared differences
  of predictions 0, 1 against their targets, its anomaly term the squared difference of prediction 2; its range
  penalty charges target 0 against the window `[lo2, 12000]` and target 1 against `[2200, hi3]`, where `lo2`
  and `hi3` depend on the cycle state (6400 at state 4, 6000 at states 5 to 8, else 11500; 13000 at state 8,
  else 2500).

  The kernel adds the per-sample terms in the order of its tiling: core `p`, lane `(i, l)` of the
  accumulator, grid step `s`, sublane group `g` (`kerTotal`); the reference adds them in sample order, and takes
  the mean over the two sensor columns before the mean over samples.
-/
import Idealize.ShloMosaic.PureOps.Ideal
import Idealize.ShloMosaic.Lib.ValueIdx

noncomputable section

namespace Cert.Spec

open Idealize.ShloMosaic Idealize.ShloMosaic.ValueIdx

/-- The shapes of the four argument arrays. -/
abbrev SX : Shape := ⟨2, ![4194304, 3]⟩
abbrev SC : Shape := ⟨1, ![4194304]⟩
abbrev SW : Shape := ⟨1, ![7]⟩

/-- An integer word read as a real number. -/
abbrev tf (t : BitVec 32) : EReal := ((t.toInt : ℝ) : EReal)
/-- A binary32 pattern read as its exact value. -/
abbrev lit (b : BitVec 32) : EReal := Ideal.ofBits .f32 b

/-- The weight of class `n` (zero past the table, which no admitted input reaches). -/
def wAt (W : SW.Idx → EReal) (n : ℕ) : EReal := if h : n < 7 then W (ix1 ⟨n, h⟩) else 0

/-- Lower end of the first window, by table row. -/
def lo2W (r : ℕ) : BitVec 32 :=
  if r = 3 then 0x45C80000#32 else if 4 ≤ r ∧ r ≤ 7 then 0x45BB8000#32 else 0x4633B000#32
/-- Upper end of the second window, by table row. -/
def hi3W (r : ℕ) : BitVec 32 := if r = 7 then 0x464B2000#32 else 0x451C4000#32

def sq (x : EReal) : EReal := x * x
/-- The charge for `v` lying below `lo`, and for lying above `hi`. -/
def below (v lo : EReal) : EReal := Scalar.select (Ideal.cmp .olt v lo) ((v - lo) * (v - lo)) (lit 0x00000000#32)
def above (v hi : EReal) : EReal := Scalar.select (Ideal.cmp .ogt v hi) ((v - hi) * (v - hi)) (lit 0x00000000#32)

section
variable (X : SX.Idx → EReal) (T : SX.Idx → BitVec 32) (C : SC.Idx → BitVec 32) (W : SW.Idx → EReal)

/-- Sample `b`'s weight. -/
def sw (b : Fin 4194304) : EReal := wAt W ((T (ix2 b (2 : Fin 3))).toNat / 100 - 1)
/-- Sample `b`'s difference in column `j`. -/
def dd (j : Fin 3) (b : Fin 4194304) : EReal := X (ix2 b j) - tf (T (ix2 b j))
/-- Sample `b`'s range penalty. -/
def pen (b : Fin 4194304) : EReal :=
  (below (tf (T (ix2 b (0 : Fin 3)))) (lit (lo2W ((C (ix1 b)).toNat - 1)))
      + above (tf (T (ix2 b (0 : Fin 3)))) (lit 0x463B8000#32))
    + (below (tf (T (ix2 b (1 : Fin 3)))) (lit 0x45098000#32)
      + above (tf (T (ix2 b (1 : Fin 3)))) (lit (hi3W ((C (ix1 b)).toNat - 1))))

/-- The sample that lane `(i, l)` of sublane group `g` holds at grid step `(p, s)`. -/
def bidx (p : Fin 2) (s : Fin 8) (g : Fin 256) (i : Fin 8) (l : Fin 128) : Fin 4194304 :=
  ⟨((p.val * 8 + s.val) * 2048 + (g.val * 8 + i.val)) * 128 + l.val, by
    have := p.isLt; have := s.isLt; have := g.isLt; have := i.isLt; have := l.isLt; omega⟩

/-- A per-sample term added up in the kernel's order. -/
def kerTotal (f : Fin 4194304 → EReal) : EReal :=
  ∑ p : Fin 2, ∑ i : Fin 8, ∑ l : Fin 128, ∑ s : Fin 8, ∑ g : Fin 256, f (bidx p s g i l)

/-- The kernel's result. -/
def Kspec : EReal :=
  (Ideal.div (kerTotal fun b => sw T W b * (sq (dd X T 0 b) + sq (dd X T 1 b))) (lit 0x4B000000#32)
      + Ideal.div (kerTotal fun b => sw T W b * sq (dd X T 2 b)) (lit 0x4A800000#32))
    + kerTotal (pen T C)

/-- The reference's result. -/
def Rspec : EReal :=
  (Ideal.div (∑ b : Fin 4194304, Ideal.div (sw T W b * sq (dd X T 0 b) + sw T W b * sq (dd X T 1 b)) (lit 0x40000000#32))
        (lit 0x4A800000#32)
      + Ideal.div (∑ b : Fin 4194304, sw T W b * sq (dd X T 2 b)) (lit 0x4A800000#32))
    + ∑ b : Fin 4194304, pen T C b

end

end Cert.Spec

end
-- ==== Proof.PreFacts.lean ====
/-
  What the precondition says of the four argument arrays: every prediction and every weight is a real number,
  every third target lies in `[100, 800)` and every cycle state in `[1, 21]`.
-/
import proofs.«424041_j28518582845592_2_alg».proof.Pre_finite_inputs
import proofs.«424041_j28518582845592_2_alg».proof.Proof.Spec
import Idealize.ShloMosaic.Lib.ReduceAll
import Idealize.ShloMosaic.Lib.StableHlo.Predicate

noncomputable section

namespace Cert.PreFacts

open Idealize.ShloMosaic Idealize.ShloMosaic.ValueIdx Cert.Spec

instance : Subsingleton Cert.Pre_finite_inputs.S_.Idx := ⟨fun a b => funext fun d => d.elim0⟩

/-- A value whose absolute value is below plus infinity is a real number. -/
private theorem real_of_abs_lt (x : EReal)
    (e : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at e
  induction x using EReal.rec with
  | bot => simp [Ideal.cmp] at e
  | coe r => exact ⟨r, rfl⟩
  | top => simp [Ideal.cmp] at e

/-- The signed comparisons that came out true, read as comparisons of the signed values. -/
private theorem sge_toInt (x y : BitVec 32) (e : IntOp.cmpi .sge x y = 1#1) : y.toInt ≤ x.toInt := by
  unfold IntOp.cmpi at e
  rw [StableHlo.Predicate.ofBool_eq_one_iff] at e
  simpa only [BitVec.sle, decide_eq_true_eq] using e
private theorem sle_toInt (x y : BitVec 32) (e : IntOp.cmpi .sle x y = 1#1) : x.toInt ≤ y.toInt := by
  unfold IntOp.cmpi at e
  rw [StableHlo.Predicate.ofBool_eq_one_iff] at e
  simpa only [BitVec.sle, decide_eq_true_eq] using e
private theorem slt_toInt (x y : BitVec 32) (e : IntOp.cmpi .slt x y = 1#1) : x.toInt < y.toInt := by
  unfold IntOp.cmpi at e
  rw [StableHlo.Predicate.ofBool_eq_one_iff] at e
  simpa only [BitVec.slt, decide_eq_true_eq] using e

/-- Column 2 of the targets, cut out as a one-column matrix and flattened, holds at position b the entry (b, 2). -/
private theorem col2 (T : SX.Idx → BitVec 32)
    (h1 : Cert.Pre_finite_inputs.S4194304x3.Slices ![0, 2] Cert.Pre_finite_inputs.S4194304x1)
    (h2 : Cert.Pre_finite_inputs.S4194304x1.ShapeCasts Cert.Pre_finite_inputs.S4194304) (b : Fin 4194304) :
    shapeCast Cert.Pre_finite_inputs.S4194304 (extractStridedSlice Cert.Pre_finite_inputs.S4194304x1 ![0, 2] T h1) h2 (ix1 b)
      = T (ix2 b (2 : Fin 3)) := by
  unfold shapeCast
  have hk : Shape.reshapeEquiv h2 (ix1 b) = (ix2 b (0 : Fin 1) : Cert.Pre_finite_inputs.S4194304x1.Idx) :=
    Shape.reshapeEquiv_eq_of_rowMajor h2 (by rw [Shape.rowMajor_val_two, Shape.rowMajor_val_one]; simp)
  rw [hk]
  unfold extractStridedSlice
  refine congrArg T (funext fun a => ?_)
  match a with
  | ⟨0, _⟩ => exact Fin.ext (Nat.zero_add _)
  | ⟨1, _⟩ => rfl

theorem of_pre [Cert.Pre_finite_inputs.Facts]
    (X : SX.Idx → EReal) (T : SX.Idx → BitVec 32) (C : SC.Idx → BitVec 32) (W : SW.Idx → EReal)
    (h : Cert.Pre_finite_inputs.fn (F := Ideal) X T C W = fun _ => 1#1) :
    (∀ i, ∃ r : ℝ, X i = (r : EReal)) ∧ (∀ i, ∃ r : ℝ, W i = (r : EReal))
      ∧ (∀ b : Fin 4194304, 100 ≤ (T (ix2 b (2 : Fin 3))).toInt ∧ (T (ix2 b (2 : Fin 3))).toInt < 800)
      ∧ (∀ b : Fin 4194304, 1 ≤ (C (ix1 b)).toInt ∧ (C (ix1 b)).toInt ≤ 21) := by
  have h0 := congrFun h ix0
  dsimp only [Cert.Pre_finite_inputs.fn, Cert.Pre_finite_inputs.fn_part1] at h0
  simp only [andi] at h0
  rw [IntOp.andi_eq_one, IntOp.andi_eq_one, IntOp.andi_eq_one] at h0
  obtain ⟨⟨⟨hX, hW⟩, hT⟩, hC⟩ := h0
  refine ⟨fun i => ?_, fun i => ?_, fun b => ?_, fun b => ?_⟩
  · have e := Host.reduce_andi_all _ _ _ _ _ hX i
    exact real_of_abs_lt (X i) e
  · have e := Host.reduce_andi_all _ _ _ _ _ hW i
    exact real_of_abs_lt (W i) e
  · have e := Host.reduce_andi_all _ _ _ _ _ hT (ix1 b)
    simp only [andi] at e
    rw [IntOp.andi_eq_one] at e
    obtain ⟨e1, e2⟩ := e
    simp only [cmpi, broadcastInDim, constantI, col2] at e1 e2
    exact ⟨sge_toInt _ _ e1, slt_toInt _ _ e2⟩
  · have e := Host.reduce_andi_all _ _ _ _ _ hC (ix1 b)
    simp only [andi] at e
    rw [IntOp.andi_eq_one] at e
    obtain ⟨e1, e2⟩ := e
    simp only [cmpi, broadcastInDim, constantI] at e1 e2
    exact ⟨sge_toInt _ _ e1, sle_toInt _ _ e2⟩

end Cert.PreFacts

end
-- ==== Proof.Bridge.lean ====
/-
  The two closed forms are one number when the predictions and the weights are real: the kernel's order of
  summation is a re-indexing of the samples, a weight distributes over the two sensor terms, and the mean over two
  columns followed by the mean over the samples is the division by twice their number.
-/
import proofs.«424041_j28518582845592_2_alg».proof.Proof.Spec

noncomputable section

namespace Cert.Bridge

open Idealize.ShloMosaic Idealize.ShloMosaic.ValueIdx Cert.Spec

/-! ### Re-indexing: a mixed-radix double sum is a single sum -/

section Reindex
variable {M : Type*} [AddCommMonoid M]

/-- Two digits a < m, b < n run over the numbers a * n + b < m * n exactly once. -/
theorem sum_two_digits (m n N : ℕ) (h : m * n = N) (G : ℕ → M) :
    ∑ a : Fin m, ∑ b : Fin n, G (a.val * n + b.val) = ∑ k : Fin N, G k.val := by
  subst h
  rw [← Fintype.sum_prod_type', ← Equiv.sum_comp finProdFinEquiv (fun k : Fin (m * n) => G k.val)]
  refine Fintype.sum_congr _ _ ?_
  rintro ⟨a, b⟩
  simp only [finProdFinEquiv_apply_val]
  congr 1
  ring

/-- Five digits with radices 2, 8, 256, 8, 128 run over the numbers below 4194304 exactly once. -/
theorem sum_five_digits (G : ℕ → M) :
    ∑ p : Fin 2, ∑ s : Fin 8, ∑ g : Fin 256, ∑ i : Fin 8, ∑ l : Fin 128,
        G ((((p.val * 8 + s.val) * 256 + g.val) * 8 + i.val) * 128 + l.val)
      = ∑ b : Fin 4194304, G b.val := by
  have h1 := sum_two_digits 2 8 16 rfl
    (fun q => ∑ g : Fin 256, ∑ i : Fin 8, ∑ l : Fin 128, G (((q * 256 + g.val) * 8 + i.val) * 128 + l.val))
  have h2 := sum_two_digits 16 256 4096 rfl
    (fun q => ∑ i : Fin 8, ∑ l : Fin 128, G ((q * 8 + i.val) * 128 + l.val))
  have h3 := sum_two_digits 4096 8 32768 rfl (fun q => ∑ l : Fin 128, G (q * 128 + l.val))
  have h4 := sum_two_digits 32768 128 4194304 rfl G
  exact h1.trans (h2.trans (h3.trans h4))

/-- The order in which four of the digits are summed does not matter. -/
theorem sum_digit_order (t : Fin 8 → Fin 256 → Fin 8 → Fin 128 → M) :
    ∑ i : Fin 8, ∑ l : Fin 128, ∑ s : Fin 8, ∑ g : Fin 256, t s g i l
      = ∑ s : Fin 8, ∑ g : Fin 256, ∑ i : Fin 8, ∑ l : Fin 128, t s g i l := by
  calc ∑ i : Fin 8, ∑ l : Fin 128, ∑ s : Fin 8, ∑ g : Fin 256, t s g i l
      = ∑ i : Fin 8, ∑ s : Fin 8, ∑ l : Fin 128, ∑ g : Fin 256, t s g i l :=
        Finset.sum_congr rfl fun i _ => Finset.sum_comm
    _ = ∑ s : Fin 8, ∑ i : Fin 8, ∑ l : Fin 128, ∑ g : Fin 256, t s g i l := Finset.sum_comm
    _ = ∑ s : Fin 8, ∑ i : Fin 8, ∑ g : Fin 256, ∑ l : Fin 128, t s g i l :=
        Finset.sum_congr rfl fun s _ => Finset.sum_congr rfl fun i _ => Finset.sum_comm
    _ = ∑ s : Fin 8, ∑ g : Fin 256, ∑ i : Fin 8, ∑ l : Fin 128, t s g i l :=
        Finset.sum_congr rfl fun s _ => Finset.sum_comm

end Reindex

/-- The kernel's order of summation visits every sample exactly once. -/
theorem kerTotal_eq_sum (f : Fin 4194304 → EReal) : kerTotal f = ∑ b : Fin 4194304, f b := by
  let G : ℕ → EReal := fun n => if h : n < 4194304 then f ⟨n, h⟩ else 0
  have hG : ∀ b : Fin 4194304, f b = G b.val := fun b => by
    simp only [G, dif_pos b.isLt]
  have hb : ∀ p s g i l, f (bidx p s g i l)
      = G ((((p.val * 8 + s.val) * 256 + g.val) * 8 + i.val) * 128 + l.val) := fun p s g i l => by
    rw [hG]
    congr 1
    simp only [bidx]
    ring
  unfold kerTotal
  simp only [hb]
  rw [Fintype.sum_congr _ _ hG, ← sum_five_digits G]
  exact Finset.sum_congr rfl fun p _ =>
    sum_digit_order fun s g i l => G ((((p.val * 8 + s.val) * 256 + g.val) * 8 + i.val) * 128 + l.val)

/-! ### Real values -/

/-- A finite sum of reals, read in the extended reals, is the sum of the readings. -/
theorem coe_sum {ι : Type*} (s : Finset ι) (f : ι → ℝ) :
    ((∑ b ∈ s, f b : ℝ) : EReal) = ∑ b ∈ s, (f b : EReal) := by
  classical
  induction s using Finset.induction_on with
  | empty => simp
  | insert a s ha ih => rw [Finset.sum_insert ha, Finset.sum_insert ha, EReal.coe_add, ih]

/-- The three divisors: 2, the number of samples, and twice that number. -/
theorem lit_two : lit 0x40000000#32 = ((2 : ℝ) : EReal) := by
  simp [Ideal.ofBits, Ideal.ieee, -EReal.coe_mul]; norm_num
theorem lit_count : lit 0x4A800000#32 = ((4194304 : ℝ) : EReal) := by
  simp [Ideal.ofBits, Ideal.ieee, -EReal.coe_mul]; norm_num
theorem lit_twice_count : lit 0x4B000000#32 = ((8388608 : ℝ) : EReal) := by
  simp [Ideal.ofBits, Ideal.ieee, -EReal.coe_mul]

/-- With real weights and real squared differences, the weighted sum of both sensor terms over twice the number of
    samples is the mean over the samples of the mean over the two columns. -/
theorem sensor_mean {ι : Type*} [Fintype ι] (w a c : ι → ℝ) :
    Ideal.div (∑ b, (w b : EReal) * ((a b : EReal) + (c b : EReal))) (lit 0x4B000000#32)
      = Ideal.div (∑ b, Ideal.div ((w b : EReal) * (a b : EReal) + (w b : EReal) * (c b : EReal))
          (lit 0x40000000#32)) (lit 0x4A800000#32) := by
  rw [lit_two, lit_count, lit_twice_count, Ideal.div_coe (by norm_num), Ideal.div_coe (by norm_num)]
  simp only [Ideal.div_coe (two_ne_zero : (2 : ℝ) ≠ 0), ← EReal.coe_mul, ← EReal.coe_add, ← coe_sum]
  congr 1
  rw [Finset.sum_mul, Finset.sum_mul]
  refine Finset.sum_congr rfl fun b _ => ?_
  ring

/-- A weight is a real number. -/
theorem sw_real (T : SX.Idx → BitVec 32) (W : SW.Idx → EReal) (hW : ∀ i, ∃ r : ℝ, W i = (r : EReal))
    (b : Fin 4194304) : ∃ r : ℝ, sw T W b = (r : EReal) := by
  unfold sw wAt
  split
  · exact hW _
  · exact ⟨0, by simp⟩

/-- A squared difference is a real number. -/
theorem sq_dd_real (X : SX.Idx → EReal) (T : SX.Idx → BitVec 32) (hX : ∀ i, ∃ r : ℝ, X i = (r : EReal))
    (j : Fin 3) (b : Fin 4194304) : ∃ r : ℝ, Spec.sq (dd X T j b) = (r : EReal) := by
  obtain ⟨r, hr⟩ := hX (ix2 b j)
  refine ⟨(r - ((T (ix2 b j)).toInt : ℝ)) * (r - ((T (ix2 b j)).toInt : ℝ)), ?_⟩
  simp only [Spec.sq, dd, hr, EReal.coe_mul, EReal.coe_sub]

theorem kspec_eq_rspec (X : SX.Idx → EReal) (T : SX.Idx → BitVec 32) (C : SC.Idx → BitVec 32) (W : SW.Idx → EReal)
    (hX : ∀ i, ∃ r : ℝ, X i = (r : EReal)) (hW : ∀ i, ∃ r : ℝ, W i = (r : EReal)) :
    Kspec X T C W = Rspec X T C W := by
  choose w hw using sw_real T W hW
  choose a ha using sq_dd_real X T hX 0
  choose c hc using sq_dd_real X T hX 1
  unfold Kspec Rspec
  simp only [kerTotal_eq_sum, hw, ha, hc]
  rw [sensor_mean w a c]

end Cert.Bridge

end
-- ==== Proof.Words.lean ====
/-
  Word-level facts about the two programs' index arithmetic.

  Both programs turn the third target `t` into the class index `t / 100 - 1` by a floor division built from a
  truncating division, a remainder and sign tests; the kernel clamps the result into `[0, 6]`, the reference first
  adds 7 to a negative index. For `100 ≤ t < 800` every correction is idle and both words are `t / 100 - 1`.
  Likewise the cycle state `c` with `1 ≤ c ≤ 21` gives the table row `c - 1` on both sides, and the kernel's
  chains of selects over that row are the table's entries.
-/
import proofs.«424041_j28518582845592_2_alg».proof.Proof.Spec

noncomputable section

namespace Cert.Words

open Idealize.ShloMosaic Cert.Spec

/-- A word whose signed value lies in a window of non-negative integers has that value as its unsigned one. -/
private theorem toNat_window (t : BitVec 32) (a b : ℤ) (ha : 0 ≤ a) (h1 : a ≤ t.toInt) (h2 : t.toInt < b) :
    a ≤ (t.toNat : ℤ) ∧ (t.toNat : ℤ) < b := by
  have hlt := t.isLt
  rw [BitVec.toInt_eq_toNat_cond] at h1 h2
  split at h1 <;> rename_i h <;> simp only [h, if_true, if_false] at h2 <;> omega

/-- A word at or above a bound is the literal word of its unsigned value, written as an offset from the bound. -/
private theorem word_shift (t : BitVec 32) (lo : ℕ) (h : lo ≤ t.toNat) : t = BitVec.ofNat 32 (t.toNat - lo + lo) := by
  rw [Nat.sub_add_cancel h]; apply BitVec.eq_of_toNat_eq; rw [BitVec.toNat_ofNat, Nat.mod_eq_of_lt t.isLt]

/-- The kernel's class index at one lane: floor division by 100 (truncating quotient, corrected where the signs
    differ and the remainder is not zero), minus one, clamped to `[0, 6]`. -/
def kIdxW (t2 : BitVec 32) : BitVec 32 :=
  let v19 := IntOp.divsi .vector t2 100#32
  let v26 := IntOp.subi ((IntOp.cmpi .sgt t2 0#32).setWidth 32) ((IntOp.cmpi .slt t2 0#32).setWidth 32)
  let v31 : BitVec 32 := Scalar.subi (Scalar.extui (Scalar.cmpi .sgt 100#32 0#32)) (Scalar.extui (Scalar.cmpi .slt 100#32 0#32))
  let v38 := IntOp.andi (IntOp.cmpi .ne v26 v31) (IntOp.cmpi .ne (IntOp.remsi .vector t2 100#32) 0#32)
  let v41 := Scalar.select v38 (IntOp.subi v19 1#32) v19
  IntOp.minsi 6#32 (IntOp.maxsi 0#32 (IntOp.subi v41 1#32))

theorem idxW_lt (t : BitVec 32) (h1 : 100 ≤ t.toInt) (h2 : t.toInt < 800) : t.toNat / 100 - 1 < 7 := by
  obtain ⟨ha, hb⟩ := toNat_window t 100 800 (by decide) h1 h2
  omega

/-- The 700 admitted words, one by one. -/
private theorem kIdxW_fin : ∀ n : Fin 700,
    kIdxW (BitVec.ofNat 32 (n.val + 100)) = BitVec.ofNat 32 ((BitVec.ofNat 32 (n.val + 100)).toNat / 100 - 1) := by
  decide +kernel

theorem kIdxW_eq (t : BitVec 32) (h1 : 100 ≤ t.toInt) (h2 : t.toInt < 800) :
    kIdxW t = BitVec.ofNat 32 (t.toNat / 100 - 1) := by
  obtain ⟨ha, hb⟩ := toNat_window t 100 800 (by decide) h1 h2
  have key := kIdxW_fin ⟨t.toNat - 100, by omega⟩
  rw [← word_shift t 100 (by omega)] at key
  exact key

/-- The kernel's chain of seven selects over the class index. -/
def kSel (w : Fin 7 → EReal) (m : BitVec 32) : EReal :=
  Scalar.select (IntOp.cmpi .eq m 6#32) (w 6) (Scalar.select (IntOp.cmpi .eq m 5#32) (w 5)
    (Scalar.select (IntOp.cmpi .eq m 4#32) (w 4) (Scalar.select (IntOp.cmpi .eq m 3#32) (w 3)
      (Scalar.select (IntOp.cmpi .eq m 2#32) (w 2) (Scalar.select (IntOp.cmpi .eq m 1#32) (w 1)
        (Scalar.select (IntOp.cmpi .eq m 0#32) (w 0) (lit 0x00000000#32)))))))

theorem kSel_eq (w : Fin 7 → EReal) (n : ℕ) (hn : n < 7) : kSel w (BitVec.ofNat 32 n) = w ⟨n, hn⟩ := by
  have hcases : n = 0 ∨ n = 1 ∨ n = 2 ∨ n = 3 ∨ n = 4 ∨ n = 5 ∨ n = 6 := by omega
  rcases hcases with rfl | rfl | rfl | rfl | rfl | rfl | rfl <;> rfl

/-- The kernel's table row at one lane: the cycle state minus one, clamped to `[0, 20]`. -/
def kIdxC (cy : BitVec 32) : BitVec 32 := IntOp.minsi 20#32 (IntOp.maxsi 0#32 (IntOp.subi cy 1#32))

theorem idxC_lt (cy : BitVec 32) (h1 : 1 ≤ cy.toInt) (h2 : cy.toInt ≤ 21) : cy.toNat - 1 < 21 := by
  obtain ⟨ha, hb⟩ := toNat_window cy 1 22 (by decide) h1 (by omega)
  omega

/-- The 21 admitted cycle states, one by one. -/
private theorem kIdxC_fin : ∀ n : Fin 21,
    kIdxC (BitVec.ofNat 32 (n.val + 1)) = BitVec.ofNat 32 ((BitVec.ofNat 32 (n.val + 1)).toNat - 1) := by
  decide +kernel

theorem kIdxC_eq (cy : BitVec 32) (h1 : 1 ≤ cy.toInt) (h2 : cy.toInt ≤ 21) :
    kIdxC cy = BitVec.ofNat 32 (cy.toNat - 1) := by
  obtain ⟨ha, hb⟩ := toNat_window cy 1 22 (by decide) h1 (by omega)
  have key := kIdxC_fin ⟨cy.toNat - 1, by omega⟩
  rw [← word_shift cy 1 (by omega)] at key
  exact key

/-- The kernel's arithmetic form of the two table columns that vary. -/
def kLo2 (ix : BitVec 32) : EReal :=
  Scalar.select (IntOp.cmpi .eq ix 3#32) (lit 0x45C80000#32)
    (Scalar.select (IntOp.andi (IntOp.cmpi .sge ix 4#32) (IntOp.cmpi .sle ix 7#32)) (lit 0x45BB8000#32) (lit 0x4633B000#32))
def kHi3 (ix : BitVec 32) : EReal :=
  Scalar.select (IntOp.cmpi .eq ix 7#32) (lit 0x464B2000#32) (lit 0x451C4000#32)

/-- The two chains choose among literal patterns, so each is the value of one chosen pattern. -/
private def kLo2Word (ix : BitVec 32) : BitVec 32 :=
  Scalar.select (IntOp.cmpi .eq ix 3#32) 0x45C80000#32
    (Scalar.select (IntOp.andi (IntOp.cmpi .sge ix 4#32) (IntOp.cmpi .sle ix 7#32)) 0x45BB8000#32 0x4633B000#32)
private def kHi3Word (ix : BitVec 32) : BitVec 32 :=
  Scalar.select (IntOp.cmpi .eq ix 7#32) 0x464B2000#32 0x451C4000#32

private theorem kLo2_word (ix : BitVec 32) : kLo2 ix = lit (kLo2Word ix) := by
  unfold kLo2 kLo2Word Scalar.select
  split
  · rfl
  · split <;> rfl
private theorem kHi3_word (ix : BitVec 32) : kHi3 ix = lit (kHi3Word ix) := by
  unfold kHi3 kHi3Word Scalar.select
  split <;> rfl

private theorem kLo2Word_fin : ∀ n : Fin 21, kLo2Word (BitVec.ofNat 32 n.val) = lo2W n.val := by decide +kernel
private theorem kHi3Word_fin : ∀ n : Fin 21, kHi3Word (BitVec.ofNat 32 n.val) = hi3W n.val := by decide +kernel

theorem kLo2_eq (n : ℕ) (hn : n < 21) : kLo2 (BitVec.ofNat 32 n) = lit (lo2W n) := by
  rw [kLo2_word, kLo2Word_fin ⟨n, hn⟩]
theorem kHi3_eq (n : ℕ) (hn : n < 21) : kHi3 (BitVec.ofNat 32 n) = lit (hi3W n) := by
  rw [kHi3_word, kHi3Word_fin ⟨n, hn⟩]

/-- The sign of a word as a word. -/
def signW (x : BitVec 32) : BitVec 32 := if x = 0 then 0 else if x.msb then -1 else 1

/-- The reference's floor division by 100 at one sample. -/
def rFloorDiv (t : BitVec 32) : BitVec 32 :=
  let q := IntOp.divsi .host t 100#32
  let c11 := IntOp.andi (IntOp.cmpi .ne (signW t) (signW 100#32)) (IntOp.cmpi .ne (IntOp.remsi .host t 100#32) 0#32)
  Scalar.select c11 (IntOp.subi q 1#32) q

/-- An index below zero counts from the end of an axis of length `n`. -/
def rWrap (n v : BitVec 32) : BitVec 32 := Scalar.select (IntOp.cmpi .slt v 0#32) (IntOp.addi v n) v

private theorem rIdxW_fin : ∀ n : Fin 700,
    rWrap 7#32 (IntOp.subi (rFloorDiv (BitVec.ofNat 32 (n.val + 100))) 1#32)
      = BitVec.ofNat 32 ((BitVec.ofNat 32 (n.val + 100)).toNat / 100 - 1) := by
  decide +kernel

theorem rIdxW_eq (t : BitVec 32) (h1 : 100 ≤ t.toInt) (h2 : t.toInt < 800) :
    rWrap 7#32 (IntOp.subi (rFloorDiv t) 1#32) = BitVec.ofNat 32 (t.toNat / 100 - 1) := by
  obtain ⟨ha, hb⟩ := toNat_window t 100 800 (by decide) h1 h2
  have key := rIdxW_fin ⟨t.toNat - 100, by omega⟩
  rw [← word_shift t 100 (by omega)] at key
  exact key

private theorem rIdxC_fin : ∀ n : Fin 21,
    rWrap 21#32 (IntOp.subi (BitVec.ofNat 32 (n.val + 1)) 1#32)
      = BitVec.ofNat 32 ((BitVec.ofNat 32 (n.val + 1)).toNat - 1) := by
  decide +kernel

theorem rIdxC_eq (cy : BitVec 32) (h1 : 1 ≤ cy.toInt) (h2 : cy.toInt ≤ 21) :
    rWrap 21#32 (IntOp.subi cy 1#32) = BitVec.ofNat 32 (cy.toNat - 1) := by
  obtain ⟨ha, hb⟩ := toNat_window cy 1 22 (by decide) h1 (by omega)
  have key := rIdxC_fin ⟨cy.toNat - 1, by omega⟩
  rw [← word_shift cy 1 (by omega)] at key
  exact key

/-- A start index inside the axis is not moved by the gather's clamp. -/
private theorem clampW_fin : ∀ n : Fin 7, min (BitVec.ofNat 32 n.val).toInt.toNat (7 - 1) = n.val := by decide +kernel
private theorem clampC_fin : ∀ n : Fin 21, min (BitVec.ofNat 32 n.val).toInt.toNat (21 - 1) = n.val := by decide +kernel

theorem clampW (n : ℕ) (hn : n < 7) : min (BitVec.ofNat 32 n).toInt.toNat (7 - 1) = n := clampW_fin ⟨n, hn⟩
theorem clampC (n : ℕ) (hn : n < 21) : min (BitVec.ofNat 32 n).toInt.toNat (21 - 1) = n := clampC_fin ⟨n, hn⟩

end Cert.Words

end
-- ==== Proof.KerTail.lean ====
/-
  From the grid's last points to the result. Core `p`'s block of each output array is what point `8 p + 7`
  leaves in that output's staging buffer; the host takes entry (p, 0, 0) of each, adds the two cores, divides the
  sensor sum by 8388608 and the anomaly sum by 4194304, and adds the three.
-/
import proofs.«424041_j28518582845592_2_alg».proof.Proof.Gen.KernelIdeal.Frame
import proofs.«424041_j28518582845592_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.KerTail

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The last point of core `p`. -/
def lastPt (p : Fin 2) : Fin cfg0.N := ⟨8 * p.val + 7, by have h : cfg0.N = 16 := N_0; have := p.isLt; omega⟩

/-- Entry (0, 0, 0) of what core `p`'s last point leaves in the three output buffers. -/
def coreS (c : Dev nD) (p : Fin 2) : EReal := (outsAt0 m c (lastPt p).val (lastPt p).isLt).1 (ix3 (0 : Fin 1) (0 : Fin 8) (0 : Fin 128))
def coreA (c : Dev nD) (p : Fin 2) : EReal := (outsAt0 m c (lastPt p).val (lastPt p).isLt).2.1 (ix3 (0 : Fin 1) (0 : Fin 8) (0 : Fin 128))
def coreP (c : Dev nD) (p : Fin 2) : EReal := (outsAt0 m c (lastPt p).val (lastPt p).isLt).2.2.1 (ix3 (0 : Fin 1) (0 : Fin 8) (0 : Fin 128))

/-- The block index of output window 4 at point `t`: the core on the first axis, nothing on the others. -/
theorem idx4 : ∀ t : Fin cfg0.N, win0_4.index t (0 : Fin 3) = t.val / 8 ∧ win0_4.index t (1 : Fin 3) = 0 ∧ win0_4.index t (2 : Fin 3) = 0 :=
  (by decide +kernel : ∀ t : Fin grid0.N, _)

/-- Two different points that write window 4 back are the last points of different cores, and their blocks lie in
    different planes of the array. -/
theorem disj4 : ∀ t t' : Fin cfg0.N, (cfg0.win 4).flush t = true → (cfg0.win 4).flush t' = true → t ≠ t' →
      Disjoint ((cfg0.win 4).blk t).view.set ((cfg0.win 4).blk t').view.set := by
  intro t t' hf hf' hne
  rw [Finset.disjoint_left]
  intro i hi hi'
  obtain ⟨y, hy⟩ := View.exists_emb_of_mem_set _ hi
  obtain ⟨y', hy'⟩ := View.exists_emb_of_mem_set _ hi'
  have h0 : ((((cfg0.win 4).blk t).view.emb y) 0).val = ((((cfg0.win 4).blk t').view.emb y') 0).val := by
    rw [hy, hy']
  change win0_4.index t (0 : Fin 3) * 1 + 1 * (y 0).val = win0_4.index t' (0 : Fin 3) * 1 + 1 * (y' 0).val at h0
  have hy0 : (y 0).val < 1 := (y 0).isLt
  have hy0' : (y' 0).val < 1 := (y' 0).isLt
  have h7 := (flush0_4 t).mp hf
  have h7' := (flush0_4 t').mp hf'
  rw [(idx4 t).1, (idx4 t').1] at h0
  exact hne (Fin.ext (by omega))

/-- Entry (p, 0, 0) of the first output array after the run is what core `p`'s last point left at (0, 0, 0). -/
theorem entry4 (c : Dev nD) (p : Fin 2) :
    ((dats m 0 c).arrAt 4 cfg0.N : Vec Ideal S2x8x128 .f32) (ix3 p (0 : Fin 8) (0 : Fin 128)) = coreS m c p := by
  have hf : (cfg0.win 4).flush (lastPt p) = true := (flush0_4 _).mpr (by show (8 * p.val + 7) % 8 = 7; omega)
  have h := (dats m 0 c).arrAt_emb_eq_flushed 4 disj4 (lastPt p) hf (ix3 (0 : Fin 1) (0 : Fin 8) (0 : Fin 128))
  have he : ((cfg0.win 4).blk (lastPt p)).view.emb (ix3 (0 : Fin 1) (0 : Fin 8) (0 : Fin 128)) = ix3 p (0 : Fin 8) (0 : Fin 128) := by
    funext a; apply Fin.ext
    obtain ⟨i0, i1, i2⟩ := idx4 (lastPt p)
    have hl : (lastPt p).val = 8 * p.val + 7 := rfl
    match a with
    | ⟨0, _⟩ => show win0_4.index (lastPt p) (0 : Fin 3) * 1 + 1 * 0 = p.val; rw [i0, hl]; omega
    | ⟨1, _⟩ => show win0_4.index (lastPt p) (1 : Fin 3) * 8 + 1 * 0 = 0; rw [i1]
    | ⟨2, _⟩ => show win0_4.index (lastPt p) (2 : Fin 3) * 128 + 1 * 0 = 0; rw [i2]
  rw [he] at h
  refine h.trans ?_
  rw [cast_eq]
  show (cfg0.win 4).cut (grid0.coords (lastPt p)) ((dats m 0 c).after 4 (lastPt p)) _ = _
  rw [after0_4]
  rfl

/-- The block index of output window 5 at point `t`: the core on the first axis, nothing on the others. -/
theorem idx5 : ∀ t : Fin cfg0.N, win0_5.index t (0 : Fin 3) = t.val / 8 ∧ win0_5.index t (1 : Fin 3) = 0 ∧ win0_5.index t (2 : Fin 3) = 0 :=
  (by decide +kernel : ∀ t : Fin grid0.N, _)

/-- Two different points that write window 5 back are the last points of different cores, and their blocks lie in
    different planes of the array. -/
theorem disj5 : ∀ t t' : Fin cfg0.N, (cfg0.win 5).flush t = true → (cfg0.win 5).flush t' = true → t ≠ t' →
      Disjoint ((cfg0.win 5).blk t).view.set ((cfg0.win 5).blk t').view.set := by
  intro t t' hf hf' hne
  rw [Finset.disjoint_left]
  intro i hi hi'
  obtain ⟨y, hy⟩ := View.exists_emb_of_mem_set _ hi
  obtain ⟨y', hy'⟩ := View.exists_emb_of_mem_set _ hi'
  have h0 : ((((cfg0.win 5).blk t).view.emb y) 0).val = ((((cfg0.win 5).blk t').view.emb y') 0).val := by
    rw [hy, hy']
  change win0_5.index t (0 : Fin 3) * 1 + 1 * (y 0).val = win0_5.index t' (0 : Fin 3) * 1 + 1 * (y' 0).val at h0
  have hy0 : (y 0).val < 1 := (y 0).isLt
  have hy0' : (y' 0).val < 1 := (y' 0).isLt
  have h7 := (flush0_5 t).mp hf
  have h7' := (flush0_5 t').mp hf'
  rw [(idx5 t).1, (idx5 t').1] at h0
  exact hne (Fin.ext (by omega))

/-- Entry (p, 0, 0) of the second output array after the run is what core `p`'s last point left at (0, 0, 0). -/
theorem entry5 (c : Dev nD) (p : Fin 2) :
    ((dats m 0 c).arrAt 5 cfg0.N : Vec Ideal S2x8x128 .f32) (ix3 p (0 : Fin 8) (0 : Fin 128)) = coreA m c p := by
  have hf : (cfg0.win 5).flush (lastPt p) = true := (flush0_5 _).mpr (by show (8 * p.val + 7) % 8 = 7; omega)
  have h := (dats m 0 c).arrAt_emb_eq_flushed 5 disj5 (lastPt p) hf (ix3 (0 : Fin 1) (0 : Fin 8) (0 : Fin 128))
  have he : ((cfg0.win 5).blk (lastPt p)).view.emb (ix3 (0 : Fin 1) (0 : Fin 8) (0 : Fin 128)) = ix3 p (0 : Fin 8) (0 : Fin 128) := by
    funext a; apply Fin.ext
    obtain ⟨i0, i1, i2⟩ := idx5 (lastPt p)
    have hl : (lastPt p).val = 8 * p.val + 7 := rfl
    match a with
    | ⟨0, _⟩ => show win0_5.index (lastPt p) (0 : Fin 3) * 1 + 1 * 0 = p.val; rw [i0, hl]; omega
    | ⟨1, _⟩ => show win0_5.index (lastPt p) (1 : Fin 3) * 8 + 1 * 0 = 0; rw [i1]
    | ⟨2, _⟩ => show win0_5.index (lastPt p) (2 : Fin 3) * 128 + 1 * 0 = 0; rw [i2]
  rw [he] at h
  refine h.trans ?_
  rw [cast_eq]
  show (cfg0.win 5).cut (grid0.coords (lastPt p)) ((dats m 0 c).after 5 (lastPt p)) _ = _
  rw [after0_5]
  rfl

/-- The block index of output window 6 at point `t`: the core on the first axis, nothing on the others. -/
theorem idx6 : ∀ t : Fin cfg0.N, win0_6.index t (0 : Fin 3) = t.val / 8 ∧ win0_6.index t (1 : Fin 3) = 0 ∧ win0_6.index t (2 : Fin 3) = 0 :=
  (by decide +kernel : ∀ t : Fin grid0.N, _)

/-- Two different points that write window 6 back are the last points of different cores, and their blocks lie in
    different planes of the array. -/
theorem disj6 : ∀ t t' : Fin cfg0.N, (cfg0.win 6).flush t = true → (cfg0.win 6).flush t' = true → t ≠ t' →
      Disjoint ((cfg0.win 6).blk t).view.set ((cfg0.win 6).blk t').view.set := by
  intro t t' hf hf' hne
  rw [Finset.disjoint_left]
  intro i hi hi'
  obtain ⟨y, hy⟩ := View.exists_emb_of_mem_set _ hi
  obtain ⟨y', hy'⟩ := View.exists_emb_of_mem_set _ hi'
  have h0 : ((((cfg0.win 6).blk t).view.emb y) 0).val = ((((cfg0.win 6).blk t').view.emb y') 0).val := by
    rw [hy, hy']
  change win0_6.index t (0 : Fin 3) * 1 + 1 * (y 0).val = win0_6.index t' (0 : Fin 3) * 1 + 1 * (y' 0).val at h0
  have hy0 : (y 0).val < 1 := (y 0).isLt
  have hy0' : (y' 0).val < 1 := (y' 0).isLt
  have h7 := (flush0_6 t).mp hf
  have h7' := (flush0_6 t').mp hf'
  rw [(idx6 t).1, (idx6 t').1] at h0
  exact hne (Fin.ext (by omega))

/-- Entry (p, 0, 0) of the third output array after the run is what core `p`'s last point left at (0, 0, 0). -/
theorem entry6 (c : Dev nD) (p : Fin 2) :
    ((dats m 0 c).arrAt 6 cfg0.N : Vec Ideal S2x8x128 .f32) (ix3 p (0 : Fin 8) (0 : Fin 128)) = coreP m c p := by
  have hf : (cfg0.win 6).flush (lastPt p) = true := (flush0_6 _).mpr (by show (8 * p.val + 7) % 8 = 7; omega)
  have h := (dats m 0 c).arrAt_emb_eq_flushed 6 disj6 (lastPt p) hf (ix3 (0 : Fin 1) (0 : Fin 8) (0 : Fin 128))
  have he : ((cfg0.win 6).blk (lastPt p)).view.emb (ix3 (0 : Fin 1) (0 : Fin 8) (0 : Fin 128)) = ix3 p (0 : Fin 8) (0 : Fin 128) := by
    funext a; apply Fin.ext
    obtain ⟨i0, i1, i2⟩ := idx6 (lastPt p)
    have hl : (lastPt p).val = 8 * p.val + 7 := rfl
    match a with
    | ⟨0, _⟩ => show win0_6.index (lastPt p) (0 : Fin 3) * 1 + 1 * 0 = p.val; rw [i0, hl]; omega
    | ⟨1, _⟩ => show win0_6.index (lastPt p) (1 : Fin 3) * 8 + 1 * 0 = 0; rw [i1]
    | ⟨2, _⟩ => show win0_6.index (lastPt p) (2 : Fin 3) * 128 + 1 * 0 = 0; rw [i2]
  rw [he] at h
  refine h.trans ?_
  rw [cast_eq]
  show (cfg0.win 6).cut (grid0.coords (lastPt p)) ((dats m 0 c).after 6 (lastPt p)) _ = _
  rw [after0_6]
  rfl

/-- The host's reading of one output array: entries (p, 0, 0), p = 0, 1, added onto a zero. -/
def red (a : Vec Ideal S2x8x128 .f32) : Vec Ideal S_ .f32 :=
  Host.reduceAdd (shapeCast S2 (extractStridedSlice S2x1x1 ![0, 0, 0] a Facts₀.slices_S2x8x128_S2x1x1_0_0_0) Facts₀.shapeCasts_S2x1x1_S2)
    (constant (F := Ideal) S_ .f32 0x00000000#32) Facts₀.reducesTo_S2_S_d0 Facts₀.h_S_

/-- A vector of two entries is indexed by its one coordinate. -/
def pair : S2.Idx ≃ Fin 2 where
  toFun i := i 0
  invFun := ix1
  left_inv i := (eq_ix1 i).symm
  right_inv _ := rfl

/-- Read at its one index, that is the sum over the two cores of the array's entries (p, 0, 0): the slice keeps
    row 0 and lane 0 of each core's plane, the reshape keeps the order, and the zero it is added onto is 0. -/
theorem red_apply (a : Vec Ideal S2x8x128 .f32) (j : S_.Idx) :
    red a j = ∑ p : Fin 2, a (ix3 p (0 : Fin 8) (0 : Fin 128)) := by
  unfold red Host.reduceAdd
  rw [Ideal.hostReduceAdd_def]
  rw [Ideal.hostReduceAdd_total Facts₀.reducesTo_S2_S_d0 (fun b => b.elim0)]
  rw [constant_apply, Ideal.ofBits_zero_f32, zero_add]
  refine Fintype.sum_equiv pair _ _ (fun i => ?_)
  refine (shapeCast_apply _ _ i (ix3 (i 0) (0 : Fin 1) (0 : Fin 1)) ?_).trans ?_
  · rw [Shape.rowMajor_val_three, Shape.rowMajor_val_one]
    show ((i 0).val * 1 + 0) * 1 + 0 = (i 0).val
    omega
  · refine extractStridedSlice_apply _ _ _ _ (ix3 (pair i) (0 : Fin 8) (0 : Fin 128)) (fun b => ?_)
    match b with
    | ⟨0, _⟩ => show (i 0).val = 0 + (i 0).val; omega
    | ⟨1, _⟩ => rfl
    | ⟨2, _⟩ => rfl

/-- The host's lines after the region, from any contents `W`: each output array read by `red`, the first two
    divided by their constants, the three added. -/
theorem tail_after (W : Valuation τ sig (Elt Ideal)) :
    StableHlo.after (hostOps1 (F := Ideal)) W (Proc.devRef .tc main_v23)
      = addf (addf (Host.divf (red (W (Proc.devRef .tc main_v10_0))) (constant (F := Ideal) S_ .f32 0x4B000000#32))
                   (Host.divf (red (W (Proc.devRef .tc main_v10_1))) (constant (F := Ideal) S_ .f32 0x4A800000#32)))
             (red (W (Proc.devRef .tc main_v10_2))) := by
  after_results
  rfl

/-- The host's lines after the region, from any contents whose three output arrays have the entries `s`, `a`, `q`
    at (p, 0, 0): the two means and the sum of the three. -/
theorem tail_val (W : Valuation τ sig (Elt Ideal)) (s a q : Fin 2 → EReal)
    (h4 : ∀ p : Fin 2, (W (Proc.devRef .tc main_v10_0) : Vec Ideal S2x8x128 .f32) (ix3 p (0 : Fin 8) (0 : Fin 128)) = s p)
    (h5 : ∀ p : Fin 2, (W (Proc.devRef .tc main_v10_1) : Vec Ideal S2x8x128 .f32) (ix3 p (0 : Fin 8) (0 : Fin 128)) = a p)
    (h6 : ∀ p : Fin 2, (W (Proc.devRef .tc main_v10_2) : Vec Ideal S2x8x128 .f32) (ix3 p (0 : Fin 8) (0 : Fin 128)) = q p) :
    StableHlo.after (hostOps1 (F := Ideal)) W (Proc.devRef .tc main_v23)
      = (fun _ => (Ideal.div (∑ p : Fin 2, s p) (Cert.Spec.lit 0x4B000000#32)
                + Ideal.div (∑ p : Fin 2, a p) (Cert.Spec.lit 0x4A800000#32))
              + ∑ p : Fin 2, q p) := by
  rw [tail_after]
  funext j
  show (Ideal.div (red (W (Proc.devRef .tc main_v10_0)) j) (Cert.Spec.lit 0x4B000000#32)
      + Ideal.div (red (W (Proc.devRef .tc main_v10_1)) j) (Cert.Spec.lit 0x4A800000#32))
      + red (W (Proc.devRef .tc main_v10_2)) j = _
  rw [red_apply, red_apply, red_apply]
  simp only [h4, h5, h6]

/-- What the result buffer holds after the host's last lines. -/
theorem tailv (c : Dev nD) :
    Pipeline.afterTail₀ cfgs (dats m) 0 (V0 m) [hostOps1] c main_v23
      = (fun _ => (Ideal.div (∑ p : Fin 2, coreS m c p) (Cert.Spec.lit 0x4B000000#32)
                + Ideal.div (∑ p : Fin 2, coreA m c p) (Cert.Spec.lit 0x4A800000#32))
              + ∑ p : Fin 2, coreP m c p) := by
  have e4 : Pipeline.withArrays spec0 c (V0 m c) (fun w => (dats m 0 c).arrAt w cfg0.N) (Proc.devRef .tc main_v10_0)
      = (dats m 0 c).arrAt 4 cfg0.N := Pipeline.withArrays_arr spec0 launch0.win.arr_inj c _ _ 4
  have e5 : Pipeline.withArrays spec0 c (V0 m c) (fun w => (dats m 0 c).arrAt w cfg0.N) (Proc.devRef .tc main_v10_1)
      = (dats m 0 c).arrAt 5 cfg0.N := Pipeline.withArrays_arr spec0 launch0.win.arr_inj c _ _ 5
  have e6 : Pipeline.withArrays spec0 c (V0 m c) (fun w => (dats m 0 c).arrAt w cfg0.N) (Proc.devRef .tc main_v10_2)
      = (dats m 0 c).arrAt 6 cfg0.N := Pipeline.withArrays_arr spec0 launch0.win.arr_inj c _ _ 6
  unfold Pipeline.afterTail₀
  show StableHlo.after hostOps1 (Pipeline.withArrays spec0 c (V0 m c) (fun w => (dats m 0 c).arrAt w cfg0.N)) (Proc.devRef .tc main_v23) = _
  exact tail_val _ (coreS m c) (coreA m c) (coreP m c)
    (fun p => (congrFun e4 _).trans (entry4 m c p))
    (fun p => (congrFun e5 _).trans (entry5 m c p))
    (fun p => (congrFun e6 _).trans (entry6 m c p))

/-- The program runs; its result is the host's combination of the two cores' entries, and its arguments are
    as they were. -/
theorem run_tail :
    θ_run (defs (F := Ideal)) (onTc (τ := τ) (main (F := Ideal))) ⟨m, fun _ => 0, ρ⟩ (fun r => ∀ c : Dev nD,
      r.2.mem ((c.tc : Thread nD τ).loc main_v23)
          = (fun _ => (Ideal.div (∑ p : Fin 2, coreS m c p) (Cert.Spec.lit 0x4B000000#32)
                + Ideal.div (∑ p : Fin 2, coreA m c p) (Cert.Spec.lit 0x4A800000#32))
              + ∑ p : Fin 2, coreP m c p)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v23 (Pipeline.mem_restRefs_of main_v23 (by decide) (by decide))).trans (tailv m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.KerTail

end
-- ==== Proof.KerPieces.lean ====
/-
  What each control case of the body leaves in the three accumulators and the three output buffers, as pure
  terms over the four loaded blocks. A tile's per-sample sensor and anomaly terms are the class weight times the
  squared differences of the feature rows; each accumulator ends a point at its value before (zero at a core's
  first point) plus the tile's terms folded over the sublane groups; at a core's last point each output block
  is its accumulator's total, broadcast.
-/
import proofs.«424041_j28518582845592_2_alg».proof.Proof.Gen.KernelIdeal.Frame
import Idealize.ShloMosaic.Lib.Tactic
import Idealize.ShloMosaic.Lib.Pipeline.Value

set_option maxRecDepth 16384

noncomputable section

namespace Cert.KernelIdeal.KerPieces

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

section Terms
variable (x0 : Vec F S3x2048x128 .f32) (x1 : Vec F S3x2048x128 .i32) (x2 : Vec F S2048x128 .i32) (x3 : Vec F S8x128 .f32)

/-- The three feature rows of the prediction block. -/
def X0 : Vec F S1x2048x128 .f32 := View.ld x0 (Rect.unit (s := S3x2048x128) ![0, 0, 0] ![1, 2048, 128] inb_S3x2048x128_S1x2048x128_0_0_0)
def X1 : Vec F S1x2048x128 .f32 := View.ld x0 (Rect.unit (s := S3x2048x128) ![1, 0, 0] ![1, 2048, 128] inb_S3x2048x128_S1x2048x128_1_0_0)
def X2 : Vec F S1x2048x128 .f32 := View.ld x0 (Rect.unit (s := S3x2048x128) ![2, 0, 0] ![1, 2048, 128] inb_S3x2048x128_S1x2048x128_2_0_0)
/-- The three feature rows of the target block. -/
def T0 : Vec F S1x2048x128 .i32 := View.ld x1 (Rect.unit (s := S3x2048x128) ![0, 0, 0] ![1, 2048, 128] inb_S3x2048x128_S1x2048x128_0_0_0)
def T1 : Vec F S1x2048x128 .i32 := View.ld x1 (Rect.unit (s := S3x2048x128) ![1, 0, 0] ![1, 2048, 128] inb_S3x2048x128_S1x2048x128_1_0_0)
def T2 : Vec F S1x2048x128 .i32 := View.ld x1 (Rect.unit (s := S3x2048x128) ![2, 0, 0] ![1, 2048, 128] inb_S3x2048x128_S1x2048x128_2_0_0)
/-- The first row of the weight block. -/
def W0 : Vec F S1x128 .f32 := View.ld x3 (Rect.unit (s := S8x128) ![0, 0] ![1, 128] inb_S8x128_S1x128_0_0)

/-- Every lane's class index, clamped. -/
def cls : IVec S2048x128 32 := k0_pay18 (k0_pay12 (T2 x1)) (100#32) (k0_pay16 (T2 x1)) (k0_pay17 (T2 x1)) (1#32)
/-- Every lane's weighted sensor term and weighted anomaly term. -/
def sens : FVec F S2048x128 .f32 :=
  k0_pay24 (k0_pay9 (X0 x0)) (k0_pay10 (X1 x0)) (k0_pay13 (T0 x1)) (k0_pay14 (T1 x1)) (cls x1) (k0_pay19 (W0 x3)) (k0_pay20 (k0_pay12 (T2 x1)) (100#32) (k0_pay16 (T2 x1)) (k0_pay17 (T2 x1)) (1#32) (W0 x3)) (k0_pay21 (k0_pay12 (T2 x1)) (100#32) (k0_pay16 (T2 x1)) (k0_pay17 (T2 x1)) (1#32)) (k0_pay22 (W0 x3))
def anom : FVec F S2048x128 .f32 :=
  k0_pay25 (k0_pay11 (X2 x0)) (k0_pay15 (T2 x1)) (cls x1) (k0_pay19 (W0 x3)) (k0_pay20 (k0_pay12 (T2 x1)) (100#32) (k0_pay16 (T2 x1)) (k0_pay17 (T2 x1)) (1#32) (W0 x3)) (k0_pay21 (k0_pay12 (T2 x1)) (100#32) (k0_pay16 (T2 x1)) (k0_pay17 (T2 x1)) (1#32)) (k0_pay22 (W0 x3))

/-- The three accumulators after a point that found them at `a`. -/
def accS (a : Vec F S8x128 .f32) : FVec F S8x128 .f32 := k0_pay31 (sens x0 x1 x3) a
def accA (a : Vec F S8x128 .f32) : FVec F S8x128 .f32 := k0_pay1 (k0_pay29 (anom x0 x1 x3)) a
def accP (a : Vec F S8x128 .f32) : FVec F S8x128 .f32 :=
  k0_pay2 (k0_pay30 (k0_pay13 (T0 x1)) (k0_pay14 (T1 x1)) (k0_pay27 x2) (k0_pay28 x2) (FloatOps.ofBits FTy.f32 0x464B2000#32)) a

/-- A tile's three partials: its per-sample terms folded over the 256 sublane groups. -/
def foldS : FVec F S8x128 .f32 :=
  multiReduction .add [0] S8x128 (shapeCast S256x8x128 (sens x0 x1 x3) shapeCasts_S2048x128_S256x8x128) 0x00000000#32
    reduces_S256x8x128_S8x128 (.inl rfl) rfl
def foldA : FVec F S8x128 .f32 := k0_pay29 (anom x0 x1 x3)
def foldP : FVec F S8x128 .f32 :=
  k0_pay30 (k0_pay13 (T0 x1)) (k0_pay14 (T1 x1)) (k0_pay27 x2) (k0_pay28 x2) (FloatOps.ofBits FTy.f32 0x464B2000#32)

/-- Each accumulator ends a point at what it held plus the tile's partial. -/
theorem accS_eq (a : Vec F S8x128 .f32) : accS x0 x1 x3 a = addf a (foldS x0 x1 x3) := by
  unfold accS k0_pay31 foldS; exact shapeCast_self (addf a _) shapeCasts_S8x128_S8x128
theorem accA_eq (a : Vec F S8x128 .f32) : accA x0 x1 x3 a = addf a (foldA x0 x1 x3) := by
  unfold accA k0_pay1 foldA; exact shapeCast_self (addf a _) shapeCasts_S8x128_S8x128
theorem accP_eq (a : Vec F S8x128 .f32) : accP x1 x2 a = addf a (foldP x1 x2) := by
  unfold accP k0_pay2 foldP; exact shapeCast_self (addf a _) shapeCasts_S8x128_S8x128

/-- The cleared accumulator is the zero splat. -/
theorem clear6 : (k0_pay6 : FVec F S8x128 .f32) = broadcast S8x128 (Scalar.ofBits .f32 0x00000000#32) := shapeCast_self _ _
theorem clear7 : (k0_pay7 : FVec F S8x128 .f32) = broadcast S8x128 (Scalar.ofBits .f32 0x00000000#32) := shapeCast_self _ _
theorem clear8 : (k0_pay8 : FVec F S8x128 .f32) = broadcast S8x128 (Scalar.ofBits .f32 0x00000000#32) := shapeCast_self _ _

end Terms

theorem sout_A_0 (c : Dev nD) (i : grid0.Coords) (arg2 : Memref sig .tc .vmem S3x2048x128 .f32) (harg2 : arg2.IsWhole) (arg3 : Memref sig .tc .vmem S3x2048x128 .i32) (harg3 : arg3.IsWhole) (arg4 : Memref sig .tc .vmem S2048x128 .i32) (harg4 : arg4.IsWhole) (arg5 : Memref sig .tc .vmem S8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : cond0_0 i) (hc1 : ¬cond0_1 i) (x0 : Vec F S3x2048x128 .f32) (x1 : Vec F S3x2048x128 .i32) (x2 : Vec F S2048x128 .i32) (x3 : Vec F S8x128 .f32) :
    sout0_A_0 c i arg2 harg2 arg3 harg3 arg4 harg4 arg5 harg5 arg6 harg6 arg7 harg7 arg8 harg8 arg9 harg9 arg10 harg10 arg11 harg11 hc0 hc1 x0 x1 x2 x3 = accS x0 x1 x3 k0_pay6 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S8x128) hz2]
  simp only [accS, accA, accP, sens, anom, cls, X0, X1, X2, T0, T1, T2, W0, View.readAt_eq_ld, harg2.read_unread, harg3.read_unread, harg4.read_unread, harg5.read_unread, harg6.read_unread, harg7.read_unread, harg8.read_unread, harg9.read_unread, harg10.read_unread, harg11.read_unread, View.ld_unit_zero (S := S8x128) hz2, View.ld_unit_zero (S := S2048x128) hz2, View.readCov_unit_zero (S := S8x128) _ hz2]

theorem sout_A_1 (c : Dev nD) (i : grid0.Coords) (arg2 : Memref sig .tc .vmem S3x2048x128 .f32) (harg2 : arg2.IsWhole) (arg3 : Memref sig .tc .vmem S3x2048x128 .i32) (harg3 : arg3.IsWhole) (arg4 : Memref sig .tc .vmem S2048x128 .i32) (harg4 : arg4.IsWhole) (arg5 : Memref sig .tc .vmem S8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : cond0_0 i) (hc1 : ¬cond0_1 i) (x0 : Vec F S3x2048x128 .f32) (x1 : Vec F S3x2048x128 .i32) (x2 : Vec F S2048x128 .i32) (x3 : Vec F S8x128 .f32) :
    sout0_A_1 c i arg2 harg2 arg3 harg3 arg4 harg4 arg5 harg5 arg6 harg6 arg7 harg7 arg8 harg8 arg9 harg9 arg10 harg10 arg11 harg11 hc0 hc1 x0 x1 x2 x3 = accA x0 x1 x3 k0_pay7 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S8x128) hz2]
  simp only [accS, accA, accP, sens, anom, cls, X0, X1, X2, T0, T1, T2, W0, View.readAt_eq_ld, harg2.read_unread, harg3.read_unread, harg4.read_unread, harg5.read_unread, harg6.read_unread, harg7.read_unread, harg8.read_unread, harg9.read_unread, harg10.read_unread, harg11.read_unread, View.ld_unit_zero (S := S8x128) hz2, View.ld_unit_zero (S := S2048x128) hz2, View.readCov_unit_zero (S := S8x128) _ hz2]

theorem sout_A_2 (c : Dev nD) (i : grid0.Coords) (arg2 : Memref sig .tc .vmem S3x2048x128 .f32) (harg2 : arg2.IsWhole) (arg3 : Memref sig .tc .vmem S3x2048x128 .i32) (harg3 : arg3.IsWhole) (arg4 : Memref sig .tc .vmem S2048x128 .i32) (harg4 : arg4.IsWhole) (arg5 : Memref sig .tc .vmem S8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : cond0_0 i) (hc1 : ¬cond0_1 i) (x0 : Vec F S3x2048x128 .f32) (x1 : Vec F S3x2048x128 .i32) (x2 : Vec F S2048x128 .i32) (x3 : Vec F S8x128 .f32) :
    sout0_A_2 c i arg2 harg2 arg3 harg3 arg4 harg4 arg5 harg5 arg6 harg6 arg7 harg7 arg8 harg8 arg9 harg9 arg10 harg10 arg11 harg11 hc0 hc1 x0 x1 x2 x3 = accP x1 x2 k0_pay8 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S8x128) hz2]
  simp only [accS, accA, accP, sens, anom, cls, X0, X1, X2, T0, T1, T2, W0, View.readAt_eq_ld, harg2.read_unread, harg3.read_unread, harg4.read_unread, harg5.read_unread, harg6.read_unread, harg7.read_unread, harg8.read_unread, harg9.read_unread, harg10.read_unread, harg11.read_unread, View.ld_unit_zero (S := S8x128) hz2, View.ld_unit_zero (S := S2048x128) hz2, View.readCov_unit_zero (S := S8x128) _ hz2]

theorem sout_B_0 (c : Dev nD) (i : grid0.Coords) (arg2 : Memref sig .tc .vmem S3x2048x128 .f32) (harg2 : arg2.IsWhole) (arg3 : Memref sig .tc .vmem S3x2048x128 .i32) (harg3 : arg3.IsWhole) (arg4 : Memref sig .tc .vmem S2048x128 .i32) (harg4 : arg4.IsWhole) (arg5 : Memref sig .tc .vmem S8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : ¬cond0_1 i) (x0 : Vec F S3x2048x128 .f32) (x1 : Vec F S3x2048x128 .i32) (x2 : Vec F S2048x128 .i32) (x3 : Vec F S8x128 .f32) (xs0 : Vec F S8x128 .f32) (xs1 : Vec F S8x128 .f32) (xs2 : Vec F S8x128 .f32) :
    sout0_B_0 c i arg2 harg2 arg3 harg3 arg4 harg4 arg5 harg5 arg6 harg6 arg7 harg7 arg8 harg8 arg9 harg9 arg10 harg10 arg11 harg11 hc0 hc1 x0 x1 x2 x3 xs0 xs1 xs2 = accS x0 x1 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_B
  dsimp only
  sl_unfold_words
  rw [View.canon_unit_zero hz2]
  simp only [accS, accA, accP, sens, anom, cls, X0, X1, X2, T0, T1, T2, W0, View.readAt_eq_ld, harg2.read_unread, harg3.read_unread, harg4.read_unread, harg5.read_unread, harg6.read_unread, harg7.read_unread, harg8.read_unread, harg9.read_unread, harg10.read_unread, harg11.read_unread, View.ld_unit_zero (S := S8x128) hz2, View.ld_unit_zero (S := S2048x128) hz2, View.readCov_unit_zero (S := S8x128) _ hz2]

theorem sout_B_1 (c : Dev nD) (i : grid0.Coords) (arg2 : Memref sig .tc .vmem S3x2048x128 .f32) (harg2 : arg2.IsWhole) (arg3 : Memref sig .tc .vmem S3x2048x128 .i32) (harg3 : arg3.IsWhole) (arg4 : Memref sig .tc .vmem S2048x128 .i32) (harg4 : arg4.IsWhole) (arg5 : Memref sig .tc .vmem S8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : ¬cond0_1 i) (x0 : Vec F S3x2048x128 .f32) (x1 : Vec F S3x2048x128 .i32) (x2 : Vec F S2048x128 .i32) (x3 : Vec F S8x128 .f32) (xs0 : Vec F S8x128 .f32) (xs1 : Vec F S8x128 .f32) (xs2 : Vec F S8x128 .f32) :
    sout0_B_1 c i arg2 harg2 arg3 harg3 arg4 harg4 arg5 harg5 arg6 harg6 arg7 harg7 arg8 harg8 arg9 harg9 arg10 harg10 arg11 harg11 hc0 hc1 x0 x1 x2 x3 xs0 xs1 xs2 = accA x0 x1 x3 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_B
  dsimp only
  sl_unfold_words
  rw [View.canon_unit_zero hz2]
  simp only [accS, accA, accP, sens, anom, cls, X0, X1, X2, T0, T1, T2, W0, View.readAt_eq_ld, harg2.read_unread, harg3.read_unread, harg4.read_unread, harg5.read_unread, harg6.read_unread, harg7.read_unread, harg8.read_unread, harg9.read_unread, harg10.read_unread, harg11.read_unread, View.ld_unit_zero (S := S8x128) hz2, View.ld_unit_zero (S := S2048x128) hz2, View.readCov_unit_zero (S := S8x128) _ hz2]

theorem sout_B_2 (c : Dev nD) (i : grid0.Coords) (arg2 : Memref sig .tc .vmem S3x2048x128 .f32) (harg2 : arg2.IsWhole) (arg3 : Memref sig .tc .vmem S3x2048x128 .i32) (harg3 : arg3.IsWhole) (arg4 : Memref sig .tc .vmem S2048x128 .i32) (harg4 : arg4.IsWhole) (arg5 : Memref sig .tc .vmem S8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : ¬cond0_1 i) (x0 : Vec F S3x2048x128 .f32) (x1 : Vec F S3x2048x128 .i32) (x2 : Vec F S2048x128 .i32) (x3 : Vec F S8x128 .f32) (xs0 : Vec F S8x128 .f32) (xs1 : Vec F S8x128 .f32) (xs2 : Vec F S8x128 .f32) :
    sout0_B_2 c i arg2 harg2 arg3 harg3 arg4 harg4 arg5 harg5 arg6 harg6 arg7 harg7 arg8 harg8 arg9 harg9 arg10 harg10 arg11 harg11 hc0 hc1 x0 x1 x2 x3 xs0 xs1 xs2 = accP x1 x2 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_B
  dsimp only
  sl_unfold_words
  rw [View.canon_unit_zero hz2]
  simp only [accS, accA, accP, sens, anom, cls, X0, X1, X2, T0, T1, T2, W0, View.readAt_eq_ld, harg2.read_unread, harg3.read_unread, harg4.read_unread, harg5.read_unread, harg6.read_unread, harg7.read_unread, harg8.read_unread, harg9.read_unread, harg10.read_unread, harg11.read_unread, View.ld_unit_zero (S := S8x128) hz2, View.ld_unit_zero (S := S2048x128) hz2, View.readCov_unit_zero (S := S8x128) _ hz2]

theorem sout_C_0 (c : Dev nD) (i : grid0.Coords) (arg2 : Memref sig .tc .vmem S3x2048x128 .f32) (harg2 : arg2.IsWhole) (arg3 : Memref sig .tc .vmem S3x2048x128 .i32) (harg3 : arg3.IsWhole) (arg4 : Memref sig .tc .vmem S2048x128 .i32) (harg4 : arg4.IsWhole) (arg5 : Memref sig .tc .vmem S8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : cond0_1 i) (x0 : Vec F S3x2048x128 .f32) (x1 : Vec F S3x2048x128 .i32) (x2 : Vec F S2048x128 .i32) (x3 : Vec F S8x128 .f32) (xs0 : Vec F S8x128 .f32) (xs1 : Vec F S8x128 .f32) (xs2 : Vec F S8x128 .f32) :
    sout0_C_0 c i arg2 harg2 arg3 harg3 arg4 harg4 arg5 harg5 arg6 harg6 arg7 harg7 arg8 harg8 arg9 harg9 arg10 harg10 arg11 harg11 hc0 hc1 x0 x1 x2 x3 xs0 xs1 xs2 = accS x0 x1 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero hz2]
  simp only [accS, accA, accP, sens, anom, cls, X0, X1, X2, T0, T1, T2, W0, View.readAt_eq_ld, harg2.read_unread, harg3.read_unread, harg4.read_unread, harg5.read_unread, harg6.read_unread, harg7.read_unread, harg8.read_unread, harg9.read_unread, harg10.read_unread, harg11.read_unread, View.ld_unit_zero (S := S8x128) hz2, View.ld_unit_zero (S := S2048x128) hz2, View.readCov_unit_zero (S := S8x128) _ hz2]

theorem sout_C_1 (c : Dev nD) (i : grid0.Coords) (arg2 : Memref sig .tc .vmem S3x2048x128 .f32) (harg2 : arg2.IsWhole) (arg3 : Memref sig .tc .vmem S3x2048x128 .i32) (harg3 : arg3.IsWhole) (arg4 : Memref sig .tc .vmem S2048x128 .i32) (harg4 : arg4.IsWhole) (arg5 : Memref sig .tc .vmem S8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : cond0_1 i) (x0 : Vec F S3x2048x128 .f32) (x1 : Vec F S3x2048x128 .i32) (x2 : Vec F S2048x128 .i32) (x3 : Vec F S8x128 .f32) (xs0 : Vec F S8x128 .f32) (xs1 : Vec F S8x128 .f32) (xs2 : Vec F S8x128 .f32) :
    sout0_C_1 c i arg2 harg2 arg3 harg3 arg4 harg4 arg5 harg5 arg6 harg6 arg7 harg7 arg8 harg8 arg9 harg9 arg10 harg10 arg11 harg11 hc0 hc1 x0 x1 x2 x3 xs0 xs1 xs2 = accA x0 x1 x3 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero hz2]
  simp only [accS, accA, accP, sens, anom, cls, X0, X1, X2, T0, T1, T2, W0, View.readAt_eq_ld, harg2.read_unread, harg3.read_unread, harg4.read_unread, harg5.read_unread, harg6.read_unread, harg7.read_unread, harg8.read_unread, harg9.read_unread, harg10.read_unread, harg11.read_unread, View.ld_unit_zero (S := S8x128) hz2, View.ld_unit_zero (S := S2048x128) hz2, View.readCov_unit_zero (S := S8x128) _ hz2]

theorem sout_C_2 (c : Dev nD) (i : grid0.Coords) (arg2 : Memref sig .tc .vmem S3x2048x128 .f32) (harg2 : arg2.IsWhole) (arg3 : Memref sig .tc .vmem S3x2048x128 .i32) (harg3 : arg3.IsWhole) (arg4 : Memref sig .tc .vmem S2048x128 .i32) (harg4 : arg4.IsWhole) (arg5 : Memref sig .tc .vmem S8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : cond0_1 i) (x0 : Vec F S3x2048x128 .f32) (x1 : Vec F S3x2048x128 .i32) (x2 : Vec F S2048x128 .i32) (x3 : Vec F S8x128 .f32) (xs0 : Vec F S8x128 .f32) (xs1 : Vec F S8x128 .f32) (xs2 : Vec F S8x128 .f32) :
    sout0_C_2 c i arg2 harg2 arg3 harg3 arg4 harg4 arg5 harg5 arg6 harg6 arg7 harg7 arg8 harg8 arg9 harg9 arg10 harg10 arg11 harg11 hc0 hc1 x0 x1 x2 x3 xs0 xs1 xs2 = accP x1 x2 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero hz2]
  simp only [accS, accA, accP, sens, anom, cls, X0, X1, X2, T0, T1, T2, W0, View.readAt_eq_ld, harg2.read_unread, harg3.read_unread, harg4.read_unread, harg5.read_unread, harg6.read_unread, harg7.read_unread, harg8.read_unread, harg9.read_unread, harg10.read_unread, harg11.read_unread, View.ld_unit_zero (S := S8x128) hz2, View.ld_unit_zero (S := S2048x128) hz2, View.readCov_unit_zero (S := S8x128) _ hz2]

theorem out_C_4 (c : Dev nD) (i : grid0.Coords) (arg2 : Memref sig .tc .vmem S3x2048x128 .f32) (harg2 : arg2.IsWhole) (arg3 : Memref sig .tc .vmem S3x2048x128 .i32) (harg3 : arg3.IsWhole) (arg4 : Memref sig .tc .vmem S2048x128 .i32) (harg4 : arg4.IsWhole) (arg5 : Memref sig .tc .vmem S8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : cond0_1 i) (x0 : Vec F S3x2048x128 .f32) (x1 : Vec F S3x2048x128 .i32) (x2 : Vec F S2048x128 .i32) (x3 : Vec F S8x128 .f32) (xs0 : Vec F S8x128 .f32) (xs1 : Vec F S8x128 .f32) (xs2 : Vec F S8x128 .f32) :
    out0_C_4 c i arg2 harg2 arg3 harg3 arg4 harg4 arg5 harg5 arg6 harg6 arg7 harg7 arg8 harg8 arg9 harg9 arg10 harg10 arg11 harg11 hc0 hc1 x0 x1 x2 x3 xs0 xs1 xs2 = k0_pay3 (accS x0 x1 x3 xs0) := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero hz3]
  simp only [accS, accA, accP, sens, anom, cls, X0, X1, X2, T0, T1, T2, W0, View.readAt_eq_ld, harg2.read_unread, harg3.read_unread, harg4.read_unread, harg5.read_unread, harg6.read_unread, harg7.read_unread, harg8.read_unread, harg9.read_unread, harg10.read_unread, harg11.read_unread, View.ld_unit_zero (S := S8x128) hz2, View.ld_unit_zero (S := S2048x128) hz2, View.readCov_unit_zero (S := S8x128) _ hz2]

theorem out_C_5 (c : Dev nD) (i : grid0.Coords) (arg2 : Memref sig .tc .vmem S3x2048x128 .f32) (harg2 : arg2.IsWhole) (arg3 : Memref sig .tc .vmem S3x2048x128 .i32) (harg3 : arg3.IsWhole) (arg4 : Memref sig .tc .vmem S2048x128 .i32) (harg4 : arg4.IsWhole) (arg5 : Memref sig .tc .vmem S8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : cond0_1 i) (x0 : Vec F S3x2048x128 .f32) (x1 : Vec F S3x2048x128 .i32) (x2 : Vec F S2048x128 .i32) (x3 : Vec F S8x128 .f32) (xs0 : Vec F S8x128 .f32) (xs1 : Vec F S8x128 .f32) (xs2 : Vec F S8x128 .f32) :
    out0_C_5 c i arg2 harg2 arg3 harg3 arg4 harg4 arg5 harg5 arg6 harg6 arg7 harg7 arg8 harg8 arg9 harg9 arg10 harg10 arg11 harg11 hc0 hc1 x0 x1 x2 x3 xs0 xs1 xs2 = k0_pay4 (accA x0 x1 x3 xs1) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero hz3]
  simp only [accS, accA, accP, sens, anom, cls, X0, X1, X2, T0, T1, T2, W0, View.readAt_eq_ld, harg2.read_unread, harg3.read_unread, harg4.read_unread, harg5.read_unread, harg6.read_unread, harg7.read_unread, harg8.read_unread, harg9.read_unread, harg10.read_unread, harg11.read_unread, View.ld_unit_zero (S := S8x128) hz2, View.ld_unit_zero (S := S2048x128) hz2, View.readCov_unit_zero (S := S8x128) _ hz2]

theorem out_C_6 (c : Dev nD) (i : grid0.Coords) (arg2 : Memref sig .tc .vmem S3x2048x128 .f32) (harg2 : arg2.IsWhole) (arg3 : Memref sig .tc .vmem S3x2048x128 .i32) (harg3 : arg3.IsWhole) (arg4 : Memref sig .tc .vmem S2048x128 .i32) (harg4 : arg4.IsWhole) (arg5 : Memref sig .tc .vmem S8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : cond0_1 i) (x0 : Vec F S3x2048x128 .f32) (x1 : Vec F S3x2048x128 .i32) (x2 : Vec F S2048x128 .i32) (x3 : Vec F S8x128 .f32) (xs0 : Vec F S8x128 .f32) (xs1 : Vec F S8x128 .f32) (xs2 : Vec F S8x128 .f32) :
    out0_C_6 c i arg2 harg2 arg3 harg3 arg4 harg4 arg5 harg5 arg6 harg6 arg7 harg7 arg8 harg8 arg9 harg9 arg10 harg10 arg11 harg11 hc0 hc1 x0 x1 x2 x3 xs0 xs1 xs2 = k0_pay5 (accP x1 x2 xs2) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero hz3]
  simp only [accS, accA, accP, sens, anom, cls, X0, X1, X2, T0, T1, T2, W0, View.readAt_eq_ld, harg2.read_unread, harg3.read_unread, harg4.read_unread, harg5.read_unread, harg6.read_unread, harg7.read_unread, harg8.read_unread, harg9.read_unread, harg10.read_unread, harg11.read_unread, View.ld_unit_zero (S := S8x128) hz2, View.ld_unit_zero (S := S2048x128) hz2, View.readCov_unit_zero (S := S8x128) _ hz2]

end Cert.KernelIdeal.KerPieces

end
-- ==== Proof.KerBlocks.lean ====
/-
  What the body loads at a grid point. Point `t = 8 p + s` of the (2, 8) grid stages row block `t` of the
  feature-major arrays: 2048 rows of 128 lanes, so lane `l` of row `r` is sample `(2048 t + r) · 128 + l`; the
  feature-major arrays are the transposed arguments cut into rows of 128, and the weight block's first row holds
  the seven weights.
-/
import proofs.«424041_j28518582845592_2_alg».proof.Proof.Gen.KernelIdeal.Frame
import proofs.«424041_j28518582845592_2_alg».proof.Proof.Spec
import Idealize.ShloMosaic.Lib.Pipeline.Value
import Idealize.ShloMosaic.Lib.ValueIdx
import Idealize.ShloMosaic.Lib.ValueLayout

noncomputable section

namespace Cert.KernelIdeal.KerBlocks

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The four input blocks at point `t`, at their literal types. -/
abbrev xblk (c : Dev nD) (t : Fin cfg0.N) : Vec Ideal S3x2048x128 .f32 := iblk m c 0 t
abbrev tblk (c : Dev nD) (t : Fin cfg0.N) : Vec Ideal S3x2048x128 .i32 := iblk m c 1 t
abbrev cblk (c : Dev nD) (t : Fin cfg0.N) : Vec Ideal S2048x128 .i32 := iblk m c 2 t
abbrev wblk (c : Dev nD) (t : Fin cfg0.N) : Vec Ideal S8x128 .f32 := iblk m c 3 t

/-- The sample in lane `l` of row `r` of the tile of point `t`. -/
def gidx (t : Fin cfg0.N) (r : Fin 2048) (l : Fin 128) : Fin 4194304 :=
  ⟨(t.val * 2048 + r.val) * 128 + l.val, by
    have h : cfg0.N = 16 := N_0
    have := t.isLt; have := r.isLt; have := l.isLt; omega⟩

/-- The printed index maps over the sixteen points. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

theorem V_main_v4 (c : Dev nD) :
    (V m c main_v4 : S32768x128.Idx → BitVec 32)
      = shapeCast S32768x128 (m ((c.tc : Thread nD τ).loc main_arg2) : S4194304.Idx → BitVec 32) Facts₀.shapeCasts_S4194304_S32768x128 := by
  show StableHlo.after hostOps0 (fun b => m (c, b)) (Proc.devRef .tc main_v4) = _
  after_results
  rfl

theorem V_main_v1 (c : Dev nD) :
    (V m c main_v1 : S3x32768x128.Idx → EReal)
      = shapeCast S3x32768x128
          (transpose S3x4194304 [1, 0] (m ((c.tc : Thread nD τ).loc main_arg0) : S4194304x3.Idx → EReal) Facts₀.transposes_S4194304x3_S3x4194304_1_0)
          Facts₀.shapeCasts_S3x4194304_S3x32768x128 := by
  show StableHlo.after hostOps0 (fun b => m (c, b)) (Proc.devRef .tc main_v1) = _
  after_results
  rfl

theorem V_main_v3 (c : Dev nD) :
    (V m c main_v3 : S3x32768x128.Idx → BitVec 32)
      = shapeCast S3x32768x128
          (transpose S3x4194304 [1, 0] (m ((c.tc : Thread nD τ).loc main_arg1) : S4194304x3.Idx → BitVec 32) Facts₀.transposes_S4194304x3_S3x4194304_1_0)
          Facts₀.shapeCasts_S3x4194304_S3x32768x128 := by
  show StableHlo.after hostOps0 (fun b => m (c, b)) (Proc.devRef .tc main_v3) = _
  after_results
  rfl

/-- The feature-major array cut into rows of 128 lanes, read at feature `f`, row `R`, lane `l`: sample `128 R + l`. -/
theorem featureMajor_apply {α : Type} (x : S4194304x3.Idx → α) (f : Fin 3) (R : Fin 32768) (l : Fin 128) (b : Fin 4194304)
    (hb : b.val = R.val * 128 + l.val) :
    shapeCast S3x32768x128 (transpose S3x4194304 [1, 0] x Facts₀.transposes_S4194304x3_S3x4194304_1_0)
        Facts₀.shapeCasts_S3x4194304_S3x32768x128 (ix3 f R l) = x (ix2 b f) := by
  refine (shapeCast_apply _ _ _ (ix2 f b) ?_).trans ?_
  · rw [Shape.rowMajor_val_two, Shape.rowMajor_val_three]
    show f.val * 4194304 + b.val = (f.val * 32768 + R.val) * 128 + l.val
    omega
  · exact transpose_ix2_apply x _ f b

theorem xblk_apply (c : Dev nD) (t : Fin cfg0.N) (f : Fin 3) (r : Fin 2048) (l : Fin 128) :
    xblk m c t (ix3 f r l)
      = (m ((c.tc : Thread nD τ).loc main_arg0) : Cert.Spec.SX.Idx → EReal) (ix2 (gidx t r l) f) := by
  show V m c main_v1 (((cfg0.win 0).blk t).view.emb (ix3 f r l)) = _
  obtain ⟨e0, e1, e2, -, -, -, -, -, -, -⟩ := idx_facts t
  have hN : cfg0.N = 16 := N_0
  have hR : t.val * 2048 + r.val < 32768 := by have := t.isLt; have := r.isLt; omega
  have hemb : ((cfg0.win 0).blk t).view.emb (ix3 f r l) = ix3 f (⟨t.val * 2048 + r.val, hR⟩ : Fin 32768) l := by
    funext a; apply Fin.ext
    match a with
    | ⟨0, _⟩ => show win0_0.index t (0 : Fin 3) * 3 + 1 * f.val = f.val; rw [e0]; omega
    | ⟨1, _⟩ => show win0_0.index t (1 : Fin 3) * 2048 + 1 * r.val = t.val * 2048 + r.val; rw [e1]; omega
    | ⟨2, _⟩ => show win0_0.index t (2 : Fin 3) * 128 + 1 * l.val = l.val; rw [e2]; omega
  rw [hemb, V_main_v1]
  exact featureMajor_apply _ f _ l (gidx t r l) rfl

theorem tblk_apply (c : Dev nD) (t : Fin cfg0.N) (f : Fin 3) (r : Fin 2048) (l : Fin 128) :
    tblk m c t (ix3 f r l)
      = (m ((c.tc : Thread nD τ).loc main_arg1) : Cert.Spec.SX.Idx → BitVec 32) (ix2 (gidx t r l) f) := by
  show V m c main_v3 (((cfg0.win 1).blk t).view.emb (ix3 f r l)) = _
  obtain ⟨-, -, -, e0, e1, e2, -, -, -, -⟩ := idx_facts t
  have hN : cfg0.N = 16 := N_0
  have hR : t.val * 2048 + r.val < 32768 := by have := t.isLt; have := r.isLt; omega
  have hemb : ((cfg0.win 1).blk t).view.emb (ix3 f r l) = ix3 f (⟨t.val * 2048 + r.val, hR⟩ : Fin 32768) l := by
    funext a; apply Fin.ext
    match a with
    | ⟨0, _⟩ => show win0_1.index t (0 : Fin 3) * 3 + 1 * f.val = f.val; rw [e0]; omega
    | ⟨1, _⟩ => show win0_1.index t (1 : Fin 3) * 2048 + 1 * r.val = t.val * 2048 + r.val; rw [e1]; omega
    | ⟨2, _⟩ => show win0_1.index t (2 : Fin 3) * 128 + 1 * l.val = l.val; rw [e2]; omega
  rw [hemb, V_main_v3]
  exact featureMajor_apply _ f _ l (gidx t r l) rfl

theorem cblk_apply (c : Dev nD) (t : Fin cfg0.N) (r : Fin 2048) (l : Fin 128) :
    cblk m c t (ix2 r l)
      = (m ((c.tc : Thread nD τ).loc main_arg2) : Cert.Spec.SC.Idx → BitVec 32) (ix1 (gidx t r l)) := by
  show V m c main_v4 (((cfg0.win 2).blk t).view.emb (ix2 r l)) = _
  obtain ⟨-, -, -, -, -, -, e0, e1, -, -⟩ := idx_facts t
  rw [V_main_v4]
  refine shapeCast_apply _ _ _ (ix1 (gidx t r l)) ?_
  rw [Shape.rowMajor_val_one, Shape.rowMajor_val_two]
  show (gidx t r l).val = (win0_2.index t (0 : Fin 2) * 2048 + 1 * r.val) * 128 + (win0_2.index t (1 : Fin 2) * 128 + 1 * l.val)
  rw [e0, e1]
  show (t.val * 2048 + r.val) * 128 + l.val = _
  omega

theorem V_main_v9 (c : Dev nD) :
    (V m c main_v9 : S8x128.Idx → EReal)
      = Host.scatter scatter_S8x128_S2_S7_0_0_01_0 (fun _ b => b)
          (broadcastInDim S8x128 ![] Facts₀.bcast_S_S8x128 (constant (F := Ideal) S_ .f32 0x00000000#32))
          (concatenate S2 0 [⟨S1, broadcastInDim S1 ![] Facts₀.bcast_S_S1 (constantI S_ 32 0#32)⟩,
              ⟨S1, broadcastInDim S1 ![] Facts₀.bcast_S_S1 (constantI S_ 32 0#32)⟩] Facts₀.concatenates_S1_S1_S2_d0)
          (m ((c.tc : Thread nD τ).loc main_arg3) : S7.Idx → EReal) := by
  show StableHlo.after hostOps0 (fun b => m (c, b)) (Proc.devRef .tc main_v9) = _
  after_results

/-- With both start components zero, weight `k` lands in lane `k` of row 0. -/
theorem scatter_lands : ∀ k : Fin 7,
    scatter_S8x128_S2_S7_0_0_01_0.resultIdx? (ix1 k) (fun _ : S2.Idx => 0#32)
      = some (ix2 (0 : Fin 8) (⟨k.val, by have := k.isLt; omega⟩ : Fin 128)) := by
  decide +kernel

/-- A left fold of writes at positions no two of which coincide: a position not written keeps its value. -/
theorem foldl_write_of_not_mem {ι β α : Type} [DecidableEq β] (g : ι → β) (u : ι → α) (hg : Function.Injective g) :
    ∀ (L : List ι) (x : β → α) (k : ι), k ∉ L →
      (L.foldl (fun r n => fun i' => if i' = g n then u n else r i') x) (g k) = x (g k) := by
  intro L
  induction L with
  | nil => intro x k _; rfl
  | cons a L ih =>
    intro x k hk
    rw [List.foldl_cons, ih _ k (fun h => hk (List.mem_cons_of_mem _ h))]
    have hne : g k ≠ g a := fun h => hk (by rw [hg h]; exact List.mem_cons_self)
    exact if_neg hne

/-- … and a position written once holds what was written there. -/
theorem foldl_write_of_mem {ι β α : Type} [DecidableEq β] (g : ι → β) (u : ι → α) (hg : Function.Injective g) :
    ∀ (L : List ι) (x : β → α) (k : ι), k ∈ L → L.Nodup →
      (L.foldl (fun r n => fun i' => if i' = g n then u n else r i') x) (g k) = u k := by
  intro L
  induction L with
  | nil => intro x k hk; exact absurd hk List.not_mem_nil
  | cons a L ih =>
    intro x k hk hnd
    rw [List.foldl_cons]
    rcases List.mem_cons.1 hk with rfl | hk'
    · rw [foldl_write_of_not_mem g u hg L _ k (List.nodup_cons.1 hnd).1]
      exact if_pos rfl
    · exact ih _ k hk' (List.nodup_cons.1 hnd).2

/-- Seven values scattered at the start `(0, 0)` into an `(8, 128)` array: lane `k` of row 0 holds value `k`. -/
theorem scatter_row0_apply (x : S8x128.Idx → EReal) (idx : IVec S2 32) (hidx : idx = fun _ => 0#32)
    (upd : S7.Idx → EReal) (k : Fin 7) :
    Host.scatter scatter_S8x128_S2_S7_0_0_01_0 (fun _ b => b) x idx upd
        (ix2 (0 : Fin 8) (⟨k.val, by have := k.isLt; omega⟩ : Fin 128)) = upd (ix1 k) := by
  subst hidx
  let g' : S7.Idx → S8x128.Idx := fun j =>
    ix2 (0 : Fin 8) (⟨(j 0).val, by have h7 : (j 0).val < 7 := (j 0).isLt; omega⟩ : Fin 128)
  let g : Fin S7.numel → S8x128.Idx := fun n => g' (S7.rowMajor.symm n)
  have hres : ∀ n : Fin S7.numel,
      scatter_S8x128_S2_S7_0_0_01_0.resultIdx? (S7.rowMajor.symm n) (fun _ : S2.Idx => 0#32) = some (g n) := by
    intro n
    obtain ⟨q, hq⟩ : ∃ q, S7.rowMajor.symm n = ix1 q := ⟨_, eq_ix1 _⟩
    show _ = some (g' (S7.rowMajor.symm n))
    rw [hq]
    exact scatter_lands q
  have hg : Function.Injective g := by
    intro n n' h
    have h1 : ((S7.rowMajor.symm n) 0).val = ((S7.rowMajor.symm n') 0).val := by
      have := congrArg Fin.val (congrFun h 1); exact this
    have h2 : S7.rowMajor.symm n = S7.rowMajor.symm n' := by
      rw [eq_ix1 (S7.rowMajor.symm n), eq_ix1 (S7.rowMajor.symm n')]; exact congrArg ix1 (Fin.ext h1)
    exact S7.rowMajor.symm.injective h2
  have hgk : g (S7.rowMajor (ix1 k)) = ix2 (0 : Fin 8) (⟨k.val, by have := k.isLt; omega⟩ : Fin 128) := by
    show g' (S7.rowMajor.symm (S7.rowMajor (ix1 k))) = _
    rw [Equiv.symm_apply_apply]
  unfold Host.scatter
  simp only [hres]
  have h := foldl_write_of_mem g (fun n => upd (S7.rowMajor.symm n)) hg (List.finRange S7.numel) x
    (S7.rowMajor (ix1 k)) (List.mem_finRange _) (List.nodup_finRange _)
  rw [hgk, Equiv.symm_apply_apply] at h
  exact h

theorem wblk_apply (c : Dev nD) (t : Fin cfg0.N) (k : Fin 7) :
    wblk m c t (ix2 (0 : Fin 8) (⟨k.val, by have := k.isLt; omega⟩ : Fin 128))
      = (m ((c.tc : Thread nD τ).loc main_arg3) : Cert.Spec.SW.Idx → EReal) (ix1 k) := by
  show V m c main_v9 (((cfg0.win 3).blk t).view.emb (ix2 (0 : Fin 8) (⟨k.val, by have := k.isLt; omega⟩ : Fin 128))) = _
  obtain ⟨-, -, -, -, -, -, -, -, e0, e1⟩ := idx_facts t
  have hemb : ((cfg0.win 3).blk t).view.emb (ix2 (0 : Fin 8) (⟨k.val, by have := k.isLt; omega⟩ : Fin 128))
      = ix2 (0 : Fin 8) (⟨k.val, by have := k.isLt; omega⟩ : Fin 128) := by
    funext a; apply Fin.ext
    match a with
    | ⟨0, _⟩ => show win0_3.index t (0 : Fin 2) * 8 + 1 * 0 = 0; rw [e0]
    | ⟨1, _⟩ => show win0_3.index t (1 : Fin 2) * 128 + 1 * k.val = k.val; rw [e1]; omega
  rw [hemb, V_main_v9]
  refine scatter_row0_apply _ _ ?_ _ k
  -- both start components are the zero word
  have hz : ∀ p ∈ ([⟨S1, broadcastInDim S1 ![] Facts₀.bcast_S_S1 (constantI S_ 32 0#32)⟩,
        ⟨S1, broadcastInDim S1 ![] Facts₀.bcast_S_S1 (constantI S_ 32 0#32)⟩] : List ((r : Shape) × IVec r 32)),
      ∀ i, p.2 i = 0#32 := by
    intro p hp i
    simp only [List.mem_cons, List.mem_nil_iff, or_false, or_self] at hp
    subst hp
    rfl
  funext j
  unfold concatenate
  exact hz _ (List.getElem_mem _) _

end Cert.KernelIdeal.KerBlocks

end
-- ==== Proof.KerParts.lean ====
/-
  The three partial sums a grid point adds into the accumulators, as functions of the point: the folds over the
  256 sublane groups of the tile's weighted sensor terms, weighted anomaly terms and range penalties, computed
  from the blocks the point loads. Past the grid they are zero, so that sums over a core's eight steps need no
  bound on the point.
-/
import proofs.«424041_j28518582845592_2_alg».proof.Proof.KerPieces
import proofs.«424041_j28518582845592_2_alg».proof.Proof.KerBlocks

noncomputable section

namespace Cert.KernelIdeal.KerParts

open Idealize.ShloMosaic Idealize.ShloMosaic.TcCoe Idealize.SL.Sem Idealize.ShloMosaic.ValueIdx
open Cert.KernelIdeal Cert.KernelIdeal.Gen Cert.KernelIdeal.KerPieces Cert.KernelIdeal.KerBlocks

variable (m : (ℓ : Loc nD τ sig) → Buf (Elt Ideal) ℓ)

/-- The sensor, anomaly and penalty partials of the tile of point `n`. -/
def partS (c : Dev nD) (n : ℕ) : FVec Ideal S8x128 .f32 :=
  if h : n < cfg0.N then foldS (xblk m c ⟨n, h⟩) (tblk m c ⟨n, h⟩) (wblk m c ⟨n, h⟩) else fun _ => (0 : EReal)
def partA (c : Dev nD) (n : ℕ) : FVec Ideal S8x128 .f32 :=
  if h : n < cfg0.N then foldA (xblk m c ⟨n, h⟩) (tblk m c ⟨n, h⟩) (wblk m c ⟨n, h⟩) else fun _ => (0 : EReal)
def partP (c : Dev nD) (n : ℕ) : FVec Ideal S8x128 .f32 :=
  if h : n < cfg0.N then foldP (tblk m c ⟨n, h⟩) (cblk m c ⟨n, h⟩) else fun _ => (0 : EReal)

theorem partS_of_lt (c : Dev nD) (t : Fin cfg0.N) :
    partS m c t.val = foldS (xblk m c t) (tblk m c t) (wblk m c t) := dif_pos t.isLt
theorem partA_of_lt (c : Dev nD) (t : Fin cfg0.N) :
    partA m c t.val = foldA (xblk m c t) (tblk m c t) (wblk m c t) := dif_pos t.isLt
theorem partP_of_lt (c : Dev nD) (t : Fin cfg0.N) :
    partP m c t.val = foldP (tblk m c t) (cblk m c t) := dif_pos t.isLt

end Cert.KernelIdeal.KerParts

end
-- ==== Proof.KerSums.lean ====
/-
  The sums the kernel's payloads take, read at an index. Adding a 2048 x 128 tile over its 256 sublane groups leaves,
  at lane (i, l), the sum over g of the tile's row 8 g + i; adding an 8 x 128 accumulator over all its lanes and
  writing the total to every lane leaves the double sum over (i, l) everywhere. Row r = 8 g + i of the tile of grid
  point t = 8 p + s holds, in lane l, the sample the closed form calls bidx p s g i l.
-/
import proofs.«424041_j28518582845592_2_alg».proof.KernelIdeal
import proofs.«424041_j28518582845592_2_alg».proof.Proof.Gen.KernelIdeal.Skeleton
import proofs.«424041_j28518582845592_2_alg».proof.Proof.Spec
import proofs.«424041_j28518582845592_2_alg».proof.Proof.KerBlocks
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KerSums

open Idealize.ShloMosaic Idealize.SL.Sem Idealize.ShloMosaic.ValueIdx
open Cert.KernelIdeal Cert.KernelIdeal.Gen

/-! ### Grid points and rows by their digits -/

/-- The grid point 8 p + s. -/
def pt (p : Fin 2) (s : Fin 8) : Fin cfg0.N :=
  ⟨8 * p.val + s.val, by have h : cfg0.N = 16 := N_0; have := p.isLt; have := s.isLt; omega⟩

/-- Row 8 g + i of a tile. -/
def row (g : Fin 256) (i : Fin 8) : Fin 2048 :=
  ⟨8 * g.val + i.val, by have := g.isLt; have := i.isLt; omega⟩

theorem pt_val (p : Fin 2) (s : Fin 8) : (pt p s).val = 8 * p.val + s.val := rfl
theorem row_val (g : Fin 256) (i : Fin 8) : (row g i).val = 8 * g.val + i.val := rfl

/-- Every grid point is 8 p + s for one core p and one step s. -/
theorem exists_pt (t : Fin cfg0.N) : ∃ p s, t = pt p s := by
  have h : cfg0.N = 16 := N_0
  have ht := t.isLt
  exact ⟨⟨t.val / 8, by omega⟩, ⟨t.val % 8, by omega⟩, Fin.ext (by show t.val = 8 * (t.val / 8) + t.val % 8; omega)⟩

/-- Every row is 8 g + i for one sublane group g and one sublane i. -/
theorem exists_row (r : Fin 2048) : ∃ g i, r = row g i := by
  have hr := r.isLt
  exact ⟨⟨r.val / 8, by omega⟩, ⟨r.val % 8, by omega⟩, Fin.ext (by show r.val = 8 * (r.val / 8) + r.val % 8; omega)⟩

/-! ### The fold over sublane groups -/

/-- Row-major, entry (g, i, l) of the 256 x 8 x 128 view is entry (8 g + i, l) of the 2048 x 128 tile. -/
theorem groups_apply (v : FVec Ideal S2048x128 .f32) (h : S2048x128.ShapeCasts S256x8x128)
    (g : Fin 256) (i : Fin 8) (l : Fin 128) :
    shapeCast S256x8x128 v h (ix3 g i l)
      = v (ix2 (row g i) l) :=
  shapeCast_apply v h _ _ (by
    rw [Shape.rowMajor_val_two, Shape.rowMajor_val_three]
    show (8 * g.val + i.val) * 128 + l.val = (g.val * 8 + i.val) * 128 + l.val
    omega)

/-- The sum over the leading axis of that view, at lane (i, l), is the sum over g of the tile's rows 8 g + i. -/
theorem fold_groups' (v : FVec Ideal S2048x128 .f32) (h : S2048x128.ShapeCasts S256x8x128)
    (hr : S256x8x128.Reduces [0] S8x128) (hφ : FKind.Formats .f32)
    (hacc : (0x00000000#32 : BitVec 32) = FKind.add.neutral .f32 hφ) (i : Fin 8) (l : Fin 128) :
    multiReduction (F := Ideal) .add [0] S8x128 (shapeCast S256x8x128 v h) 0x00000000#32 hr hφ hacc (ix2 i l)
      = ∑ g : Fin 256, v (ix2 (row g i) l) := by
  rw [Ideal.multiReduction_add_single]
  refine Finset.sum_congr rfl fun g _ => ?_
  exact groups_apply v h g i l

/-- The same, with the side conditions spelt as the program spells them. -/
theorem fold_groups (v : FVec Ideal S2048x128 .f32) (h : S2048x128.ShapeCasts S256x8x128)
    (hr : S256x8x128.Reduces [0] S8x128) (i : Fin 8) (l : Fin 128) :
    multiReduction (F := Ideal) .add [0] S8x128 (shapeCast S256x8x128 v h) 0x00000000#32 hr (.inl rfl) rfl (ix2 i l)
      = ∑ g : Fin 256, v (ix2 (row g i) l) :=
  fold_groups' v h hr _ _ i l

/-- A same-shape cast reads the operand. -/
theorem cast_same (x : FVec Ideal S8x128 .f32) (h : S8x128.ShapeCasts S8x128) (j : S8x128.Idx) :
    shapeCast S8x128 x h j = x j :=
  shapeCast_apply x h j j rfl

/-- The payload that folds a tile over its sublane groups. -/
theorem pay29_apply (v : FVec Ideal S2048x128 .f32) (i : Fin 8) (l : Fin 128) :
    k0_pay29 (F := Ideal) v (ix2 i l) = ∑ g : Fin 256, v (ix2 (row g i) l) := by
  unfold k0_pay29
  exact fold_groups v _ _ i l

/-- The payload that adds a tile's fold to an accumulator. -/
theorem pay31_apply (v : FVec Ideal S2048x128 .f32) (acc : Vec Ideal S8x128 .f32) (i : Fin 8) (l : Fin 128) :
    k0_pay31 (F := Ideal) v acc (ix2 i l) = acc (ix2 i l) + ∑ g : Fin 256, v (ix2 (row g i) l) := by
  unfold k0_pay31
  rw [cast_same, addf_apply, fold_groups]

/-- The payloads that add a folded vector to an accumulator. -/
theorem pay1_apply (x : FVec Ideal S8x128 .f32) (acc : Vec Ideal S8x128 .f32) (j : S8x128.Idx) :
    k0_pay1 (F := Ideal) x acc j = acc j + x j := by
  unfold k0_pay1
  rw [cast_same, addf_apply]

theorem pay2_apply (x : FVec Ideal S8x128 .f32) (acc : Vec Ideal S8x128 .f32) (j : S8x128.Idx) :
    k0_pay2 (F := Ideal) x acc j = acc j + x j := by
  unfold k0_pay2
  rw [cast_same, addf_apply]

/-! ### The total over the lanes -/

/-- The sum over all lanes of an 8 x 128 vector, as the reduction of its 1 x 8 x 128 view computes it. -/
theorem lane_total' (a : FVec Ideal S8x128 .f32) (h : S8x128.ShapeCasts S1x8x128)
    (hr : S1x8x128.Reduces [1, 2] S1) (hφ : FKind.Formats .f32)
    (hacc : (0x00000000#32 : BitVec 32) = FKind.add.neutral .f32 hφ) (j : S1.Idx) :
    multiReduction (F := Ideal) .add [1, 2] S1 (shapeCast S1x8x128 a h) 0x00000000#32 hr hφ hacc j
      = ∑ i : Fin 8, ∑ l : Fin 128, a (ix2 i l) := by
  rw [Ideal.multiReduction_add_total _ _ _ (fun b => match b with | ⟨0, _⟩ => rfl)]
  unfold shapeCast
  rw [Equiv.sum_comp (Shape.reshapeEquiv h) a]
  exact sum_idx2 a

/-- The same, with the side conditions spelt as the program spells them. -/
theorem lane_total (a : FVec Ideal S8x128 .f32) (h : S8x128.ShapeCasts S1x8x128)
    (hr : S1x8x128.Reduces [1, 2] S1) (j : S1.Idx) :
    multiReduction (F := Ideal) .add [1, 2] S1 (shapeCast S1x8x128 a h) 0x00000000#32 hr (.inl rfl) rfl j
      = ∑ i : Fin 8, ∑ l : Fin 128, a (ix2 i l) :=
  lane_total' a h hr _ _ j

/-- The payload that totals an accumulator and writes the total to every lane reads the double sum everywhere. -/
theorem pay3_apply (a : Vec Ideal S8x128 .f32) (y : S1x8x128.Idx) :
    k0_pay3 (F := Ideal) a y = ∑ i : Fin 8, ∑ l : Fin 128, a (ix2 i l) := by
  unfold k0_pay3 shapeCast extractAt broadcast
  exact lane_total' a _ _ _ _ _

theorem pay4_apply (a : Vec Ideal S8x128 .f32) (y : S1x8x128.Idx) :
    k0_pay4 (F := Ideal) a y = ∑ i : Fin 8, ∑ l : Fin 128, a (ix2 i l) := by
  unfold k0_pay4 shapeCast extractAt broadcast
  exact lane_total' a _ _ _ _ _

theorem pay5_apply (a : Vec Ideal S8x128 .f32) (y : S1x8x128.Idx) :
    k0_pay5 (F := Ideal) a y = ∑ i : Fin 8, ∑ l : Fin 128, a (ix2 i l) := by
  unfold k0_pay5 shapeCast extractAt broadcast
  exact lane_total' a _ _ _ _ _

/-! ### Index arithmetic -/

/-- Lane l of row 8 g + i of the tile of grid point 8 p + s holds sample bidx p s g i l. -/
theorem gidx_eq_bidx (p : Fin 2) (s : Fin 8) (g : Fin 256) (i : Fin 8) (l : Fin 128)
    (t : Fin cfg0.N) (r : Fin 2048) (ht : t.val = 8 * p.val + s.val) (hr : r.val = 8 * g.val + i.val) :
    KerBlocks.gidx t r l = Cert.Spec.bidx p s g i l := by
  refine Fin.ext ?_
  show (t.val * 2048 + r.val) * 128 + l.val = ((p.val * 8 + s.val) * 2048 + (g.val * 8 + i.val)) * 128 + l.val
  rw [ht, hr]
  ring

theorem gidx_pt_row (p : Fin 2) (s : Fin 8) (g : Fin 256) (i : Fin 8) (l : Fin 128) :
    KerBlocks.gidx (pt p s) (row g i) l = Cert.Spec.bidx p s g i l :=
  gidx_eq_bidx p s g i l _ _ rfl rfl

/-! ### A sum over the first eight steps -/

/-- The sum over the steps below 8, as a sum over Fin 8. -/
theorem sum_range_eight {M : Type*} [AddCommMonoid M] (f : ℕ → M) :
    ∑ s ∈ Finset.range 8, f s = ∑ s : Fin 8, f s.val :=
  (Fin.sum_univ_eq_sum_range f 8).symm

/-- One more step: the sum over the steps below n + 1 is the sum below n plus the term at n. -/
theorem sum_range_step {M : Type*} [AddCommMonoid M] (f : ℕ → M) (n : ℕ) :
    ∑ s ∈ Finset.range (n + 1), f s = ∑ s ∈ Finset.range n, f s + f n :=
  Finset.sum_range_succ f n

end Cert.KernelIdeal.KerSums

end
-- ==== Proof.KerAcc.lean ====
/-
  The accumulators point by point. A core's first point clears them, so after the point `n` each holds, lane by
  lane, the sum of the partials of the points of its core up to `n`; the core's last point leaves in every entry
  of each output block the accumulator's total over its 1024 lanes. Hence entry (0, 0, 0) of a core's output blocks
  is the sum, over the lanes and the core's eight steps, of the tiles' partials.
-/
import proofs.«424041_j28518582845592_2_alg».proof.Proof.KerParts
import proofs.«424041_j28518582845592_2_alg».proof.Proof.KerTail
import proofs.«424041_j28518582845592_2_alg».proof.Proof.KerSums

noncomputable section

namespace Cert.KernelIdeal.KerAcc

open Idealize.ShloMosaic Idealize.ShloMosaic.TcCoe Idealize.SL.Sem Idealize.ShloMosaic.ValueIdx
open Cert.KernelIdeal Cert.KernelIdeal.Gen Cert.KernelIdeal.KerPieces Cert.KernelIdeal.KerBlocks
open Cert.KernelIdeal.KerParts Cert.KernelIdeal.KerTail

variable (m : (ℓ : Loc nD τ sig) → Buf (Elt Ideal) ℓ)

/-! ### One point's effect on the accumulators -/

/-- A core's first point: each accumulator is the cleared one plus the tile's partial. -/
theorem first_pt (c : Dev nD) (t : Fin cfg0.N) (h0 : t.val % 8 = 0) :
    (outsAt0 m c t.val t.isLt).2.2.2.1 = accS (xblk m c t) (tblk m c t) (wblk m c t) (k0_pay6 (F := Ideal))
    ∧ (outsAt0 m c t.val t.isLt).2.2.2.2.1 = accA (xblk m c t) (tblk m c t) (wblk m c t) (k0_pay7 (F := Ideal))
    ∧ (outsAt0 m c t.val t.isLt).2.2.2.2.2 = accP (tblk m c t) (cblk m c t) (k0_pay8 (F := Ideal)) := by
  have h1 : ¬t.val % 8 = 7 := by omega
  rw [outsAt0_A m c t h0 h1]
  dsimp only
  refine ⟨?_, ?_, ?_⟩
  · exact KerPieces.sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)
  · exact KerPieces.sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)
  · exact KerPieces.sout_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)

/-- A later point that is not its core's last: each accumulator is what the point before left plus the tile's partial. -/
theorem mid_pt (c : Dev nD) (n : ℕ) (hn : n + 1 < cfg0.N) (h0 : ¬(n + 1) % 8 = 0) (h1 : ¬(n + 1) % 8 = 7) :
    (outsAt0 m c (n + 1) hn).2.2.2.1
        = accS (xblk m c ⟨n + 1, hn⟩) (tblk m c ⟨n + 1, hn⟩) (wblk m c ⟨n + 1, hn⟩) (outsAt0 m c n (Nat.lt_of_succ_lt hn)).2.2.2.1
    ∧ (outsAt0 m c (n + 1) hn).2.2.2.2.1
        = accA (xblk m c ⟨n + 1, hn⟩) (tblk m c ⟨n + 1, hn⟩) (wblk m c ⟨n + 1, hn⟩) (outsAt0 m c n (Nat.lt_of_succ_lt hn)).2.2.2.2.1
    ∧ (outsAt0 m c (n + 1) hn).2.2.2.2.2
        = accP (tblk m c ⟨n + 1, hn⟩) (cblk m c ⟨n + 1, hn⟩) (outsAt0 m c n (Nat.lt_of_succ_lt hn)).2.2.2.2.2 := by
  rw [outsAt0_B m c ⟨n + 1, hn⟩ h0 h1]
  dsimp only
  refine ⟨?_, ?_, ?_⟩
  · exact KerPieces.sout_B_0 (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) scM0_0 (Memref.isWhole_whole _) scM0_1 (Memref.isWhole_whole _) scM0_2 (Memref.isWhole_whole _) (fun h => h0 ((hcond0_0 (⟨n + 1, hn⟩ : Fin cfg0.N)).mp h)) (fun h => h1 ((hcond0_1 (⟨n + 1, hn⟩ : Fin cfg0.N)).mp h)) (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (outsAt0 m c n (Nat.lt_of_succ_lt hn)).2.2.2.1 (outsAt0 m c n (Nat.lt_of_succ_lt hn)).2.2.2.2.1 (outsAt0 m c n (Nat.lt_of_succ_lt hn)).2.2.2.2.2
  · exact KerPieces.sout_B_1 (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) scM0_0 (Memref.isWhole_whole _) scM0_1 (Memref.isWhole_whole _) scM0_2 (Memref.isWhole_whole _) (fun h => h0 ((hcond0_0 (⟨n + 1, hn⟩ : Fin cfg0.N)).mp h)) (fun h => h1 ((hcond0_1 (⟨n + 1, hn⟩ : Fin cfg0.N)).mp h)) (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (outsAt0 m c n (Nat.lt_of_succ_lt hn)).2.2.2.1 (outsAt0 m c n (Nat.lt_of_succ_lt hn)).2.2.2.2.1 (outsAt0 m c n (Nat.lt_of_succ_lt hn)).2.2.2.2.2
  · exact KerPieces.sout_B_2 (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) scM0_0 (Memref.isWhole_whole _) scM0_1 (Memref.isWhole_whole _) scM0_2 (Memref.isWhole_whole _) (fun h => h0 ((hcond0_0 (⟨n + 1, hn⟩ : Fin cfg0.N)).mp h)) (fun h => h1 ((hcond0_1 (⟨n + 1, hn⟩ : Fin cfg0.N)).mp h)) (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (outsAt0 m c n (Nat.lt_of_succ_lt hn)).2.2.2.1 (outsAt0 m c n (Nat.lt_of_succ_lt hn)).2.2.2.2.1 (outsAt0 m c n (Nat.lt_of_succ_lt hn)).2.2.2.2.2

/-- A core's last point: the accumulators likewise, and each output buffer the total of its accumulator. -/
theorem last_pt (c : Dev nD) (n : ℕ) (hn : n + 1 < cfg0.N) (h0 : ¬(n + 1) % 8 = 0) (h1 : (n + 1) % 8 = 7) :
    ((outsAt0 m c (n + 1) hn).2.2.2.1
        = accS (xblk m c ⟨n + 1, hn⟩) (tblk m c ⟨n + 1, hn⟩) (wblk m c ⟨n + 1, hn⟩) (outsAt0 m c n (Nat.lt_of_succ_lt hn)).2.2.2.1
    ∧ (outsAt0 m c (n + 1) hn).2.2.2.2.1
        = accA (xblk m c ⟨n + 1, hn⟩) (tblk m c ⟨n + 1, hn⟩) (wblk m c ⟨n + 1, hn⟩) (outsAt0 m c n (Nat.lt_of_succ_lt hn)).2.2.2.2.1
    ∧ (outsAt0 m c (n + 1) hn).2.2.2.2.2
        = accP (tblk m c ⟨n + 1, hn⟩) (cblk m c ⟨n + 1, hn⟩) (outsAt0 m c n (Nat.lt_of_succ_lt hn)).2.2.2.2.2)
    ∧ ((outsAt0 m c (n + 1) hn).1
        = k0_pay3 (accS (xblk m c ⟨n + 1, hn⟩) (tblk m c ⟨n + 1, hn⟩) (wblk m c ⟨n + 1, hn⟩) (outsAt0 m c n (Nat.lt_of_succ_lt hn)).2.2.2.1)
    ∧ (outsAt0 m c (n + 1) hn).2.1
        = k0_pay4 (accA (xblk m c ⟨n + 1, hn⟩) (tblk m c ⟨n + 1, hn⟩) (wblk m c ⟨n + 1, hn⟩) (outsAt0 m c n (Nat.lt_of_succ_lt hn)).2.2.2.2.1)
    ∧ (outsAt0 m c (n + 1) hn).2.2.1
        = k0_pay5 (accP (tblk m c ⟨n + 1, hn⟩) (cblk m c ⟨n + 1, hn⟩) (outsAt0 m c n (Nat.lt_of_succ_lt hn)).2.2.2.2.2)) := by
  rw [outsAt0_C m c ⟨n + 1, hn⟩ h0 h1]
  dsimp only
  refine ⟨⟨?_, ?_, ?_⟩, ?_, ?_, ?_⟩
  · exact KerPieces.sout_C_0 (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) scM0_0 (Memref.isWhole_whole _) scM0_1 (Memref.isWhole_whole _) scM0_2 (Memref.isWhole_whole _) (fun h => h0 ((hcond0_0 (⟨n + 1, hn⟩ : Fin cfg0.N)).mp h)) ((hcond0_1 (⟨n + 1, hn⟩ : Fin cfg0.N)).mpr h1) (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (outsAt0 m c n (Nat.lt_of_succ_lt hn)).2.2.2.1 (outsAt0 m c n (Nat.lt_of_succ_lt hn)).2.2.2.2.1 (outsAt0 m c n (Nat.lt_of_succ_lt hn)).2.2.2.2.2
  · exact KerPieces.sout_C_1 (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) scM0_0 (Memref.isWhole_whole _) scM0_1 (Memref.isWhole_whole _) scM0_2 (Memref.isWhole_whole _) (fun h => h0 ((hcond0_0 (⟨n + 1, hn⟩ : Fin cfg0.N)).mp h)) ((hcond0_1 (⟨n + 1, hn⟩ : Fin cfg0.N)).mpr h1) (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (outsAt0 m c n (Nat.lt_of_succ_lt hn)).2.2.2.1 (outsAt0 m c n (Nat.lt_of_succ_lt hn)).2.2.2.2.1 (outsAt0 m c n (Nat.lt_of_succ_lt hn)).2.2.2.2.2
  · exact KerPieces.sout_C_2 (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) scM0_0 (Memref.isWhole_whole _) scM0_1 (Memref.isWhole_whole _) scM0_2 (Memref.isWhole_whole _) (fun h => h0 ((hcond0_0 (⟨n + 1, hn⟩ : Fin cfg0.N)).mp h)) ((hcond0_1 (⟨n + 1, hn⟩ : Fin cfg0.N)).mpr h1) (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (outsAt0 m c n (Nat.lt_of_succ_lt hn)).2.2.2.1 (outsAt0 m c n (Nat.lt_of_succ_lt hn)).2.2.2.2.1 (outsAt0 m c n (Nat.lt_of_succ_lt hn)).2.2.2.2.2
  · exact KerPieces.out_C_4 (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) scM0_0 (Memref.isWhole_whole _) scM0_1 (Memref.isWhole_whole _) scM0_2 (Memref.isWhole_whole _) (fun h => h0 ((hcond0_0 (⟨n + 1, hn⟩ : Fin cfg0.N)).mp h)) ((hcond0_1 (⟨n + 1, hn⟩ : Fin cfg0.N)).mpr h1) (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (outsAt0 m c n (Nat.lt_of_succ_lt hn)).2.2.2.1 (outsAt0 m c n (Nat.lt_of_succ_lt hn)).2.2.2.2.1 (outsAt0 m c n (Nat.lt_of_succ_lt hn)).2.2.2.2.2
  · exact KerPieces.out_C_5 (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) scM0_0 (Memref.isWhole_whole _) scM0_1 (Memref.isWhole_whole _) scM0_2 (Memref.isWhole_whole _) (fun h => h0 ((hcond0_0 (⟨n + 1, hn⟩ : Fin cfg0.N)).mp h)) ((hcond0_1 (⟨n + 1, hn⟩ : Fin cfg0.N)).mpr h1) (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (outsAt0 m c n (Nat.lt_of_succ_lt hn)).2.2.2.1 (outsAt0 m c n (Nat.lt_of_succ_lt hn)).2.2.2.2.1 (outsAt0 m c n (Nat.lt_of_succ_lt hn)).2.2.2.2.2
  · exact KerPieces.out_C_6 (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) scM0_0 (Memref.isWhole_whole _) scM0_1 (Memref.isWhole_whole _) scM0_2 (Memref.isWhole_whole _) (fun h => h0 ((hcond0_0 (⟨n + 1, hn⟩ : Fin cfg0.N)).mp h)) ((hcond0_1 (⟨n + 1, hn⟩ : Fin cfg0.N)).mpr h1) (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (outsAt0 m c n (Nat.lt_of_succ_lt hn)).2.2.2.1 (outsAt0 m c n (Nat.lt_of_succ_lt hn)).2.2.2.2.1 (outsAt0 m c n (Nat.lt_of_succ_lt hn)).2.2.2.2.2

/-- Any later point: each accumulator is what the point before left plus the tile's partial. -/
theorem later_pt (c : Dev nD) (n : ℕ) (hn : n + 1 < cfg0.N) (h0 : ¬(n + 1) % 8 = 0) :
    (outsAt0 m c (n + 1) hn).2.2.2.1
        = accS (xblk m c ⟨n + 1, hn⟩) (tblk m c ⟨n + 1, hn⟩) (wblk m c ⟨n + 1, hn⟩) (outsAt0 m c n (Nat.lt_of_succ_lt hn)).2.2.2.1
    ∧ (outsAt0 m c (n + 1) hn).2.2.2.2.1
        = accA (xblk m c ⟨n + 1, hn⟩) (tblk m c ⟨n + 1, hn⟩) (wblk m c ⟨n + 1, hn⟩) (outsAt0 m c n (Nat.lt_of_succ_lt hn)).2.2.2.2.1
    ∧ (outsAt0 m c (n + 1) hn).2.2.2.2.2
        = accP (tblk m c ⟨n + 1, hn⟩) (cblk m c ⟨n + 1, hn⟩) (outsAt0 m c n (Nat.lt_of_succ_lt hn)).2.2.2.2.2 := by
  by_cases h1 : (n + 1) % 8 = 7
  · exact (last_pt m c n hn h0 h1).1
  · exact mid_pt m c n hn h0 h1

/-! ### The sums -/

/-- Adding to the cleared accumulator leaves the addend. -/
theorem add_clear6 (x : FVec Ideal S8x128 .f32) : addf (k0_pay6 : FVec Ideal S8x128 .f32) x = x := by
  funext j
  rw [KerPieces.clear6]
  show Ideal.ofBits .f32 0x00000000#32 + x j = x j
  rw [Ideal.ofBits_zero_f32, zero_add]
theorem add_clear7 (x : FVec Ideal S8x128 .f32) : addf (k0_pay7 : FVec Ideal S8x128 .f32) x = x := by
  funext j
  rw [KerPieces.clear7]
  show Ideal.ofBits .f32 0x00000000#32 + x j = x j
  rw [Ideal.ofBits_zero_f32, zero_add]
theorem add_clear8 (x : FVec Ideal S8x128 .f32) : addf (k0_pay8 : FVec Ideal S8x128 .f32) x = x := by
  funext j
  rw [KerPieces.clear8]
  show Ideal.ofBits .f32 0x00000000#32 + x j = x j
  rw [Ideal.ofBits_zero_f32, zero_add]

/-- At a core's first point the sum over the core's points so far has the one term. -/
theorem sum_first (f : ℕ → FVec Ideal S8x128 .f32) (n : ℕ) (h0 : n % 8 = 0) :
    (fun j => ∑ k ∈ Finset.range (n % 8 + 1), (f (n - n % 8 + k) j : EReal)) = f n := by
  funext j
  rw [h0, Finset.sum_range_one]
  rfl

/-- At a later point the sum over the core's points so far is the sum up to the point before plus the point's term. -/
theorem sum_later (f : ℕ → FVec Ideal S8x128 .f32) (n : ℕ) (h0 : ¬(n + 1) % 8 = 0) :
    (fun j => ∑ k ∈ Finset.range ((n + 1) % 8 + 1), (f (n + 1 - (n + 1) % 8 + k) j : EReal))
      = addf (fun j => ∑ k ∈ Finset.range (n % 8 + 1), (f (n - n % 8 + k) j : EReal)) (f (n + 1)) := by
  have e1 : (n + 1) % 8 = n % 8 + 1 := by omega
  have e2 : n + 1 - (n + 1) % 8 = n - n % 8 := by omega
  have e3 : n - n % 8 + (n % 8 + 1) = n + 1 := by omega
  funext j
  rw [e2, e1, Finset.sum_range_succ, e3]
  rfl

/-- After the point `n` each accumulator holds the sum of its core's partials so far: the points from the
    core's first, `n - n % 8`, to `n`. -/
theorem scratch_eq (c : Dev nD) : ∀ (n : ℕ) (hn : n < cfg0.N),
    (outsAt0 m c n hn).2.2.2.1 = (fun j => ∑ k ∈ Finset.range (n % 8 + 1), (partS m c (n - n % 8 + k) j : EReal))
    ∧ (outsAt0 m c n hn).2.2.2.2.1 = (fun j => ∑ k ∈ Finset.range (n % 8 + 1), (partA m c (n - n % 8 + k) j : EReal))
    ∧ (outsAt0 m c n hn).2.2.2.2.2 = (fun j => ∑ k ∈ Finset.range (n % 8 + 1), (partP m c (n - n % 8 + k) j : EReal)) := by
  intro n
  induction n with
  | zero =>
    intro hn
    obtain ⟨a, b, d⟩ := first_pt m c ⟨0, hn⟩ rfl
    refine ⟨?_, ?_, ?_⟩
    · rw [sum_first (partS m c) 0 rfl]
      refine a.trans ?_
      rw [KerPieces.accS_eq, add_clear6]; exact (partS_of_lt m c ⟨0, hn⟩).symm
    · rw [sum_first (partA m c) 0 rfl]
      refine b.trans ?_
      rw [KerPieces.accA_eq, add_clear7]; exact (partA_of_lt m c ⟨0, hn⟩).symm
    · rw [sum_first (partP m c) 0 rfl]
      refine d.trans ?_
      rw [KerPieces.accP_eq, add_clear8]; exact (partP_of_lt m c ⟨0, hn⟩).symm
  | succ n ih =>
    intro hn
    by_cases h0 : (n + 1) % 8 = 0
    · obtain ⟨a, b, d⟩ := first_pt m c ⟨n + 1, hn⟩ h0
      refine ⟨?_, ?_, ?_⟩
      · rw [sum_first (partS m c) (n + 1) h0]
        refine a.trans ?_
        rw [KerPieces.accS_eq, add_clear6]; exact (partS_of_lt m c ⟨n + 1, hn⟩).symm
      · rw [sum_first (partA m c) (n + 1) h0]
        refine b.trans ?_
        rw [KerPieces.accA_eq, add_clear7]; exact (partA_of_lt m c ⟨n + 1, hn⟩).symm
      · rw [sum_first (partP m c) (n + 1) h0]
        refine d.trans ?_
        rw [KerPieces.accP_eq, add_clear8]; exact (partP_of_lt m c ⟨n + 1, hn⟩).symm
    · obtain ⟨a, b, d⟩ := later_pt m c n hn h0
      obtain ⟨ia, ib, id⟩ := ih (Nat.lt_of_succ_lt hn)
      refine ⟨?_, ?_, ?_⟩
      · rw [sum_later (partS m c) n h0, a, KerPieces.accS_eq, ia, partS_of_lt m c ⟨n + 1, hn⟩]
      · rw [sum_later (partA m c) n h0, b, KerPieces.accA_eq, ib, partA_of_lt m c ⟨n + 1, hn⟩]
      · rw [sum_later (partP m c) n h0, d, KerPieces.accP_eq, id, partP_of_lt m c ⟨n + 1, hn⟩]

/-- At a core's last point each output buffer is its accumulator's total, in every entry. -/
theorem outs_last (c : Dev nD) (n : ℕ) (hn : n < cfg0.N) (h7 : n % 8 = 7) :
    (outsAt0 m c n hn).1 = k0_pay3 (outsAt0 m c n hn).2.2.2.1
    ∧ (outsAt0 m c n hn).2.1 = k0_pay4 (outsAt0 m c n hn).2.2.2.2.1
    ∧ (outsAt0 m c n hn).2.2.1 = k0_pay5 (outsAt0 m c n hn).2.2.2.2.2 := by
  have h0 : ¬n % 8 = 0 := by omega
  obtain ⟨k, rfl⟩ : ∃ k, n = k + 1 := ⟨n - 1, by omega⟩
  obtain ⟨⟨s1, s2, s3⟩, o1, o2, o3⟩ := last_pt m c k hn h0 h7
  exact ⟨o1.trans (congrArg k0_pay3 s1.symm), o2.trans (congrArg k0_pay4 s2.symm), o3.trans (congrArg k0_pay5 s3.symm)⟩

/-- Entry (0, 0, 0) of core `p`'s three output blocks. -/
theorem coreS_eq (c : Dev nD) (p : Fin 2) :
    coreS m c p = ∑ i : Fin 8, ∑ l : Fin 128, ∑ s : Fin 8, (partS m c (8 * p.val + s.val) (ix2 i l) : EReal) := by
  have h7 : (lastPt p).val % 8 = 7 := by show (8 * p.val + 7) % 8 = 7; omega
  have hv : (lastPt p).val - (lastPt p).val % 8 = 8 * p.val := by
    show 8 * p.val + 7 - (8 * p.val + 7) % 8 = 8 * p.val; omega
  unfold coreS
  rw [(outs_last m c (lastPt p).val (lastPt p).isLt h7).1, KerSums.pay3_apply,
    (scratch_eq m c (lastPt p).val (lastPt p).isLt).1]
  refine Finset.sum_congr rfl fun i _ => Finset.sum_congr rfl fun l _ => ?_
  show ∑ k ∈ Finset.range ((lastPt p).val % 8 + 1), partS m c ((lastPt p).val - (lastPt p).val % 8 + k) (ix2 i l) = _
  rw [hv, h7]
  exact KerSums.sum_range_eight (fun s => partS m c (8 * p.val + s) (ix2 i l))
theorem coreA_eq (c : Dev nD) (p : Fin 2) :
    coreA m c p = ∑ i : Fin 8, ∑ l : Fin 128, ∑ s : Fin 8, (partA m c (8 * p.val + s.val) (ix2 i l) : EReal) := by
  have h7 : (lastPt p).val % 8 = 7 := by show (8 * p.val + 7) % 8 = 7; omega
  have hv : (lastPt p).val - (lastPt p).val % 8 = 8 * p.val := by
    show 8 * p.val + 7 - (8 * p.val + 7) % 8 = 8 * p.val; omega
  unfold coreA
  rw [(outs_last m c (lastPt p).val (lastPt p).isLt h7).2.1, KerSums.pay4_apply,
    (scratch_eq m c (lastPt p).val (lastPt p).isLt).2.1]
  refine Finset.sum_congr rfl fun i _ => Finset.sum_congr rfl fun l _ => ?_
  show ∑ k ∈ Finset.range ((lastPt p).val % 8 + 1), partA m c ((lastPt p).val - (lastPt p).val % 8 + k) (ix2 i l) = _
  rw [hv, h7]
  exact KerSums.sum_range_eight (fun s => partA m c (8 * p.val + s) (ix2 i l))
theorem coreP_eq (c : Dev nD) (p : Fin 2) :
    coreP m c p = ∑ i : Fin 8, ∑ l : Fin 128, ∑ s : Fin 8, (partP m c (8 * p.val + s.val) (ix2 i l) : EReal) := by
  have h7 : (lastPt p).val % 8 = 7 := by show (8 * p.val + 7) % 8 = 7; omega
  have hv : (lastPt p).val - (lastPt p).val % 8 = 8 * p.val := by
    show 8 * p.val + 7 - (8 * p.val + 7) % 8 = 8 * p.val; omega
  unfold coreP
  rw [(outs_last m c (lastPt p).val (lastPt p).isLt h7).2.2, KerSums.pay5_apply,
    (scratch_eq m c (lastPt p).val (lastPt p).isLt).2.2]
  refine Finset.sum_congr rfl fun i _ => Finset.sum_congr rfl fun l _ => ?_
  show ∑ k ∈ Finset.range ((lastPt p).val % 8 + 1), partP m c ((lastPt p).val - (lastPt p).val % 8 + k) (ix2 i l) = _
  rw [hv, h7]
  exact KerSums.sum_range_eight (fun s => partP m c (8 * p.val + s) (ix2 i l))

end Cert.KernelIdeal.KerAcc

end
-- ==== Proof.KerLane.lean ====
/-
  The body's per-sample arithmetic at one lane, over any four loaded blocks. A loaded feature row, with its unit
  axis dropped, reads the block's entry; the class index is the word-level chain on the third target, the class
  weight the chain of seven selects over it on the weight block's first row; the sensor and anomaly terms are that
  weight times squared differences; the table row is the clamped cycle state, and the penalty the four charges of
  the first two targets against their windows.
-/
import proofs.«424041_j28518582845592_2_alg».proof.Proof.KerPieces
import proofs.«424041_j28518582845592_2_alg».proof.Proof.Words
import proofs.«424041_j28518582845592_2_alg».proof.Proof.Spec
import proofs.«424041_j28518582845592_2_alg».proof.Proof.KerSums
import Idealize.ShloMosaic.Lib.Pipeline.Value
import Idealize.ShloMosaic.Lib.ValueIdx

noncomputable section

namespace Cert.KernelIdeal.KerLane

open Idealize.ShloMosaic Idealize.ShloMosaic.TcCoe Idealize.SL.Sem Idealize.ShloMosaic.ValueIdx
open Cert.KernelIdeal Cert.KernelIdeal.Gen Cert.KernelIdeal.KerPieces
open Cert.Spec (lit tf)

section Index
variable {α : Type} {Val : EltTy → Type} {e : EltTy}

/-- Dropping the unit axis of a (1, 2048, 128) row reads entry (r, l) at (0, r, l). -/
theorem drop_row (v : S1x2048x128.Idx → α) (h : S1x2048x128.ShapeCasts S2048x128) (r : Fin 2048) (l : Fin 128) :
    shapeCast S2048x128 v h (ix2 r l) = v (ix3 (0 : Fin 1) r l) :=
  shapeCast_apply v h (ix2 r l) (ix3 (0 : Fin 1) r l) (by
    rw [Shape.rowMajor_val_three, Shape.rowMajor_val_two]
    show ((0 : ℕ) * 2048 + r.val) * 128 + l.val = r.val * 128 + l.val
    omega)

/-- Feature row `k` of a feature-major block, loaded as a (1, 2048, 128) vector. -/
theorem ld_row (x : S3x2048x128.Idx → Val e) (k : Fin 3) (off : Fin 3 → ℕ)
    (inb : ∀ a, off a + (![1, 2048, 128] : Fin 3 → ℕ) a ≤ S3x2048x128.size a) (hoff : off = ![k.val, 0, 0])
    (r : Fin 2048) (l : Fin 128) :
    View.ld x (Rect.unit (s := S3x2048x128) off ![1, 2048, 128] inb) (ix3 (0 : Fin 1) r l) = x (ix3 k r l) := by
  subst hoff
  show x _ = x _
  congr 1
  funext a
  match a with
  | ⟨0, _⟩ => exact Fin.ext (by show k.val + 1 * 0 = k.val; omega)
  | ⟨1, _⟩ => exact Fin.ext (by show 0 + 1 * r.val = r.val; omega)
  | ⟨2, _⟩ => exact Fin.ext (by show 0 + 1 * l.val = l.val; omega)

/-- The first row of the weight block, loaded as a (1, 128) vector and flattened. -/
theorem wrow_apply (x : S8x128.Idx → Val e) (inb : ∀ a, (![0, 0] : Fin 2 → ℕ) a + (![1, 128] : Fin 2 → ℕ) a ≤ S8x128.size a)
    (h : S1x128.ShapeCasts S128) (k : Fin 128) :
    shapeCast S128 (View.ld x (Rect.unit (s := S8x128) ![0, 0] ![1, 128] inb)) h (ix1 k) = x (ix2 (0 : Fin 8) k) := by
  refine (shapeCast_apply _ h (ix1 k) (ix2 (0 : Fin 1) k) (by
    rw [Shape.rowMajor_val_two, Shape.rowMajor_val_one]
    show (0 : ℕ) * 128 + k.val = k.val
    omega)).trans ?_
  show x _ = x _
  congr 1
  funext a
  match a with
  | ⟨0, _⟩ => exact Fin.ext (by show 0 + 1 * 0 = 0; omega)
  | ⟨1, _⟩ => exact Fin.ext (by show 0 + 1 * k.val = k.val; omega)

/-- Entry `k` of a 128-vector, taken as a one-entry slice and extracted. -/
theorem pick (v : S128.Idx → α) (off : Fin 1 → ℕ) (h : S128.Slices off S1) (h2 : ∀ a, (![0] : Fin 1 → ℕ) a < S1.size a)
    (k : Fin 128) (hk : off 0 = k.val) :
    extractAt ![0] (extractStridedSlice S1 off v h) h2 = v (ix1 k) := by
  unfold extractAt extractStridedSlice
  congr 1
  funext a
  match a with
  | ⟨0, _⟩ => exact Fin.ext (by show off 0 + 0 = k.val; omega)

end Index

section Values
variable (x0 : Vec Ideal S3x2048x128 .f32) (x1 : Vec Ideal S3x2048x128 .i32) (x2 : Vec Ideal S2048x128 .i32)
  (x3 : Vec Ideal S8x128 .f32) (r : Fin 2048) (l : Fin 128)

/-- The loaded rows at a lane: the block's entries. -/
theorem pay9_apply : k0_pay9 (X0 x0) (ix2 r l) = x0 (ix3 (0 : Fin 3) r l) :=
  (drop_row (X0 x0) _ r l).trans (ld_row x0 0 _ _ rfl r l)
theorem pay10_apply : k0_pay10 (X1 x0) (ix2 r l) = x0 (ix3 (1 : Fin 3) r l) :=
  (drop_row (X1 x0) _ r l).trans (ld_row x0 1 _ _ rfl r l)
theorem pay11_apply : k0_pay11 (X2 x0) (ix2 r l) = x0 (ix3 (2 : Fin 3) r l) :=
  (drop_row (X2 x0) _ r l).trans (ld_row x0 2 _ _ rfl r l)
theorem pay12_apply : k0_pay12 (T2 x1) (ix2 r l) = x1 (ix3 (2 : Fin 3) r l) :=
  (drop_row (T2 x1) _ r l).trans (ld_row x1 2 _ _ rfl r l)
theorem pay13_apply : k0_pay13 (T0 x1) (ix2 r l) = tf (x1 (ix3 (0 : Fin 3) r l)) := by
  show tf (shapeCast S2048x128 (T0 x1) _ (ix2 r l)) = _
  rw [drop_row, show T0 x1 (ix3 (0 : Fin 1) r l) = x1 (ix3 (0 : Fin 3) r l) from ld_row x1 0 _ _ rfl r l]
theorem pay14_apply : k0_pay14 (T1 x1) (ix2 r l) = tf (x1 (ix3 (1 : Fin 3) r l)) := by
  show tf (shapeCast S2048x128 (T1 x1) _ (ix2 r l)) = _
  rw [drop_row, show T1 x1 (ix3 (0 : Fin 1) r l) = x1 (ix3 (1 : Fin 3) r l) from ld_row x1 1 _ _ rfl r l]
theorem pay15_apply : k0_pay15 (T2 x1) (ix2 r l) = tf (x1 (ix3 (2 : Fin 3) r l)) := by
  show tf (k0_pay12 (T2 x1) (ix2 r l)) = _
  rw [pay12_apply]

/-- The clamped class index at a lane is the word-level chain on the third target. -/
theorem cls_apply : cls x1 (ix2 r l) = Cert.Words.kIdxW (x1 (ix3 (2 : Fin 3) r l)) := by
  show Cert.Words.kIdxW (k0_pay12 (T2 x1) (ix2 r l)) = _
  rw [pay12_apply]

/-- The seven weights: the first seven lanes of the weight block's first row. -/
def wrow : Fin 7 → EReal := fun k => x3 (ix2 (0 : Fin 8) (⟨k.val, by have := k.isLt; omega⟩ : Fin 128))

theorem wpick (k : ℕ) (hk : k < 128) (h : S128.Slices ![k] S1) (h2 : ∀ a, (![0] : Fin 1 → ℕ) a < S1.size a) :
    extractAt ![0] (extractStridedSlice S1 ![k] (k0_pay19 (W0 x3)) h) h2 = x3 (ix2 (0 : Fin 8) (⟨k, hk⟩ : Fin 128)) :=
  (pick (k0_pay19 (W0 x3)) ![k] h h2 ⟨k, hk⟩ rfl).trans (wrow_apply x3 _ _ ⟨k, hk⟩)

/-- Every lane's class weight. -/
def wgt : FVec Ideal S2048x128 .f32 :=
  k0_pay23 (cls x1) (k0_pay19 (W0 x3)) (k0_pay20 (k0_pay12 (T2 x1)) (100#32) (k0_pay16 (T2 x1)) (k0_pay17 (T2 x1)) (1#32) (W0 x3)) (k0_pay21 (k0_pay12 (T2 x1)) (100#32) (k0_pay16 (T2 x1)) (k0_pay17 (T2 x1)) (1#32)) (k0_pay22 (W0 x3))

theorem wgt_apply : wgt x1 x3 (ix2 r l) = Cert.Words.kSel (wrow x3) (Cert.Words.kIdxW (x1 (ix3 (2 : Fin 3) r l))) := by
  show (Scalar.select (IntOp.cmpi .eq (cls x1 (ix2 r l)) 6#32) (extractAt ![0] (extractStridedSlice S1 ![6] (k0_pay19 (W0 x3)) slices_S128_o6_S1) inpos_S1_p0) (Scalar.select (IntOp.cmpi .eq (cls x1 (ix2 r l)) 5#32) (extractAt ![0] (extractStridedSlice S1 ![5] (k0_pay19 (W0 x3)) slices_S128_o5_S1) inpos_S1_p0) (Scalar.select (IntOp.cmpi .eq (cls x1 (ix2 r l)) 4#32) (extractAt ![0] (extractStridedSlice S1 ![4] (k0_pay19 (W0 x3)) slices_S128_o4_S1) inpos_S1_p0) (Scalar.select (IntOp.cmpi .eq (cls x1 (ix2 r l)) 3#32) (extractAt ![0] (extractStridedSlice S1 ![3] (k0_pay19 (W0 x3)) slices_S128_o3_S1) inpos_S1_p0) (Scalar.select (IntOp.cmpi .eq (cls x1 (ix2 r l)) 2#32) (extractAt ![0] (extractStridedSlice S1 ![2] (k0_pay19 (W0 x3)) slices_S128_o2_S1) inpos_S1_p0) (Scalar.select (IntOp.cmpi .eq (cls x1 (ix2 r l)) 1#32) (extractAt ![0] (extractStridedSlice S1 ![1] (k0_pay19 (W0 x3)) slices_S128_o1_S1) inpos_S1_p0) (Scalar.select (IntOp.cmpi .eq (cls x1 (ix2 r l)) 0#32) (extractAt ![0] (extractStridedSlice S1 ![0] (k0_pay19 (W0 x3)) slices_S128_o0_S1) inpos_S1_p0) (lit 0x00000000#32)))))))) = _
  rw [wpick x3 0 (by omega), wpick x3 1 (by omega), wpick x3 2 (by omega), wpick x3 3 (by omega), wpick x3 4 (by omega),
    wpick x3 5 (by omega), wpick x3 6 (by omega), cls_apply]
  rfl

/-- A lane's weighted sensor term: the class weight times the two squared differences. -/
theorem sens_apply : sens x0 x1 x3 (ix2 r l)
    = Cert.Words.kSel (wrow x3) (Cert.Words.kIdxW (x1 (ix3 (2 : Fin 3) r l)))
      * ((x0 (ix3 (0 : Fin 3) r l) - tf (x1 (ix3 (0 : Fin 3) r l))) * (x0 (ix3 (0 : Fin 3) r l) - tf (x1 (ix3 (0 : Fin 3) r l)))
        + (x0 (ix3 (1 : Fin 3) r l) - tf (x1 (ix3 (1 : Fin 3) r l))) * (x0 (ix3 (1 : Fin 3) r l) - tf (x1 (ix3 (1 : Fin 3) r l)))) := by
  show wgt x1 x3 (ix2 r l)
      * ((k0_pay9 (X0 x0) (ix2 r l) - k0_pay13 (T0 x1) (ix2 r l)) * (k0_pay9 (X0 x0) (ix2 r l) - k0_pay13 (T0 x1) (ix2 r l))
        + (k0_pay10 (X1 x0) (ix2 r l) - k0_pay14 (T1 x1) (ix2 r l)) * (k0_pay10 (X1 x0) (ix2 r l) - k0_pay14 (T1 x1) (ix2 r l))) = _
  rw [wgt_apply, pay9_apply, pay10_apply, pay13_apply, pay14_apply]

/-- A lane's weighted anomaly term. -/
theorem anom_apply : anom x0 x1 x3 (ix2 r l)
    = Cert.Words.kSel (wrow x3) (Cert.Words.kIdxW (x1 (ix3 (2 : Fin 3) r l)))
      * ((x0 (ix3 (2 : Fin 3) r l) - tf (x1 (ix3 (2 : Fin 3) r l))) * (x0 (ix3 (2 : Fin 3) r l) - tf (x1 (ix3 (2 : Fin 3) r l)))) := by
  show wgt x1 x3 (ix2 r l)
      * ((k0_pay11 (X2 x0) (ix2 r l) - k0_pay15 (T2 x1) (ix2 r l)) * (k0_pay11 (X2 x0) (ix2 r l) - k0_pay15 (T2 x1) (ix2 r l))) = _
  rw [wgt_apply, pay11_apply, pay15_apply]

/-- The table row at a lane, and the two window ends read from it. -/
theorem pay26_apply : k0_pay26 x2 (ix2 r l) = Cert.Words.kIdxC (x2 (ix2 r l)) := by
  show Cert.Words.kIdxC (shapeCast S2048x128 x2 _ (ix2 r l)) = _
  rw [shapeCast_self]
theorem pay27_apply : k0_pay27 x2 (ix2 r l) = Cert.Words.kLo2 (Cert.Words.kIdxC (x2 (ix2 r l))) := by
  show Cert.Words.kLo2 (k0_pay26 x2 (ix2 r l)) = _
  rw [pay26_apply]
theorem pay28_apply : k0_pay28 x2 (ix2 r l) = IntOp.cmpi .eq (Cert.Words.kIdxC (x2 (ix2 r l))) 7#32 := by
  show IntOp.cmpi .eq (k0_pay26 x2 (ix2 r l)) 7#32 = _
  rw [pay26_apply]

/-- Every lane's range penalty: the four charges of the two targets against their windows. -/
def penT : FVec Ideal S2048x128 .f32 := fun p =>
  (Cert.Spec.below (k0_pay13 (T0 x1) p) (k0_pay27 x2 p) + Cert.Spec.above (k0_pay13 (T0 x1) p) (lit 0x463B8000#32))
    + (Cert.Spec.below (k0_pay14 (T1 x1) p) (lit 0x45098000#32)
      + Cert.Spec.above (k0_pay14 (T1 x1) p) (Scalar.select (k0_pay28 x2 p) (lit 0x464B2000#32) (lit 0x451C4000#32)))

/-- The penalty partial at a lane is the sum of those over the sublane groups. -/
theorem foldP_lane (i : Fin 8) : foldP x1 x2 (ix2 i l)
    = ∑ g : Fin 256, penT x1 x2 (ix2 (Cert.KernelIdeal.KerSums.row g i) l) := by
  unfold foldP k0_pay30
  rw [Cert.KernelIdeal.KerSums.fold_groups]
  refine Finset.sum_congr rfl fun g _ => ?_
  rfl

theorem penT_apply : penT x1 x2 (ix2 r l)
    = (Cert.Spec.below (tf (x1 (ix3 (0 : Fin 3) r l))) (Cert.Words.kLo2 (Cert.Words.kIdxC (x2 (ix2 r l))))
        + Cert.Spec.above (tf (x1 (ix3 (0 : Fin 3) r l))) (lit 0x463B8000#32))
      + (Cert.Spec.below (tf (x1 (ix3 (1 : Fin 3) r l))) (lit 0x45098000#32)
        + Cert.Spec.above (tf (x1 (ix3 (1 : Fin 3) r l))) (Cert.Words.kHi3 (Cert.Words.kIdxC (x2 (ix2 r l))))) := by
  show (Cert.Spec.below (k0_pay13 (T0 x1) (ix2 r l)) (k0_pay27 x2 (ix2 r l)) + Cert.Spec.above (k0_pay13 (T0 x1) (ix2 r l)) (lit 0x463B8000#32))
    + (Cert.Spec.below (k0_pay14 (T1 x1) (ix2 r l)) (lit 0x45098000#32)
      + Cert.Spec.above (k0_pay14 (T1 x1) (ix2 r l)) (Scalar.select (k0_pay28 x2 (ix2 r l)) (lit 0x464B2000#32) (lit 0x451C4000#32))) = _
  rw [pay13_apply, pay14_apply, pay27_apply, pay28_apply]
  rfl

end Values

end Cert.KernelIdeal.KerLane
end
-- ==== Proof.KerPoint.lean ====
/-
  A tile's three partials at a lane. Lane (i, l) of the partial of the point (p, s) is the sum, over the 256 sublane
  groups g, of the per-sample term of the sample that lane holds in group g: the weighted squared differences of
  the two sensor columns, of the anomaly column, and the range penalty. Under the precondition's ranges the kernel's
  clamped class index and table row are the plain ones, so its select chains read the weight and the window ends.
-/
import proofs.«424041_j28518582845592_2_alg».proof.Proof.KerLane
import proofs.«424041_j28518582845592_2_alg».proof.Proof.KerParts
import proofs.«424041_j28518582845592_2_alg».proof.Proof.KerSums
import proofs.«424041_j28518582845592_2_alg».proof.Proof.Words
import proofs.«424041_j28518582845592_2_alg».proof.Proof.Spec

noncomputable section

namespace Cert.KernelIdeal.KerPoint

open Idealize.ShloMosaic Idealize.ShloMosaic.TcCoe Idealize.SL.Sem Idealize.ShloMosaic.ValueIdx
open Cert.KernelIdeal Cert.KernelIdeal.Gen Cert.KernelIdeal.KerPieces Cert.KernelIdeal.KerBlocks
open Cert.KernelIdeal.KerParts Cert.KernelIdeal.KerLane Cert.KernelIdeal.KerSums
open Cert.Spec (lit tf)

variable (m : (ℓ : Loc nD τ sig) → Buf (Elt Ideal) ℓ)

/-- The four argument arrays on core `c`. -/
abbrev Xa (c : Dev nD) : Cert.Spec.SX.Idx → EReal := m ((c.tc : Thread nD τ).loc main_arg0)
abbrev Ta (c : Dev nD) : Cert.Spec.SX.Idx → BitVec 32 := m ((c.tc : Thread nD τ).loc main_arg1)
abbrev Ca (c : Dev nD) : Cert.Spec.SC.Idx → BitVec 32 := m ((c.tc : Thread nD τ).loc main_arg2)
abbrev Wa (c : Dev nD) : Cert.Spec.SW.Idx → EReal := m ((c.tc : Thread nD τ).loc main_arg3)

/-- The three per-sample terms. -/
def termS (c : Dev nD) (b : Fin 4194304) : EReal :=
  Cert.Spec.sw (Ta m c) (Wa m c) b * (Cert.Spec.sq (Cert.Spec.dd (Xa m c) (Ta m c) 0 b) + Cert.Spec.sq (Cert.Spec.dd (Xa m c) (Ta m c) 1 b))
def termA (c : Dev nD) (b : Fin 4194304) : EReal :=
  Cert.Spec.sw (Ta m c) (Wa m c) b * Cert.Spec.sq (Cert.Spec.dd (Xa m c) (Ta m c) 2 b)
def termP (c : Dev nD) (b : Fin 4194304) : EReal := Cert.Spec.pen (Ta m c) (Ca m c) b

/-- Under the range of the third target a lane's class weight is its sample's weight. -/
theorem wgt_blk (hT : ∀ (c : Dev nD) (b : Fin 4194304),
      100 ≤ ((m ((c.tc : Thread nD τ).loc main_arg1) : Cert.Spec.SX.Idx → BitVec 32) (ix2 b (2 : Fin 3))).toInt
      ∧ ((m ((c.tc : Thread nD τ).loc main_arg1) : Cert.Spec.SX.Idx → BitVec 32) (ix2 b (2 : Fin 3))).toInt < 800)
    (c : Dev nD) (t : Fin cfg0.N) (r : Fin 2048) (l : Fin 128) :
    Cert.Words.kSel (wrow (wblk m c t)) (Cert.Words.kIdxW (tblk m c t (ix3 (2 : Fin 3) r l)))
      = Cert.Spec.sw (Ta m c) (Wa m c) (gidx t r l) := by
  rw [tblk_apply m c t 2 r l]
  obtain ⟨h1, h2⟩ := hT c (gidx t r l)
  rw [Cert.Words.kIdxW_eq _ h1 h2, Cert.Words.kSel_eq _ _ (Cert.Words.idxW_lt _ h1 h2)]
  unfold wrow Cert.Spec.sw Cert.Spec.wAt
  rw [dif_pos (Cert.Words.idxW_lt _ h1 h2)]
  exact wblk_apply m c t ⟨_, Cert.Words.idxW_lt _ h1 h2⟩

/-- A lane's sensor and anomaly terms are its sample's. -/
theorem sens_blk (hT : ∀ (c : Dev nD) (b : Fin 4194304),
      100 ≤ ((m ((c.tc : Thread nD τ).loc main_arg1) : Cert.Spec.SX.Idx → BitVec 32) (ix2 b (2 : Fin 3))).toInt
      ∧ ((m ((c.tc : Thread nD τ).loc main_arg1) : Cert.Spec.SX.Idx → BitVec 32) (ix2 b (2 : Fin 3))).toInt < 800)
    (c : Dev nD) (t : Fin cfg0.N) (r : Fin 2048) (l : Fin 128) :
    sens (xblk m c t) (tblk m c t) (wblk m c t) (ix2 r l) = termS m c (gidx t r l) := by
  rw [sens_apply (xblk m c t) (tblk m c t) (wblk m c t) r l, wgt_blk m hT c t r l, xblk_apply m c t 0 r l,
    xblk_apply m c t 1 r l, tblk_apply m c t 0 r l, tblk_apply m c t 1 r l]
  rfl
theorem anom_blk (hT : ∀ (c : Dev nD) (b : Fin 4194304),
      100 ≤ ((m ((c.tc : Thread nD τ).loc main_arg1) : Cert.Spec.SX.Idx → BitVec 32) (ix2 b (2 : Fin 3))).toInt
      ∧ ((m ((c.tc : Thread nD τ).loc main_arg1) : Cert.Spec.SX.Idx → BitVec 32) (ix2 b (2 : Fin 3))).toInt < 800)
    (c : Dev nD) (t : Fin cfg0.N) (r : Fin 2048) (l : Fin 128) :
    anom (xblk m c t) (tblk m c t) (wblk m c t) (ix2 r l) = termA m c (gidx t r l) := by
  rw [anom_apply (xblk m c t) (tblk m c t) (wblk m c t) r l, wgt_blk m hT c t r l, xblk_apply m c t 2 r l,
    tblk_apply m c t 2 r l]
  rfl

/-- Under the range of the cycle state a lane's penalty is its sample's. -/
theorem pen_blk (hC : ∀ (c : Dev nD) (b : Fin 4194304),
      1 ≤ ((m ((c.tc : Thread nD τ).loc main_arg2) : Cert.Spec.SC.Idx → BitVec 32) (ix1 b)).toInt
      ∧ ((m ((c.tc : Thread nD τ).loc main_arg2) : Cert.Spec.SC.Idx → BitVec 32) (ix1 b)).toInt ≤ 21)
    (c : Dev nD) (t : Fin cfg0.N) (r : Fin 2048) (l : Fin 128) :
    penT (tblk m c t) (cblk m c t) (ix2 r l) = termP m c (gidx t r l) := by
  rw [penT_apply (tblk m c t) (cblk m c t) r l, tblk_apply m c t 0 r l, tblk_apply m c t 1 r l, cblk_apply m c t r l]
  obtain ⟨h1, h2⟩ := hC c (gidx t r l)
  rw [Cert.Words.kIdxC_eq _ h1 h2, Cert.Words.kLo2_eq _ (Cert.Words.idxC_lt _ h1 h2),
    Cert.Words.kHi3_eq _ (Cert.Words.idxC_lt _ h1 h2)]
  rfl

/-- Lane (i, l) of the three partials of the point (p, s). -/
theorem partS_lane (hT : ∀ (c : Dev nD) (b : Fin 4194304),
      100 ≤ ((m ((c.tc : Thread nD τ).loc main_arg1) : Cert.Spec.SX.Idx → BitVec 32) (ix2 b (2 : Fin 3))).toInt
      ∧ ((m ((c.tc : Thread nD τ).loc main_arg1) : Cert.Spec.SX.Idx → BitVec 32) (ix2 b (2 : Fin 3))).toInt < 800)
    (c : Dev nD) (p : Fin 2) (s : Fin 8) (i : Fin 8) (l : Fin 128) :
    partS m c (8 * p.val + s.val) (ix2 i l) = ∑ g : Fin 256, termS m c (Cert.Spec.bidx p s g i l) := by
  show partS m c (pt p s).val (ix2 i l) = _
  rw [partS_of_lt m c (pt p s)]
  unfold foldS
  rw [fold_groups]
  refine Finset.sum_congr rfl fun g _ => ?_
  rw [sens_blk m hT c (pt p s) (row g i) l, gidx_pt_row]
theorem partA_lane (hT : ∀ (c : Dev nD) (b : Fin 4194304),
      100 ≤ ((m ((c.tc : Thread nD τ).loc main_arg1) : Cert.Spec.SX.Idx → BitVec 32) (ix2 b (2 : Fin 3))).toInt
      ∧ ((m ((c.tc : Thread nD τ).loc main_arg1) : Cert.Spec.SX.Idx → BitVec 32) (ix2 b (2 : Fin 3))).toInt < 800)
    (c : Dev nD) (p : Fin 2) (s : Fin 8) (i : Fin 8) (l : Fin 128) :
    partA m c (8 * p.val + s.val) (ix2 i l) = ∑ g : Fin 256, termA m c (Cert.Spec.bidx p s g i l) := by
  show partA m c (pt p s).val (ix2 i l) = _
  rw [partA_of_lt m c (pt p s)]
  unfold foldA
  rw [pay29_apply]
  refine Finset.sum_congr rfl fun g _ => ?_
  rw [anom_blk m hT c (pt p s) (row g i) l, gidx_pt_row]
theorem partP_lane (hC : ∀ (c : Dev nD) (b : Fin 4194304),
      1 ≤ ((m ((c.tc : Thread nD τ).loc main_arg2) : Cert.Spec.SC.Idx → BitVec 32) (ix1 b)).toInt
      ∧ ((m ((c.tc : Thread nD τ).loc main_arg2) : Cert.Spec.SC.Idx → BitVec 32) (ix1 b)).toInt ≤ 21)
    (c : Dev nD) (p : Fin 2) (s : Fin 8) (i : Fin 8) (l : Fin 128) :
    partP m c (8 * p.val + s.val) (ix2 i l) = ∑ g : Fin 256, termP m c (Cert.Spec.bidx p s g i l) := by
  show partP m c (pt p s).val (ix2 i l) = _
  rw [partP_of_lt m c (pt p s), foldP_lane (tblk m c (pt p s)) (cblk m c (pt p s)) l i]
  refine Finset.sum_congr rfl fun g _ => ?_
  rw [pen_blk m hC c (pt p s) (row g i) l, gidx_pt_row]

end Cert.KernelIdeal.KerPoint

end
-- ==== Proof.KerValue.lean ====
/-
  The kernel's result. Each of the sixteen grid points adds its tile's per-sample terms, folded over the 256
  sublane groups, into three (8, 128) accumulators that the first point of each core clears; the last point of a core
  sums its accumulators over their lanes and fills that core's output blocks with the sums; the host adds the two
  cores' sums, divides and adds.
-/
import proofs.«424041_j28518582845592_2_alg».proof.Proof.Gen.KernelIdeal.Frame
import proofs.«424041_j28518582845592_2_alg».proof.Proof.Spec
import proofs.«424041_j28518582845592_2_alg».proof.Proof.Words
import proofs.«424041_j28518582845592_2_alg».proof.Proof.KerTail
import proofs.«424041_j28518582845592_2_alg».proof.Proof.KerAcc
import proofs.«424041_j28518582845592_2_alg».proof.Proof.KerPoint

noncomputable section

namespace Cert.KernelIdeal.KerValue

open Idealize.ShloMosaic Idealize.ShloMosaic.TcCoe Idealize.SL.Sem Idealize.ShloMosaic.ValueIdx
open Cert.KernelIdeal Cert.KernelIdeal.Gen

/-- Under the two integer ranges of the precondition the program runs, leaves the loss's closed form in its result
    and its arguments as they were. -/
theorem run (m : (ℓ : Loc nD τ sig) → Buf (Elt Ideal) ℓ) (ρ : Dev nD → PrngReg)
    (hT : ∀ (c : Dev nD) (b : Fin 4194304),
      100 ≤ ((m ((c.tc : Thread nD τ).loc main_arg1) : Cert.Spec.SX.Idx → BitVec 32) (ix2 b (2 : Fin 3))).toInt
      ∧ ((m ((c.tc : Thread nD τ).loc main_arg1) : Cert.Spec.SX.Idx → BitVec 32) (ix2 b (2 : Fin 3))).toInt < 800)
    (hC : ∀ (c : Dev nD) (b : Fin 4194304),
      1 ≤ ((m ((c.tc : Thread nD τ).loc main_arg2) : Cert.Spec.SC.Idx → BitVec 32) (ix1 b)).toInt
      ∧ ((m ((c.tc : Thread nD τ).loc main_arg2) : Cert.Spec.SC.Idx → BitVec 32) (ix1 b)).toInt ≤ 21) :
    θ_run (defs (F := Ideal)) (onTc (τ := τ) (main (F := Ideal))) ⟨m, fun _ => 0, ρ⟩ (fun r => ∀ c : Dev nD,
      r.2.mem ((c.tc : Thread nD τ).loc main_v23)
          = (fun _ => Cert.Spec.Kspec (m ((c.tc : Thread nD τ).loc main_arg0)) (m ((c.tc : Thread nD τ).loc main_arg1))
              (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run (defs (F := Ideal)) _ _).mono (fun r h c => ?_) (Cert.KernelIdeal.KerTail.run_tail m ρ)
  refine ⟨(h c).1.trans ?_, (h c).2⟩
  have eS : ∑ p : Fin 2, Cert.KernelIdeal.KerTail.coreS m c p
      = Cert.Spec.kerTotal (Cert.KernelIdeal.KerPoint.termS m c) := by
    unfold Cert.Spec.kerTotal
    refine Finset.sum_congr rfl fun p _ => ?_
    rw [Cert.KernelIdeal.KerAcc.coreS_eq m c p]
    refine Finset.sum_congr rfl fun i _ => Finset.sum_congr rfl fun l _ => Finset.sum_congr rfl fun s _ => ?_
    exact Cert.KernelIdeal.KerPoint.partS_lane m hT c p s i l
  have eA : ∑ p : Fin 2, Cert.KernelIdeal.KerTail.coreA m c p
      = Cert.Spec.kerTotal (Cert.KernelIdeal.KerPoint.termA m c) := by
    unfold Cert.Spec.kerTotal
    refine Finset.sum_congr rfl fun p _ => ?_
    rw [Cert.KernelIdeal.KerAcc.coreA_eq m c p]
    refine Finset.sum_congr rfl fun i _ => Finset.sum_congr rfl fun l _ => Finset.sum_congr rfl fun s _ => ?_
    exact Cert.KernelIdeal.KerPoint.partA_lane m hT c p s i l
  have eP : ∑ p : Fin 2, Cert.KernelIdeal.KerTail.coreP m c p
      = Cert.Spec.kerTotal (Cert.KernelIdeal.KerPoint.termP m c) := by
    unfold Cert.Spec.kerTotal
    refine Finset.sum_congr rfl fun p _ => ?_
    rw [Cert.KernelIdeal.KerAcc.coreP_eq m c p]
    refine Finset.sum_congr rfl fun i _ => Finset.sum_congr rfl fun l _ => Finset.sum_congr rfl fun s _ => ?_
    exact Cert.KernelIdeal.KerPoint.partP_lane m hC c p s i l
  rw [eS, eA, eP]
  rfl

end Cert.KernelIdeal.KerValue

end
-- ==== Proof.RefGather.lean ====
/-
  The reference's two table look-ups, read at one sample.

  A gather clamps every start index into the table. The weights look-up reads, at sample b, the weight at the start
  index of b; the window look-up reads, at (b, j), column j of the table row at the start index of b. When the start
  index is the word of a row number inside the table, the clamp is idle and the row read is that row. The two window
  tables hold, row by row, the window ends that the cycle state selects.
-/
import proofs.«424041_j28518582845592_2_alg».proof.ReferenceIdeal
import proofs.«424041_j28518582845592_2_alg».proof.Proof.Spec
import Idealize.ShloMosaic.Lib.ValueIdx

noncomputable section

namespace Cert.ReferenceIdeal.RefGather

open Idealize.ShloMosaic Idealize.ShloMosaic.ValueIdx Cert.ReferenceIdeal

variable [Facts]
open Facts₀ Facts

variable {α : Type}

/-- The weights look-up at sample b: the weight at the start index of b, read signed and clamped into [0, 6]. -/
theorem gatherW_apply (x : S7.Idx → α) (idx : IVec S4194304x1 32) (b : Fin 4194304) :
    Host.gather gather_S7_S4194304x1_S4194304_n_0_n_n_0_1_1 x idx (ix1 b)
      = x (ix1 ⟨min (idx (ix2 b (0 : Fin 1))).toInt.toNat (7 - 1), by omega⟩) := by
  unfold Host.gather
  refine congrArg x (funext fun a => ?_)
  obtain rfl : a = 0 := Subsingleton.elim _ _
  refine Fin.ext ?_
  show gather_S7_S4194304x1_S4194304_n_0_n_n_0_1_1.start (ix1 b) idx 0
      + gather_S7_S4194304x1_S4194304_n_0_n_n_0_1_1.batchCoord (ix1 b) 0
      + gather_S7_S4194304x1_S4194304_n_0_n_n_0_1_1.offCoord (ix1 b) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S7_S4194304x1_S4194304_n_0_n_n_0_1_1.startIndexMap from List.mem_singleton.mpr rfl)]
  have hsi : gather_S7_S4194304x1_S4194304_n_0_n_n_0_1_1.siIdx (ix1 b)
      ⟨List.idxOf (0 : Fin 1) gather_S7_S4194304x1_S4194304_n_0_n_n_0_1_1.startIndexMap,
        List.idxOf_lt_length_iff.2 (List.mem_singleton.mpr rfl)⟩ = ix2 b (0 : Fin 1) := by
    funext c; refine Fin.ext ?_
    match c with
    | ⟨0, _⟩ => rfl
    | ⟨1, _⟩ => rfl
  rw [hsi]
  rfl

/-- The window look-up at (b, j): column j of the row at the start index of b, read signed and clamped into [0, 20]. -/
theorem gatherT_apply (x : S21x2.Idx → α) (idx : IVec S4194304x1 32) (b : Fin 4194304) (j : Fin 2) :
    Host.gather gather_S21x2_S4194304x1_S4194304x2_1_0_n_n_0_1_12 x idx (ix2 b j)
      = x (ix2 ⟨min (idx (ix2 b (0 : Fin 1))).toInt.toNat (21 - 1), by omega⟩ j) := by
  unfold Host.gather
  refine congrArg x (funext ?_)
  refine Fin.forall_fin_two.2 ⟨Fin.ext ?_, Fin.ext ?_⟩
  · show gather_S21x2_S4194304x1_S4194304x2_1_0_n_n_0_1_12.start (ix2 b j) idx 0
        + gather_S21x2_S4194304x1_S4194304x2_1_0_n_n_0_1_12.batchCoord (ix2 b j) 0
        + gather_S21x2_S4194304x1_S4194304x2_1_0_n_n_0_1_12.offCoord (ix2 b j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S21x2_S4194304x1_S4194304x2_1_0_n_n_0_1_12.startIndexMap from List.mem_singleton.mpr rfl)]
    have hsi : gather_S21x2_S4194304x1_S4194304x2_1_0_n_n_0_1_12.siIdx (ix2 b j)
        ⟨List.idxOf (0 : Fin 2) gather_S21x2_S4194304x1_S4194304x2_1_0_n_n_0_1_12.startIndexMap,
          List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  · show gather_S21x2_S4194304x1_S4194304x2_1_0_n_n_0_1_12.start (ix2 b j) idx 1
        + gather_S21x2_S4194304x1_S4194304x2_1_0_n_n_0_1_12.batchCoord (ix2 b j) 1
        + gather_S21x2_S4194304x1_S4194304x2_1_0_n_n_0_1_12.offCoord (ix2 b j) 1 = _
    have hns : (1 : Fin 2) ∉ gather_S21x2_S4194304x1_S4194304x2_1_0_n_n_0_1_12.startIndexMap :=
      fun h => absurd (List.mem_singleton.mp h) (by decide)
    have hk : (1 : Fin 2) ∈ gather_S21x2_S4194304x1_S4194304x2_1_0_n_n_0_1_12.sKept :=
      (GatherDims.mem_sKept _ _).mpr ⟨fun h => absurd (List.mem_singleton.mp h) (by decide), List.not_mem_nil⟩
    rw [GatherDims.batchCoord_eq_zero _ _ _ List.not_mem_nil]
    unfold GatherDims.start GatherDims.offCoord
    rw [dif_neg hns, dif_pos hk, Nat.add_zero, Nat.zero_add]
    rfl

/-- The word of a row number inside a table of r + 1 rows is not moved by the clamp into [0, r]. -/
private theorem clamp7 : ∀ n : Fin 7, min (BitVec.ofNat 32 n.val).toInt.toNat (7 - 1) = n.val := by decide +kernel
private theorem clamp21 : ∀ n : Fin 21, min (BitVec.ofNat 32 n.val).toInt.toNat (21 - 1) = n.val := by decide +kernel

/-- The weights look-up at a sample whose start index is the word of class n < 7: weight n. -/
theorem gatherW_at (x : S7.Idx → α) (idx : IVec S4194304x1 32) (b : Fin 4194304) (n : ℕ) (hn : n < 7)
    (h : idx (ix2 b (0 : Fin 1)) = BitVec.ofNat 32 n) :
    Host.gather gather_S7_S4194304x1_S4194304_n_0_n_n_0_1_1 x idx (ix1 b) = x (ix1 ⟨n, hn⟩) := by
  rw [gatherW_apply]
  refine congrArg (fun k => x (ix1 k)) (Fin.ext ?_)
  show min (idx (ix2 b (0 : Fin 1))).toInt.toNat (7 - 1) = n
  rw [h]; exact clamp7 ⟨n, hn⟩

/-- The window look-up at a sample whose start index is the word of row n < 21: entry (n, j). -/
theorem gatherT_at (x : S21x2.Idx → α) (idx : IVec S4194304x1 32) (b : Fin 4194304) (j : Fin 2) (n : ℕ) (hn : n < 21)
    (h : idx (ix2 b (0 : Fin 1)) = BitVec.ofNat 32 n) :
    Host.gather gather_S21x2_S4194304x1_S4194304x2_1_0_n_n_0_1_12 x idx (ix2 b j) = x (ix2 ⟨n, hn⟩ j) := by
  rw [gatherT_apply]
  refine congrArg (fun k => x (ix2 k j)) (Fin.ext ?_)
  show min (idx (ix2 b (0 : Fin 1))).toInt.toNat (21 - 1) = n
  rw [h]; exact clamp21 ⟨n, hn⟩

/-- Entry (n, j) of a 21 by 2 table sits at position 2 n + j of its row-major listing. -/
private theorem pos (n : Fin 21) (j : Fin 2) (h : n.val * 2 + j.val < 42) :
    S21x2.rowMajor (ix2 n j) = (⟨n.val * 2 + j.val, h⟩ : Fin 42) :=
  Fin.ext (by show (S21x2.rowMajor (ix2 n j)).val = _; rw [Shape.rowMajor_val_two]; rfl)

private theorem lit0_rows : ∀ n : Fin 21,
    lit0 ⟨n.val * 2 + (0 : Fin 2).val, by omega⟩ = Cert.Spec.lo2W n.val
      ∧ lit0 ⟨n.val * 2 + (1 : Fin 2).val, by omega⟩ = 0x463B8000#32 := by decide +kernel
private theorem lit1_rows : ∀ n : Fin 21,
    lit1 ⟨n.val * 2 + (0 : Fin 2).val, by omega⟩ = 0x45098000#32
      ∧ lit1 ⟨n.val * 2 + (1 : Fin 2).val, by omega⟩ = Cert.Spec.hi3W n.val := by decide +kernel

/-- The first table: row n holds the lower end of the first window at row n, then 12000. -/
theorem lit0_col0 (n : Fin 21) : lit0 (S21x2.rowMajor (ix2 n (0 : Fin 2))) = Cert.Spec.lo2W n.val := by
  rw [pos n _ (by have := n.isLt; omega)]; exact (lit0_rows n).1
theorem lit0_col1 (n : Fin 21) : lit0 (S21x2.rowMajor (ix2 n (1 : Fin 2))) = 0x463B8000#32 := by
  rw [pos n _ (by have := n.isLt; omega)]; exact (lit0_rows n).2
/-- The second table: row n holds 2200, then the upper end of the second window at row n. -/
theorem lit1_col0 (n : Fin 21) : lit1 (S21x2.rowMajor (ix2 n (0 : Fin 2))) = 0x45098000#32 := by
  rw [pos n _ (by have := n.isLt; omega)]; exact (lit1_rows n).1
theorem lit1_col1 (n : Fin 21) : lit1 (S21x2.rowMajor (ix2 n (1 : Fin 2))) = Cert.Spec.hi3W n.val := by
  rw [pos n _ (by have := n.isLt; omega)]; exact (lit1_rows n).2

end Cert.ReferenceIdeal.RefGather

end
-- ==== Proof.RefTerm.lean ====
/-
  The reference program's result as one pure value, and its closed form.

  The reference computes, for every sample, a class weight looked up by the floor quotient of the third target by
  100 (less one, a negative index counted from the end), the weighted squared differences of the three prediction
  columns against the targets, and the range charges of targets 0 and 1 against windows whose varying ends are looked
  up in two 21-row tables by the cycle state less one. `refTerm` composes the program's operations in its order, the
  repeated runs of operations as stages of their own; under the two integer ranges every index correction is idle
  and the value is the closed form `Rspec`.
-/
import proofs.«424041_j28518582845592_2_alg».proof.ReferenceIdeal
import proofs.«424041_j28518582845592_2_alg».proof.Proof.Spec
import proofs.«424041_j28518582845592_2_alg».proof.Proof.Words
import proofs.«424041_j28518582845592_2_alg».proof.Proof.RefGather
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefTerm

open Idealize.ShloMosaic Idealize.ShloMosaic.ValueIdx
open Cert.ReferenceIdeal

section
variable [Facts] {F : FTy → Type} [FloatOps F]
open Facts₀ Facts

/-! ## The stages

Each stage is a run of consecutive operations of the program (or the body of a function it calls), one `let` per
operation, each right-hand side the pure function the operation applies; `refTerm` is their composition in
program order. -/

/-- The called floor division: the truncating quotient, less one where the operands' signs differ and the
    remainder is not zero (the closing select is the inner call's one operation). -/
def floorDiv (arg0 : IVec S4194304 32) (arg1 : IVec S_ 32) : IVec S4194304 32 :=
  let v0 : IVec S_ 32 := id arg1
  let v1 : IVec S4194304 32 := broadcastInDim S4194304 ![] bcast_S_S4194304 v0
  let v2 : IVec S4194304 32 := Host.divsi arg0 v1
  let v3 : IVec S4194304 32 := signi arg0
  let v4 : IVec S_ 32 := signi v0
  let v5 : IVec S4194304 32 := broadcastInDim S4194304 ![] bcast_S_S4194304 v4
  let v6 : IVec S4194304 1 := cmpi .ne v3 v5
  let v7 : IVec S4194304 32 := broadcastInDim S4194304 ![] bcast_S_S4194304 v0
  let v8 : IVec S4194304 32 := Host.remsi arg0 v7
  let c : IVec S_ 32 := constantI S_ 32 0#32
  let v9 : IVec S4194304 32 := broadcastInDim S4194304 ![] bcast_S_S4194304 c
  let v10 : IVec S4194304 1 := cmpi .ne v8 v9
  let v11 : IVec S4194304 1 := andi v6 v10
  let c_0 : IVec S_ 32 := constantI S_ 32 1#32
  let v12 : IVec S4194304 32 := broadcastInDim S4194304 ![] bcast_S_S4194304 c_0
  let v13 : IVec S4194304 32 := subi v2 v12
  let w0 : IVec S4194304 32 := select v11 v13 v2
  w0

/-- The called select against a splat: where the mask holds the vector's element, elsewhere the scalar. -/
def whereScalar (arg0 : IVec S4194304 1) (arg1 : FVec F S4194304 .f32) (arg2 : FVec F S_ .f32) :
    FVec F S4194304 .f32 :=
  let v0 : FVec F S_ .f32 := id arg2
  let v1 : FVec F S4194304 .f32 := broadcastInDim S4194304 ![] bcast_S_S4194304 v0
  let v2 : FVec F S4194304 .f32 := select arg0 arg1 v1
  v2

/-- The class index before its wrap: the third target column, floor-divided by 100, less one. -/
def classIdx (T : IVec S4194304x3 32) : IVec S4194304 32 :=
  let main_v1 : IVec S4194304x1 32 := extractStridedSlice S4194304x1 ![0, 2] T slices_S4194304x3_S4194304x1_0_2
  let main_v2 : IVec S4194304 32 := shapeCast S4194304 main_v1 shapeCasts_S4194304x1_S4194304
  let main_c : IVec S_ 32 := constantI S_ 32 100#32
  let main_v3 : IVec S4194304 32 := floorDiv main_v2 main_c
  let main_c_1 : IVec S_ 32 := constantI S_ 32 1#32
  let main_v4 : IVec S4194304 32 := broadcastInDim S4194304 ![] bcast_S_S4194304 main_c_1
  let main_v5 : IVec S4194304 32 := subi main_v3 main_v4
  main_v5

/-- An index column for a gather along an axis of length `n`: an index below zero has `n` added. -/
def wrapIdx (n : BitVec 32) (v : IVec S4194304 32) : IVec S4194304x1 32 :=
  let c0 : IVec S_ 32 := constantI S_ 32 0#32
  let z : IVec S4194304 32 := broadcastInDim S4194304 ![] bcast_S_S4194304 c0
  let neg : IVec S4194304 1 := cmpi .slt v z
  let cn : IVec S_ 32 := constantI S_ 32 n
  let len : IVec S4194304 32 := broadcastInDim S4194304 ![] bcast_S_S4194304 cn
  let up : IVec S4194304 32 := addi v len
  let w : IVec S4194304 32 := select neg up v
  let col : IVec S4194304x1 32 := broadcastInDim S4194304x1 ![0] bcast_S4194304_S4194304x1_0 w
  col

/-- The sensor term: the weighted squared differences of columns 0 and 1, their mean over the two columns,
    then the mean over the samples. -/
def sensorTerm (X main_v0 : FVec F S4194304x3 .f32) (main_v12 : FVec F S4194304 .f32) : FVec F S_ .f32 :=
  let main_v13 : FVec F S4194304x2 .f32 := extractStridedSlice S4194304x2 ![0, 0] X slices_S4194304x3_S4194304x2_0_0
  let main_v14 : FVec F S4194304x2 .f32 := extractStridedSlice S4194304x2 ![0, 0] main_v0 slices_S4194304x3_S4194304x2_0_0
  let main_v15 : FVec F S4194304x2 .f32 := subf main_v13 main_v14
  let main_v16 : FVec F S4194304x2 .f32 := mulf main_v15 main_v15
  let main_v17 : FVec F S4194304x1 .f32 := broadcastInDim S4194304x1 ![0] bcast_S4194304_S4194304x1_0 main_v12
  let main_v18 : FVec F S4194304x2 .f32 := broadcastInDim S4194304x2 ![0, 1] bcast_S4194304x1_S4194304x2_0_1 main_v17
  let main_v19 : FVec F S4194304x2 .f32 := mulf main_v18 main_v16
  let main_cst_4 : FVec F S_ .f32 := constant S_ .f32 0x00000000#32
  let main_v20 : FVec F S4194304 .f32 := Host.reduceAdd main_v19 main_cst_4 reducesTo_S4194304x2_S4194304_d1 h_S_
  let main_cst_5 : FVec F S_ .f32 := constant S_ .f32 0x40000000#32
  let main_v21 : FVec F S4194304 .f32 := broadcastInDim S4194304 ![] bcast_S_S4194304 main_cst_5
  let main_v22 : FVec F S4194304 .f32 := Host.divf main_v20 main_v21
  let main_cst_6 : FVec F S_ .f32 := constant S_ .f32 0x00000000#32
  let main_v23 : FVec F S_ .f32 := Host.reduceAdd main_v22 main_cst_6 reducesTo_S4194304_S_d0 h_S_
  let main_cst_7 : FVec F S_ .f32 := constant S_ .f32 0x4A800000#32
  let main_v24 : FVec F S_ .f32 := Host.divf main_v23 main_cst_7
  main_v24

/-- The anomaly term: the weighted squared difference of column 2, its mean over the samples. -/
def anomalyTerm (X main_v0 : FVec F S4194304x3 .f32) (main_v12 : FVec F S4194304 .f32) : FVec F S_ .f32 :=
  let main_v25 : FVec F S4194304x1 .f32 := extractStridedSlice S4194304x1 ![0, 2] X slices_S4194304x3_S4194304x1_0_2
  let main_v26 : FVec F S4194304 .f32 := shapeCast S4194304 main_v25 shapeCasts_S4194304x1_S4194304
  let main_v27 : FVec F S4194304x1 .f32 := extractStridedSlice S4194304x1 ![0, 2] main_v0 slices_S4194304x3_S4194304x1_0_2
  let main_v28 : FVec F S4194304 .f32 := shapeCast S4194304 main_v27 shapeCasts_S4194304x1_S4194304
  let main_v29 : FVec F S4194304 .f32 := subf main_v26 main_v28
  let main_v30 : FVec F S4194304 .f32 := mulf main_v29 main_v29
  let main_v31 : FVec F S4194304 .f32 := mulf main_v12 main_v30
  let main_cst_8 : FVec F S_ .f32 := constant S_ .f32 0x00000000#32
  let main_v32 : FVec F S_ .f32 := Host.reduceAdd main_v31 main_cst_8 reducesTo_S4194304_S_d0 h_S_
  let main_cst_9 : FVec F S_ .f32 := constant S_ .f32 0x4A800000#32
  let main_v33 : FVec F S_ .f32 := Host.divf main_v32 main_cst_9
  main_v33

/-- The table row before its wrap: the cycle state less one. -/
def rowIdx (C : IVec S4194304 32) : IVec S4194304 32 :=
  let main_c_10 : IVec S_ 32 := constantI S_ 32 1#32
  let main_v34 : IVec S4194304 32 := broadcastInDim S4194304 ![] bcast_S_S4194304 main_c_10
  let main_v35 : IVec S4194304 32 := subi C main_v34
  main_v35

/-- The charge of one target column `t` against the window whose ends are the two columns of `win`: the squared
    shortfall below the lower end plus the squared excess above the upper end. -/
def penCol (t : FVec F S4194304 .f32) (win : FVec F S4194304x2 .f32) : FVec F S4194304 .f32 :=
  let lo1 : FVec F S4194304x1 .f32 := extractStridedSlice S4194304x1 ![0, 0] win slices_S4194304x2_S4194304x1_0_0
  let lo : FVec F S4194304 .f32 := shapeCast S4194304 lo1 shapeCasts_S4194304x1_S4194304
  let hi1 : FVec F S4194304x1 .f32 := extractStridedSlice S4194304x1 ![0, 1] win slices_S4194304x2_S4194304x1_0_1
  let hi : FVec F S4194304 .f32 := shapeCast S4194304 hi1 shapeCasts_S4194304x1_S4194304
  let isLo : IVec S4194304 1 := cmpf .olt t lo
  let dLo : FVec F S4194304 .f32 := subf t lo
  let sLo : FVec F S4194304 .f32 := mulf dLo dLo
  let z0 : FVec F S_ .f32 := constant S_ .f32 0x00000000#32
  let pLo : FVec F S4194304 .f32 := whereScalar isLo sLo z0
  let isHi : IVec S4194304 1 := cmpf .ogt t hi
  let dHi : FVec F S4194304 .f32 := subf t hi
  let sHi : FVec F S4194304 .f32 := mulf dHi dHi
  let z1 : FVec F S_ .f32 := constant S_ .f32 0x00000000#32
  let pHi : FVec F S4194304 .f32 := whereScalar isHi sHi z1
  let p : FVec F S4194304 .f32 := addf pLo pHi
  p

/-- The reference program's result: its operations composed in program order. -/
def refTerm (X : FVec F S4194304x3 .f32) (T : IVec S4194304x3 32) (C : IVec S4194304 32)
    (W : FVec F S7 .f32) : FVec F S_ .f32 :=
  let main_cst : FVec F S21x2 .f32 := fun i => FloatOps.ofBits .f32 (lit0 (S21x2.rowMajor i))
  let main_cst_0 : FVec F S21x2 .f32 := fun i => FloatOps.ofBits .f32 (lit1 (S21x2.rowMajor i))
  let main_v0 : FVec F S4194304x3 .f32 := sitofp .f32 T
  let main_v5 : IVec S4194304 32 := classIdx T
  let main_v11 : IVec S4194304x1 32 := wrapIdx 7#32 main_v5
  let main_v12 : FVec F S4194304 .f32 := Host.gather gather_S7_S4194304x1_S4194304_n_0_n_n_0_1_1 W main_v11
  let main_v24 : FVec F S_ .f32 := sensorTerm X main_v0 main_v12
  let main_v33 : FVec F S_ .f32 := anomalyTerm X main_v0 main_v12
  let main_v35 : IVec S4194304 32 := rowIdx C
  let main_v41 : IVec S4194304x1 32 := wrapIdx 21#32 main_v35
  let main_v42 : FVec F S4194304x2 .f32 := Host.gather gather_S21x2_S4194304x1_S4194304x2_1_0_n_n_0_1_12 main_cst main_v41
  let main_v48 : IVec S4194304x1 32 := wrapIdx 21#32 main_v35
  let main_v49 : FVec F S4194304x2 .f32 := Host.gather gather_S21x2_S4194304x1_S4194304x2_1_0_n_n_0_1_12 main_cst_0 main_v48
  let main_v50 : FVec F S4194304x1 .f32 := extractStridedSlice S4194304x1 ![0, 0] main_v0 slices_S4194304x3_S4194304x1_0_0
  let main_v51 : FVec F S4194304 .f32 := shapeCast S4194304 main_v50 shapeCasts_S4194304x1_S4194304
  let main_v64 : FVec F S4194304 .f32 := penCol main_v51 main_v42
  let main_v65 : FVec F S4194304x1 .f32 := extractStridedSlice S4194304x1 ![0, 1] main_v0 slices_S4194304x3_S4194304x1_0_1
  let main_v66 : FVec F S4194304 .f32 := shapeCast S4194304 main_v65 shapeCasts_S4194304x1_S4194304
  let main_v79 : FVec F S4194304 .f32 := penCol main_v66 main_v49
  let main_v80 : FVec F S4194304 .f32 := addf main_v64 main_v79
  let main_cst_19 : FVec F S_ .f32 := constant S_ .f32 0x00000000#32
  let main_v81 : FVec F S_ .f32 := Host.reduceAdd main_v80 main_cst_19 reducesTo_S4194304_S_d0 h_S_
  let main_v82 : FVec F S_ .f32 := addf main_v24 main_v33
  let main_v83 : FVec F S_ .f32 := addf main_v82 main_v81
  main_v83

end

/-! ## Layout operations as functions

A broadcast, a column cut out and flattened, and the first two columns, each as the function of the index it is:
equalities between whole vectors, so that a composed value is rewritten where the vector stands. -/

section Layout
variable {α : Type} {n m : ℕ}

/-- A scalar broadcast to a vector is the constant function. -/
theorem bcast0_eq (h : (⟨0, ![]⟩ : Shape).BroadcastsInDim ⟨1, ![n]⟩
      (![] : Fin (⟨0, ![]⟩ : Shape).rank → Fin (⟨1, ![n]⟩ : Shape).rank))
    (y : (⟨0, ![]⟩ : Shape).Idx → α) : broadcastInDim ⟨1, ![n]⟩ ![] h y = fun _ => y ix0 :=
  funext fun j => broadcastInDim_apply _ h y j ix0 (fun a => a.elim0)

/-- A vector broadcast to a one-column matrix reads its entry at the row. -/
theorem bcastCol_eq (h : (⟨1, ![n]⟩ : Shape).BroadcastsInDim ⟨2, ![n, 1]⟩
      (![0] : Fin (⟨1, ![n]⟩ : Shape).rank → Fin (⟨2, ![n, 1]⟩ : Shape).rank))
    (x : (⟨1, ![n]⟩ : Shape).Idx → α) : broadcastInDim ⟨2, ![n, 1]⟩ ![0] h x = fun j => x (ix1 (j 0)) :=
  funext fun j => broadcastInDim_apply _ h x j (ix1 (j 0)) (fun a => by
    match a with
    | ⟨0, _⟩ =>
      show (j 0).val = if n = 1 then 0 else (j 0).val
      have := idx2_lt0 j
      split
      · omega
      · rfl)

/-- A one-column matrix broadcast along its rows reads the row's one entry. -/
theorem bcastRow_eq (h : (⟨2, ![n, 1]⟩ : Shape).BroadcastsInDim ⟨2, ![n, m]⟩
      (![0, 1] : Fin (⟨2, ![n, 1]⟩ : Shape).rank → Fin (⟨2, ![n, m]⟩ : Shape).rank))
    (x : (⟨2, ![n, 1]⟩ : Shape).Idx → α) :
    broadcastInDim ⟨2, ![n, m]⟩ ![0, 1] h x = fun j => x (ix2 (j 0) (0 : Fin 1)) :=
  funext fun j => broadcastInDim_apply _ h x j (ix2 (j 0) (0 : Fin 1)) (fun a => by
    match a with
    | ⟨0, _⟩ =>
      show (j 0).val = if n = 1 then 0 else (j 0).val
      have := idx2_lt0 j
      split
      · omega
      · rfl
    | ⟨1, _⟩ =>
      exact (if_pos rfl).symm)

/-- Column k of a matrix, cut out and flattened, reads the matrix at (row, k). -/
theorem col_eq (k : ℕ) (hk : k < m) (x : (⟨2, ![n, m]⟩ : Shape).Idx → α)
    (h : (⟨2, ![n, m]⟩ : Shape).Slices ![0, k] ⟨2, ![n, 1]⟩)
    (h' : (⟨2, ![n, 1]⟩ : Shape).ShapeCasts ⟨1, ![n]⟩) :
    shapeCast ⟨1, ![n]⟩ (extractStridedSlice ⟨2, ![n, 1]⟩ ![0, k] x h) h' = fun i => x (ix2 (i 0) ⟨k, hk⟩) :=
  funext fun i =>
    (shapeCast_apply _ h' i (ix2 (i 0) (0 : Fin 1)) (by
      rw [Shape.rowMajor_val_two, Shape.rowMajor_val_one]
      show (i 0).val * 1 + 0 = (i 0).val
      omega)).trans
    (slice2_axis1_apply k x h (i 0) (0 : Fin 1) ⟨k, hk⟩ rfl)

/-- The first two columns of a matrix read the matrix at the same place. -/
theorem cols2_eq (hm : 2 ≤ m) (x : (⟨2, ![n, m]⟩ : Shape).Idx → α)
    (h : (⟨2, ![n, m]⟩ : Shape).Slices ![0, 0] ⟨2, ![n, 2]⟩) :
    extractStridedSlice ⟨2, ![n, 2]⟩ ![0, 0] x h
      = fun j => x (ix2 (j 0) ⟨(j 1).val, Nat.lt_of_lt_of_le (j 1).isLt hm⟩) :=
  funext fun j => extractStridedSlice_apply _ x h j _ (fun a => by
    match a with
    | ⟨0, _⟩ => exact (Nat.zero_add _).symm
    | ⟨1, _⟩ => exact (Nat.zero_add _).symm)

end Layout

/-! ## The host sums at the ideal values -/

section Sums
variable [Facts]
open Facts₀ Facts

/-- A rank-1 index set is its one coordinate's range … -/
def idxEquiv1 {n : ℕ} : (⟨1, ![n]⟩ : Shape).Idx ≃ Fin n where
  toFun i := i 0
  invFun b := ix1 b
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ b : Fin n, f (ix1 b) := by
  rw [← Equiv.sum_comp (idxEquiv1 (n := n)).symm f]
  rfl

/-- The host's sum over the two columns, at sample `b`: the initial value plus the row's two entries. -/
theorem reduceRows_apply (x : FVec Ideal S4194304x2 .f32) (init : FVec Ideal S_ .f32) (b : Fin 4194304) :
    Host.reduceAdd x init reducesTo_S4194304x2_S4194304_d1 h_S_ (ix1 b)
      = init ix0 + (x (ix2 b (0 : Fin 2)) + x (ix2 b (1 : Fin 2))) := by
  have hR : S4194304x2.Reduces [1] S4194304 := by decide
  show Ideal.hostReduceAdd reducesTo_S4194304x2_S4194304_d1 x (init (Shape.Idx.first h_S_)) (ix1 b) = _
  rw [Ideal.hostReduceAdd_single _ hR, show Shape.Idx.first h_S_ = ix0 from eq_ix0 _]
  show init ix0 + ∑ k : Fin 2, x (hR.lift (ix1 b) k) = _
  rw [Fin.sum_univ_two]
  have e0 : hR.lift (ix1 b) (0 : Fin 2) = ix2 b (0 : Fin 2) := by
    funext a; apply Fin.ext
    match a with
    | ⟨0, _⟩ => rfl
    | ⟨1, _⟩ => rfl
  have e1 : hR.lift (ix1 b) (1 : Fin 2) = ix2 b (1 : Fin 2) := by
    funext a; apply Fin.ext
    match a with
    | ⟨0, _⟩ => rfl
    | ⟨1, _⟩ => rfl
  rw [e0, e1]

/-- The host's sum over all samples: the initial value plus the sum over the samples. -/
theorem reduceAll_apply (x : FVec Ideal S4194304 .f32) (init : FVec Ideal S_ .f32) (j : S_.Idx) :
    Host.reduceAdd x init reducesTo_S4194304_S_d0 h_S_ j = init ix0 + ∑ b : Fin 4194304, x (ix1 b) := by
  show Ideal.hostReduceAdd reducesTo_S4194304_S_d0 x (init (Shape.Idx.first h_S_)) j = _
  rw [Ideal.hostReduceAdd_total _ (fun b => b.elim0), show Shape.Idx.first h_S_ = ix0 from eq_ix0 _]
  exact congrArg (init ix0 + ·) (sum_idx1 x)

end Sums

/-! ## The stages read sample by sample -/

section Reads
variable [Facts]
open Facts₀ Facts

/-- The called floor division by the splat of 100, sample by sample. -/
theorem floorDiv_eq (a : IVec S4194304 32) :
    floorDiv a (constantI S_ 32 100#32) = fun i => Cert.Words.rFloorDiv (a i) := rfl

/-- The class index before its wrap, sample by sample: the floor quotient of the third target by 100, less one. -/
theorem classIdx_eq (T : IVec S4194304x3 32) :
    classIdx T = fun i => IntOp.subi (Cert.Words.rFloorDiv (T (ix2 (i 0) (2 : Fin 3)))) 1#32 := by
  unfold classIdx
  dsimp only
  rw [col_eq 2 (by omega) T]
  rfl

/-- The wrapped index column, element by element. -/
theorem wrapIdx_eq (n : BitVec 32) (v : IVec S4194304 32) :
    wrapIdx n v = fun j => Cert.Words.rWrap n (v (ix1 (j 0))) := by
  unfold wrapIdx
  dsimp only
  rw [bcastCol_eq]
  rfl

/-- The gathered weights: for a third target in `[100, 800)` the wrapped class index is `t / 100 - 1`, inside the
    seven weights, so the gather reads that weight. -/
theorem weights_eq (T : IVec S4194304x3 32) (W : FVec Ideal S7 .f32)
    (hT : ∀ b : Fin 4194304, 100 ≤ (T (ix2 b (2 : Fin 3))).toInt ∧ (T (ix2 b (2 : Fin 3))).toInt < 800) :
    Host.gather gather_S7_S4194304x1_S4194304_n_0_n_n_0_1_1 W (wrapIdx 7#32 (classIdx T))
      = fun i => Cert.Spec.sw T W (i 0) := by
  funext i
  obtain ⟨b, rfl⟩ : ∃ b, i = ix1 b := ⟨i 0, eq_ix1 i⟩
  have hb := hT b
  rw [RefGather.gatherW_at W _ b ((T (ix2 b (2 : Fin 3))).toNat / 100 - 1) (Cert.Words.idxW_lt _ hb.1 hb.2)
    (by rw [wrapIdx_eq, classIdx_eq]; exact Cert.Words.rIdxW_eq _ hb.1 hb.2)]
  show _ = Cert.Spec.wAt W _
  unfold Cert.Spec.wAt
  rw [dif_pos (Cert.Words.idxW_lt _ hb.1 hb.2)]

/-! The range charges. -/

/-- The select against a splat, read at a sample: the vector's element where the mask holds, the scalar elsewhere. -/
theorem whereScalar_eq (c : IVec S4194304 1) (a : FVec Ideal S4194304 .f32) (z : FVec Ideal S_ .f32) :
    whereScalar c a z = fun i => Scalar.select (c i) (a i) (z ix0) := by
  unfold whereScalar
  dsimp only
  rw [bcast0_eq]
  rfl

/-- The charge of a target column against a window, sample by sample: the squared shortfall below the window's
    first column plus the squared excess above its second. -/
theorem penCol_eq (t : FVec Ideal S4194304 .f32) (win : FVec Ideal S4194304x2 .f32) :
    penCol t win = fun i => Cert.Spec.below (t i) (win (ix2 (i 0) (0 : Fin 2))) + Cert.Spec.above (t i) (win (ix2 (i 0) (1 : Fin 2))) := by
  unfold penCol
  dsimp only
  rw [col_eq 0 (by decide) win, col_eq 1 (by decide) win, whereScalar_eq, whereScalar_eq]
  rfl

/-! The two weighted means. -/

theorem sensorTerm_eq (X : FVec Ideal S4194304x3 .f32) (T : IVec S4194304x3 32) (w : FVec Ideal S4194304 .f32) :
    sensorTerm X (sitofp .f32 T) w = fun _ => Ideal.div (∑ b : Fin 4194304, Ideal.div (w (ix1 b) * Cert.Spec.sq (Cert.Spec.dd X T 0 b) + w (ix1 b) * Cert.Spec.sq (Cert.Spec.dd X T 1 b)) (Cert.Spec.lit 0x40000000#32)) (Cert.Spec.lit 0x4A800000#32) := by
  unfold sensorTerm
  dsimp only
  rw [cols2_eq (show 2 ≤ 3 by omega) X, cols2_eq (show 2 ≤ 3 by omega) (sitofp .f32 T), bcastCol_eq, bcastRow_eq, bcast0_eq]
  funext j
  show Ideal.div (Host.reduceAdd (F := Ideal) _ (constant (F := Ideal) S_ .f32 0x00000000#32) reducesTo_S4194304_S_d0 h_S_ j) (Cert.Spec.lit 0x4A800000#32) = _
  rw [reduceAll_apply]
  show Ideal.div (Ideal.ofBits .f32 0x00000000#32 + ∑ b : Fin 4194304,
      Ideal.div (Host.reduceAdd (F := Ideal) _ (constant (F := Ideal) S_ .f32 0x00000000#32) reducesTo_S4194304x2_S4194304_d1 h_S_ (ix1 b)) (Cert.Spec.lit 0x40000000#32)) _ = _
  rw [Ideal.ofBits_zero_f32, zero_add]
  refine congrArg (fun s => Ideal.div s (Cert.Spec.lit 0x4A800000#32)) ?_
  refine Finset.sum_congr rfl fun b _ => ?_
  rw [reduceRows_apply]
  show Ideal.div (Ideal.ofBits .f32 0x00000000#32 + _) _ = _
  rw [Ideal.ofBits_zero_f32, zero_add]
  rfl

theorem anomalyTerm_eq (X : FVec Ideal S4194304x3 .f32) (T : IVec S4194304x3 32) (w : FVec Ideal S4194304 .f32) :
    anomalyTerm X (sitofp .f32 T) w = fun _ => Ideal.div (∑ b : Fin 4194304, w (ix1 b) * Cert.Spec.sq (Cert.Spec.dd X T 2 b)) (Cert.Spec.lit 0x4A800000#32) := by
  unfold anomalyTerm
  dsimp only
  rw [col_eq 2 (show 2 < 3 by omega) X, col_eq 2 (show 2 < 3 by omega) (sitofp .f32 T)]
  funext j
  show Ideal.div (Host.reduceAdd (F := Ideal) _ (constant (F := Ideal) S_ .f32 0x00000000#32) reducesTo_S4194304_S_d0 h_S_ j) (Cert.Spec.lit 0x4A800000#32) = _
  rw [reduceAll_apply]
  show Ideal.div (Ideal.ofBits .f32 0x00000000#32 + _) _ = _
  rw [Ideal.ofBits_zero_f32, zero_add]
  rfl

/-! The two window tables read at a sample. Under `1 ≤ c ≤ 21` the wrapped row index of a sample is the word of
`c - 1`, a row inside the 21-row tables, so the gather reads that row: its two entries are the window ends that the
cycle state selects (the lower end of the first window and 12000; 2200 and the upper end of the second window). -/

/-- The wrapped row index of sample b is the word of its cycle state less one. -/
theorem rowWord_eq (C : IVec S4194304 32)
    (hC : ∀ b : Fin 4194304, 1 ≤ (C (ix1 b)).toInt ∧ (C (ix1 b)).toInt ≤ 21) (b : Fin 4194304) :
    wrapIdx 21#32 (rowIdx C) (ix2 b (0 : Fin 1)) = BitVec.ofNat 32 ((C (ix1 b)).toNat - 1) := by
  rw [wrapIdx_eq]
  show Cert.Words.rWrap 21#32 (IntOp.subi (C (ix1 b)) 1#32) = _
  exact Cert.Words.rIdxC_eq (C (ix1 b)) (hC b).1 (hC b).2

theorem tableLo_at0 (C : IVec S4194304 32)
    (hC : ∀ b : Fin 4194304, 1 ≤ (C (ix1 b)).toInt ∧ (C (ix1 b)).toInt ≤ 21) (b : Fin 4194304) :
    Host.gather gather_S21x2_S4194304x1_S4194304x2_1_0_n_n_0_1_12 (fun i => FloatOps.ofBits (F := Ideal) .f32 (lit0 (S21x2.rowMajor i)) : FVec Ideal S21x2 .f32) (wrapIdx 21#32 (rowIdx C)) (ix2 b (0 : Fin 2))
      = Cert.Spec.lit (Cert.Spec.lo2W ((C (ix1 b)).toNat - 1)) := by
  rw [RefGather.gatherT_at _ _ b (0 : Fin 2) _ (Cert.Words.idxC_lt _ (hC b).1 (hC b).2) (rowWord_eq C hC b)]
  show FloatOps.ofBits (F := Ideal) .f32 (lit0 (S21x2.rowMajor (ix2 (⟨(C (ix1 b)).toNat - 1, Cert.Words.idxC_lt _ (hC b).1 (hC b).2⟩ : Fin 21) (0 : Fin 2)))) = _
  rw [RefGather.lit0_col0]
  rfl

theorem tableLo_at1 (C : IVec S4194304 32)
    (hC : ∀ b : Fin 4194304, 1 ≤ (C (ix1 b)).toInt ∧ (C (ix1 b)).toInt ≤ 21) (b : Fin 4194304) :
    Host.gather gather_S21x2_S4194304x1_S4194304x2_1_0_n_n_0_1_12 (fun i => FloatOps.ofBits (F := Ideal) .f32 (lit0 (S21x2.rowMajor i)) : FVec Ideal S21x2 .f32) (wrapIdx 21#32 (rowIdx C)) (ix2 b (1 : Fin 2))
      = Cert.Spec.lit 0x463B8000#32 := by
  rw [RefGather.gatherT_at _ _ b (1 : Fin 2) _ (Cert.Words.idxC_lt _ (hC b).1 (hC b).2) (rowWord_eq C hC b)]
  show FloatOps.ofBits (F := Ideal) .f32 (lit0 (S21x2.rowMajor (ix2 (⟨(C (ix1 b)).toNat - 1, Cert.Words.idxC_lt _ (hC b).1 (hC b).2⟩ : Fin 21) (1 : Fin 2)))) = _
  rw [RefGather.lit0_col1]
  rfl

theorem tableHi_at0 (C : IVec S4194304 32)
    (hC : ∀ b : Fin 4194304, 1 ≤ (C (ix1 b)).toInt ∧ (C (ix1 b)).toInt ≤ 21) (b : Fin 4194304) :
    Host.gather gather_S21x2_S4194304x1_S4194304x2_1_0_n_n_0_1_12 (fun i => FloatOps.ofBits (F := Ideal) .f32 (lit1 (S21x2.rowMajor i)) : FVec Ideal S21x2 .f32) (wrapIdx 21#32 (rowIdx C)) (ix2 b (0 : Fin 2))
      = Cert.Spec.lit 0x45098000#32 := by
  rw [RefGather.gatherT_at _ _ b (0 : Fin 2) _ (Cert.Words.idxC_lt _ (hC b).1 (hC b).2) (rowWord_eq C hC b)]
  show FloatOps.ofBits (F := Ideal) .f32 (lit1 (S21x2.rowMajor (ix2 (⟨(C (ix1 b)).toNat - 1, Cert.Words.idxC_lt _ (hC b).1 (hC b).2⟩ : Fin 21) (0 : Fin 2)))) = _
  rw [RefGather.lit1_col0]
  rfl

theorem tableHi_at1 (C : IVec S4194304 32)
    (hC : ∀ b : Fin 4194304, 1 ≤ (C (ix1 b)).toInt ∧ (C (ix1 b)).toInt ≤ 21) (b : Fin 4194304) :
    Host.gather gather_S21x2_S4194304x1_S4194304x2_1_0_n_n_0_1_12 (fun i => FloatOps.ofBits (F := Ideal) .f32 (lit1 (S21x2.rowMajor i)) : FVec Ideal S21x2 .f32) (wrapIdx 21#32 (rowIdx C)) (ix2 b (1 : Fin 2))
      = Cert.Spec.lit (Cert.Spec.hi3W ((C (ix1 b)).toNat - 1)) := by
  rw [RefGather.gatherT_at _ _ b (1 : Fin 2) _ (Cert.Words.idxC_lt _ (hC b).1 (hC b).2) (rowWord_eq C hC b)]
  show FloatOps.ofBits (F := Ideal) .f32 (lit1 (S21x2.rowMajor (ix2 (⟨(C (ix1 b)).toNat - 1, Cert.Words.idxC_lt _ (hC b).1 (hC b).2⟩ : Fin 21) (1 : Fin 2)))) = _
  rw [RefGather.lit1_col1]
  rfl

/-! ## The closed form -/

/-- Under the two integer ranges the reference's value is the closed form: the weights, the two means and the
    two windows' ends are read sample by sample, and the three host sums are sums over the samples. -/
theorem refTerm_eq (X : FVec Ideal S4194304x3 .f32) (T : IVec S4194304x3 32) (C : IVec S4194304 32) (W : FVec Ideal S7 .f32)
    (hT : ∀ b : Fin 4194304, 100 ≤ (T (ix2 b (2 : Fin 3))).toInt ∧ (T (ix2 b (2 : Fin 3))).toInt < 800)
    (hC : ∀ b : Fin 4194304, 1 ≤ (C (ix1 b)).toInt ∧ (C (ix1 b)).toInt ≤ 21) :
    refTerm X T C W = fun _ => Cert.Spec.Rspec X T C W := by
  funext j
  unfold refTerm
  dsimp only
  rw [weights_eq T W hT, sensorTerm_eq, anomalyTerm_eq, penCol_eq, penCol_eq,
    col_eq 0 (by omega) (sitofp .f32 T : FVec Ideal S4194304x3 .f32), col_eq 1 (by omega) (sitofp .f32 T : FVec Ideal S4194304x3 .f32)]
  set G0 : FVec Ideal S4194304x2 .f32 := Host.gather gather_S21x2_S4194304x1_S4194304x2_1_0_n_n_0_1_12
    (fun i => FloatOps.ofBits .f32 (lit0 (S21x2.rowMajor i))) (wrapIdx 21#32 (rowIdx C)) with hG0
  set G1 : FVec Ideal S4194304x2 .f32 := Host.gather gather_S21x2_S4194304x1_S4194304x2_1_0_n_n_0_1_12
    (fun i => FloatOps.ofBits .f32 (lit1 (S21x2.rowMajor i))) (wrapIdx 21#32 (rowIdx C)) with hG1
  show addf _ _ j + Host.reduceAdd _ _ reducesTo_S4194304_S_d0 h_S_ j = _
  rw [reduceAll_apply]
  unfold Cert.Spec.Rspec
  refine congrArg₂ (· + ·) rfl ?_
  show Ideal.ofBits .f32 0x00000000#32 + _ = _
  rw [Ideal.ofBits_zero_f32, zero_add]
  refine Finset.sum_congr rfl fun b _ => ?_
  have e00 : G0 (ix2 b (0 : Fin 2)) = _ := tableLo_at0 C hC b
  have e01 : G0 (ix2 b (1 : Fin 2)) = _ := tableLo_at1 C hC b
  have e10 : G1 (ix2 b (0 : Fin 2)) = _ := tableHi_at0 C hC b
  have e11 : G1 (ix2 b (1 : Fin 2)) = _ := tableHi_at1 C hC b
  show (Cert.Spec.below (Cert.Spec.tf (T (ix2 b (0 : Fin 3)))) (G0 (ix2 b (0 : Fin 2)))
        + Cert.Spec.above (Cert.Spec.tf (T (ix2 b (0 : Fin 3)))) (G0 (ix2 b (1 : Fin 2))))
      + (Cert.Spec.below (Cert.Spec.tf (T (ix2 b (1 : Fin 3)))) (G1 (ix2 b (0 : Fin 2)))
        + Cert.Spec.above (Cert.Spec.tf (T (ix2 b (1 : Fin 3)))) (G1 (ix2 b (1 : Fin 2)))) = _
  rw [e00, e01, e10, e11]
  rfl

end Reads

end Cert.ReferenceIdeal.RefTerm

end
-- ==== Proof.RefRun.lean ====
/-
  The run of the reference program.

  The program's @main is a straight line of 130 host operations once its five calls (the floor division by 100, and
  the four selects against a splat zero) are replaced by the called functions' operations over each call's buffers:
  `ops` lists them, `main_eq` is that equation, and the library's run of a straight line gives every buffer's
  final contents as the fold `after ops` over the launch contents.

  The fold is then read stage by stage. The list is cut into seven consecutive runs — the class weight (the floor
  quotient of the third target by 100, less one, wrapped, gathered from the weights), the sensor term, the anomaly
  term, the two table rows (the cycle state less one, wrapped, gathered from each table), the range charge of
  target 0, the range charge of target 1, and the closing sums —; each run's result buffer holds the corresponding
  stage function of `RefTerm` applied to the contents of the buffers the run reads, and a buffer a run does not
  write keeps its contents. Composed, the result buffer holds `RefTerm.refTerm` of the four arguments' contents and
  the arguments are unchanged.
-/
import proofs.«424041_j28518582845592_2_alg».proof.ReferenceIdeal
import proofs.«424041_j28518582845592_2_alg».proof.Proof.Gen.ReferenceIdeal
import Idealize.ShloMosaic.Lib.StableHlo.Run
import proofs.«424041_j28518582845592_2_alg».proof.Proof.RefTerm
import Idealize.ShloMosaic.Lib.Pipeline.Frame

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]
/-- The reference program's host operations in program order, every call replaced by the called function's
    operations over that call's buffers: the floor quotient by 100 (its sign correction a select), then the four
    masked squares of the range charges. -/
abbrev ops : List (HloOp τ sig (Elt F)) :=
  [ StableHlo.nullary main_cst (fun i => FloatOps.ofBits .f32 (lit0 (S21x2.rowMajor i))),
    StableHlo.nullary main_cst_0 (fun i => FloatOps.ofBits .f32 (lit1 (S21x2.rowMajor i))),
    StableHlo.unary main_arg1 main_v0 (sitofp .f32 : (⟨S4194304x3, .i32⟩ : BufTy).Contents (Elt F) → (⟨S4194304x3, .f32⟩ : BufTy).Contents (Elt F)),
    StableHlo.unary main_arg1 main_v1 ((extractStridedSlice S4194304x1 ![0, 2] · slices_S4194304x3_S4194304x1_0_2) : (⟨S4194304x3, .i32⟩ : BufTy).Contents (Elt F) → (⟨S4194304x1, .i32⟩ : BufTy).Contents (Elt F)),
    StableHlo.reshape main_v1 main_v2 rfl shapeCasts_S4194304x1_S4194304,
    StableHlo.nullary main_c (constantI S_ 32 100#32),
    StableHlo.TRef.unary (.of main_c : StableHlo.TRef sig ⟨S_, .i32⟩) main_call0.v0 id,
    StableHlo.TRef.unary main_call0.v0 main_call0.v1 (broadcastInDim S4194304 ![] bcast_S_S4194304),
    StableHlo.TRef.binary (.of main_v2 : StableHlo.TRef sig ⟨S4194304, .i32⟩) main_call0.v1 main_call0.v2 Host.divsi,
    StableHlo.TRef.unary (.of main_v2 : StableHlo.TRef sig ⟨S4194304, .i32⟩) main_call0.v3 signi,
    StableHlo.TRef.unary main_call0.v0 main_call0.v4 signi,
    StableHlo.TRef.unary main_call0.v4 main_call0.v5 (broadcastInDim S4194304 ![] bcast_S_S4194304),
    StableHlo.TRef.binary main_call0.v3 main_call0.v5 main_call0.v6 (cmpi .ne),
    StableHlo.TRef.unary main_call0.v0 main_call0.v7 (broadcastInDim S4194304 ![] bcast_S_S4194304),
    StableHlo.TRef.binary (.of main_v2 : StableHlo.TRef sig ⟨S4194304, .i32⟩) main_call0.v7 main_call0.v8 Host.remsi,
    StableHlo.TRef.nullary main_call0.c (constantI S_ 32 0#32),
    StableHlo.TRef.unary main_call0.c main_call0.v9 (broadcastInDim S4194304 ![] bcast_S_S4194304),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S4194304 ![] bcast_S_S4194304),
    StableHlo.TRef.binary main_call0.v2 main_call0.v12 main_call0.v13 subi,
    StableHlo.TRef.ternary main_call0.v11 main_call0.v13 main_call0.v2 main_call0.call0.v0 select,
    StableHlo.nullary main_c_1 (constantI S_ 32 1#32),
    StableHlo.unary main_c_1 main_v4 (broadcastInDim S4194304 ![] bcast_S_S4194304 : (⟨S_, .i32⟩ : BufTy).Contents (Elt F) → (⟨S4194304, .i32⟩ : BufTy).Contents (Elt F)),
    StableHlo.binary main_v3 main_v4 main_v5 (subi : (⟨S4194304, .i32⟩ : BufTy).Contents (Elt F) → (⟨S4194304, .i32⟩ : BufTy).Contents (Elt F) → (⟨S4194304, .i32⟩ : BufTy).Contents (Elt F)),
    StableHlo.nullary main_c_2 (constantI S_ 32 0#32),
    StableHlo.unary main_c_2 main_v6 (broadcastInDim S4194304 ![] bcast_S_S4194304 : (⟨S_, .i32⟩ : BufTy).Contents (Elt F) → (⟨S4194304, .i32⟩ : BufTy).Contents (Elt F)),
    StableHlo.binary main_v5 main_v6 main_v7 (cmpi .slt : (⟨S4194304, .i32⟩ : BufTy).Contents (Elt F) → (⟨S4194304, .i32⟩ : BufTy).Contents (Elt F) → (⟨S4194304, .i1⟩ : BufTy).Contents (Elt F)),
    StableHlo.nullary main_c_3 (constantI S_ 32 7#32),
    StableHlo.unary main_c_3 main_v8 (broadcastInDim S4194304 ![] bcast_S_S4194304 : (⟨S_, .i32⟩ : BufTy).Contents (Elt F) → (⟨S4194304, .i32⟩ : BufTy).Contents (Elt F)),
    StableHlo.binary main_v5 main_v8 main_v9 (addi : (⟨S4194304, .i32⟩ : BufTy).Contents (Elt F) → (⟨S4194304, .i32⟩ : BufTy).Contents (Elt F) → (⟨S4194304, .i32⟩ : BufTy).Contents (Elt F)),
    StableHlo.ternary main_v7 main_v9 main_v5 main_v10 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    StableHlo.unary main_v10 main_v11 (broadcastInDim S4194304x1 ![0] bcast_S4194304_S4194304x1_0 : (⟨S4194304, .i32⟩ : BufTy).Contents (Elt F) → (⟨S4194304x1, .i32⟩ : BufTy).Contents (Elt F)),
    StableHlo.binary main_arg3 main_v11 main_v12 ((fun x i => Host.gather gather_S7_S4194304x1_S4194304_n_0_n_n_0_1_1 x i) : (⟨S7, .f32⟩ : BufTy).Contents (Elt F) → (⟨S4194304x1, .i32⟩ : BufTy).Contents (Elt F) → (⟨S4194304, .f32⟩ : BufTy).Contents (Elt F)),
    StableHlo.unary main_arg0 main_v13 ((extractStridedSlice S4194304x2 ![0, 0] · slices_S4194304x3_S4194304x2_0_0) : (⟨S4194304x3, .f32⟩ : BufTy).Contents (Elt F) → (⟨S4194304x2, .f32⟩ : BufTy).Contents (Elt F)),
    StableHlo.unary main_v0 main_v14 ((extractStridedSlice S4194304x2 ![0, 0] · slices_S4194304x3_S4194304x2_0_0) : (⟨S4194304x3, .f32⟩ : BufTy).Contents (Elt F) → (⟨S4194304x2, .f32⟩ : BufTy).Contents (Elt F)),
    StableHlo.binary main_v13 main_v14 main_v15 (subf : (⟨S4194304x2, .f32⟩ : BufTy).Contents (Elt F) → (⟨S4194304x2, .f32⟩ : BufTy).Contents (Elt F) → (⟨S4194304x2, .f32⟩ : BufTy).Contents (Elt F)),
    StableHlo.binary main_v15 main_v15 main_v16 (mulf : (⟨S4194304x2, .f32⟩ : BufTy).Contents (Elt F) → (⟨S4194304x2, .f32⟩ : BufTy).Contents (Elt F) → (⟨S4194304x2, .f32⟩ : BufTy).Contents (Elt F)),
    StableHlo.unary main_v12 main_v17 (broadcastInDim S4194304x1 ![0] bcast_S4194304_S4194304x1_0 : (⟨S4194304, .f32⟩ : BufTy).Contents (Elt F) → (⟨S4194304x1, .f32⟩ : BufTy).Contents (Elt F)),
    StableHlo.unary main_v17 main_v18 (broadcastInDim S4194304x2 ![0, 1] bcast_S4194304x1_S4194304x2_0_1 : (⟨S4194304x1, .f32⟩ : BufTy).Contents (Elt F) → (⟨S4194304x2, .f32⟩ : BufTy).Contents (Elt F)),
    StableHlo.binary main_v18 main_v16 main_v19 (mulf : (⟨S4194304x2, .f32⟩ : BufTy).Contents (Elt F) → (⟨S4194304x2, .f32⟩ : BufTy).Contents (Elt F) → (⟨S4194304x2, .f32⟩ : BufTy).Contents (Elt F)),
    StableHlo.nullary main_cst_4 (constant S_ .f32 0x00000000#32),
    StableHlo.binary main_v19 main_cst_4 main_v20 ((fun x v => Host.reduceAdd x v reducesTo_S4194304x2_S4194304_d1 h_S_) : (⟨S4194304x2, .f32⟩ : BufTy).Contents (Elt F) → (⟨S_, .f32⟩ : BufTy).Contents (Elt F) → (⟨S4194304, .f32⟩ : BufTy).Contents (Elt F)),
    StableHlo.nullary main_cst_5 (constant S_ .f32 0x40000000#32),
    StableHlo.unary main_cst_5 main_v21 (broadcastInDim S4194304 ![] bcast_S_S4194304 : (⟨S_, .f32⟩ : BufTy).Contents (Elt F) → (⟨S4194304, .f32⟩ : BufTy).Contents (Elt F)),
    StableHlo.binary main_v20 main_v21 main_v22 (Host.divf : (⟨S4194304, .f32⟩ : BufTy).Contents (Elt F) → (⟨S4194304, .f32⟩ : BufTy).Contents (Elt F) → (⟨S4194304, .f32⟩ : BufTy).Contents (Elt F)),
    StableHlo.nullary main_cst_6 (constant S_ .f32 0x00000000#32),
    StableHlo.binary main_v22 main_cst_6 main_v23 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.nullary main_cst_7 (constant S_ .f32 0x4A800000#32),
    StableHlo.binary main_v23 main_cst_7 main_v24 (Host.divf : (⟨S_, .f32⟩ : BufTy).Contents (Elt F) → (⟨S_, .f32⟩ : BufTy).Contents (Elt F) → (⟨S_, .f32⟩ : BufTy).Contents (Elt F)),
    StableHlo.unary main_arg0 main_v25 ((extractStridedSlice S4194304x1 ![0, 2] · slices_S4194304x3_S4194304x1_0_2) : (⟨S4194304x3, .f32⟩ : BufTy).Contents (Elt F) → (⟨S4194304x1, .f32⟩ : BufTy).Contents (Elt F)),
    StableHlo.reshape main_v25 main_v26 rfl shapeCasts_S4194304x1_S4194304,
    StableHlo.unary main_v0 main_v27 ((extractStridedSlice S4194304x1 ![0, 2] · slices_S4194304x3_S4194304x1_0_2) : (⟨S4194304x3, .f32⟩ : BufTy).Contents (Elt F) → (⟨S4194304x1, .f32⟩ : BufTy).Contents (Elt F)),
    StableHlo.reshape main_v27 main_v28 rfl shapeCasts_S4194304x1_S4194304,
    StableHlo.binary main_v26 main_v28 main_v29 (subf : (⟨S4194304, .f32⟩ : BufTy).Contents (Elt F) → (⟨S4194304, .f32⟩ : BufTy).Contents (Elt F) → (⟨S4194304, .f32⟩ : BufTy).Contents (Elt F)),
    StableHlo.binary main_v29 main_v29 main_v30 (mulf : (⟨S4194304, .f32⟩ : BufTy).Contents (Elt F) → (⟨S4194304, .f32⟩ : BufTy).Contents (Elt F) → (⟨S4194304, .f32⟩ : BufTy).Contents (Elt F)),
    StableHlo.binary main_v12 main_v30 main_v31 (mulf : (⟨S4194304, .f32⟩ : BufTy).Contents (Elt F) → (⟨S4194304, .f32⟩ : BufTy).Contents (Elt F) → (⟨S4194304, .f32⟩ : BufTy).Contents (Elt F)),
    StableHlo.nullary main_cst_8 (constant S_ .f32 0x00000000#32),
    StableHlo.binary main_v31 main_cst_8 main_v32 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.nullary main_cst_9 (constant S_ .f32 0x4A800000#32),
    StableHlo.binary main_v32 main_cst_9 main_v33 (Host.divf : (⟨S_, .f32⟩ : BufTy).Contents (Elt F) → (⟨S_, .f32⟩ : BufTy).Contents (Elt F) → (⟨S_, .f32⟩ : BufTy).Contents (Elt F)),
    StableHlo.nullary main_c_10 (constantI S_ 32 1#32),
    StableHlo.unary main_c_10 main_v34 (broadcastInDim S4194304 ![] bcast_S_S4194304 : (⟨S_, .i32⟩ : BufTy).Contents (Elt F) → (⟨S4194304, .i32⟩ : BufTy).Contents (Elt F)),
    StableHlo.binary main_arg2 main_v34 main_v35 (subi : (⟨S4194304, .i32⟩ : BufTy).Contents (Elt F) → (⟨S4194304, .i32⟩ : BufTy).Contents (Elt F) → (⟨S4194304, .i32⟩ : BufTy).Contents (Elt F)),
    StableHlo.nullary main_c_11 (constantI S_ 32 0#32),
    StableHlo.unary main_c_11 main_v36 (broadcastInDim S4194304 ![] bcast_S_S4194304 : (⟨S_, .i32⟩ : BufTy).Contents (Elt F) → (⟨S4194304, .i32⟩ : BufTy).Contents (Elt F)),
    StableHlo.binary main_v35 main_v36 main_v37 (cmpi .slt : (⟨S4194304, .i32⟩ : BufTy).Contents (Elt F) → (⟨S4194304, .i32⟩ : BufTy).Contents (Elt F) → (⟨S4194304, .i1⟩ : BufTy).Contents (Elt F)),
    StableHlo.nullary main_c_12 (constantI S_ 32 21#32),
    StableHlo.unary main_c_12 main_v38 (broadcastInDim S4194304 ![] bcast_S_S4194304 : (⟨S_, .i32⟩ : BufTy).Contents (Elt F) → (⟨S4194304, .i32⟩ : BufTy).Contents (Elt F)),
    StableHlo.binary main_v35 main_v38 main_v39 (addi : (⟨S4194304, .i32⟩ : BufTy).Contents (Elt F) → (⟨S4194304, .i32⟩ : BufTy).Contents (Elt F) → (⟨S4194304, .i32⟩ : BufTy).Contents (Elt F)),
    StableHlo.ternary main_v37 main_v39 main_v35 main_v40 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    StableHlo.unary main_v40 main_v41 (broadcastInDim S4194304x1 ![0] bcast_S4194304_S4194304x1_0 : (⟨S4194304, .i32⟩ : BufTy).Contents (Elt F) → (⟨S4194304x1, .i32⟩ : BufTy).Contents (Elt F)),
    StableHlo.binary main_cst main_v41 main_v42 ((fun x i => Host.gather gather_S21x2_S4194304x1_S4194304x2_1_0_n_n_0_1_12 x i) : (⟨S21x2, .f32⟩ : BufTy).Contents (Elt F) → (⟨S4194304x1, .i32⟩ : BufTy).Contents (Elt F) → (⟨S4194304x2, .f32⟩ : BufTy).Contents (Elt F)),
    StableHlo.nullary main_c_13 (constantI S_ 32 0#32),
    StableHlo.unary main_c_13 main_v43 (broadcastInDim S4194304 ![] bcast_S_S4194304 : (⟨S_, .i32⟩ : BufTy).Contents (Elt F) → (⟨S4194304, .i32⟩ : BufTy).Contents (Elt F)),
    StableHlo.binary main_v35 main_v43 main_v44 (cmpi .slt : (⟨S4194304, .i32⟩ : BufTy).Contents (Elt F) → (⟨S4194304, .i32⟩ : BufTy).Contents (Elt F) → (⟨S4194304, .i1⟩ : BufTy).Contents (Elt F)),
    StableHlo.nullary main_c_14 (constantI S_ 32 21#32),
    StableHlo.unary main_c_14 main_v45 (broadcastInDim S4194304 ![] bcast_S_S4194304 : (⟨S_, .i32⟩ : BufTy).Contents (Elt F) → (⟨S4194304, .i32⟩ : BufTy).Contents (Elt F)),
    StableHlo.binary main_v35 main_v45 main_v46 (addi : (⟨S4194304, .i32⟩ : BufTy).Contents (Elt F) → (⟨S4194304, .i32⟩ : BufTy).Contents (Elt F) → (⟨S4194304, .i32⟩ : BufTy).Contents (Elt F)),
    StableHlo.ternary main_v44 main_v46 main_v35 main_v47 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    StableHlo.unary main_v47 main_v48 (broadcastInDim S4194304x1 ![0] bcast_S4194304_S4194304x1_0 : (⟨S4194304, .i32⟩ : BufTy).Contents (Elt F) → (⟨S4194304x1, .i32⟩ : BufTy).Contents (Elt F)),
    StableHlo.binary main_cst_0 main_v48 main_v49 ((fun x i => Host.gather gather_S21x2_S4194304x1_S4194304x2_1_0_n_n_0_1_12 x i) : (⟨S21x2, .f32⟩ : BufTy).Contents (Elt F) → (⟨S4194304x1, .i32⟩ : BufTy).Contents (Elt F) → (⟨S4194304x2, .f32⟩ : BufTy).Contents (Elt F)),
    StableHlo.unary main_v0 main_v50 ((extractStridedSlice S4194304x1 ![0, 0] · slices_S4194304x3_S4194304x1_0_0) : (⟨S4194304x3, .f32⟩ : BufTy).Contents (Elt F) → (⟨S4194304x1, .f32⟩ : BufTy).Contents (Elt F)),
    StableHlo.reshape main_v50 main_v51 rfl shapeCasts_S4194304x1_S4194304,
    StableHlo.unary main_v42 main_v52 ((extractStridedSlice S4194304x1 ![0, 0] · slices_S4194304x2_S4194304x1_0_0) : (⟨S4194304x2, .f32⟩ : BufTy).Contents (Elt F) → (⟨S4194304x1, .f32⟩ : BufTy).Contents (Elt F)),
    StableHlo.reshape main_v52 main_v53 rfl shapeCasts_S4194304x1_S4194304,
    StableHlo.unary main_v42 main_v54 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v54 main_v55 rfl shapeCasts_S4194304x1_S4194304,
    StableHlo.binary main_v51 main_v53 main_v56 (cmpf .olt : (⟨S4194304, .f32⟩ : BufTy).Contents (Elt F) → (⟨S4194304, .f32⟩ : BufTy).Contents (Elt F) → (⟨S4194304, .i1⟩ : BufTy).Contents (Elt F)),
    StableHlo.binary main_v51 main_v53 main_v57 (subf : (⟨S4194304, .f32⟩ : BufTy).Contents (Elt F) → (⟨S4194304, .f32⟩ : BufTy).Contents (Elt F) → (⟨S4194304, .f32⟩ : BufTy).Contents (Elt F)),
    StableHlo.binary main_v57 main_v57 main_v58 (mulf : (⟨S4194304, .f32⟩ : BufTy).Contents (Elt F) → (⟨S4194304, .f32⟩ : BufTy).Contents (Elt F) → (⟨S4194304, .f32⟩ : BufTy).Contents (Elt F)),
    StableHlo.nullary main_cst_15 (constant S_ .f32 0x00000000#32),
    StableHlo.TRef.unary (.of main_cst_15 : StableHlo.TRef sig ⟨S_, .f32⟩) main_call1.v0 id,
    StableHlo.TRef.unary main_call1.v0 main_call1.v1 (broadcastInDim S4194304 ![] bcast_S_S4194304),
    StableHlo.TRef.ternary (.of main_v56 : StableHlo.TRef sig ⟨S4194304, .i1⟩) (.of main_v58 : StableHlo.TRef sig ⟨S4194304, .f32⟩) main_call1.v1 main_call1.v2 select,
    StableHlo.binary main_v51 main_v55 main_v60 (cmpf .ogt : (⟨S4194304, .f32⟩ : BufTy).Contents (Elt F) → (⟨S4194304, .f32⟩ : BufTy).Contents (Elt F) → (⟨S4194304, .i1⟩ : BufTy).Contents (Elt F)),
    StableHlo.binary main_v51 main_v55 main_v61 (subf : (⟨S4194304, .f32⟩ : BufTy).Contents (Elt F) → (⟨S4194304, .f32⟩ : BufTy).Contents (Elt F) → (⟨S4194304, .f32⟩ : BufTy).Contents (Elt F)),
    StableHlo.binary main_v61 main_v61 main_v62 (mulf : (⟨S4194304, .f32⟩ : BufTy).Contents (Elt F) → (⟨S4194304, .f32⟩ : BufTy).Contents (Elt F) → (⟨S4194304, .f32⟩ : BufTy).Contents (Elt F)),
    StableHlo.nullary main_cst_16 (constant S_ .f32 0x00000000#32),
    StableHlo.TRef.unary (.of main_cst_16 : StableHlo.TRef sig ⟨S_, .f32⟩) main_call2.v0 id,
    StableHlo.TRef.unary main_call2.v0 main_call2.v1 (broadcastInDim S4194304 ![] bcast_S_S4194304),
    StableHlo.TRef.ternary (.of main_v60 : StableHlo.TRef sig ⟨S4194304, .i1⟩) (.of main_v62 : StableHlo.TRef sig ⟨S4194304, .f32⟩) main_call2.v1 main_call2.v2 select,
    StableHlo.binary main_v59 main_v63 main_v64 (addf : (⟨S4194304, .f32⟩ : BufTy).Contents (Elt F) → (⟨S4194304, .f32⟩ : BufTy).Contents (Elt F) → (⟨S4194304, .f32⟩ : BufTy).Contents (Elt F)),
    StableHlo.unary main_v0 main_v65 ((extractStridedSlice S4194304x1 ![0, 1] · slices_S4194304x3_S4194304x1_0_1) : (⟨S4194304x3, .f32⟩ : BufTy).Contents (Elt F) → (⟨S4194304x1, .f32⟩ : BufTy).Contents (Elt F)),
    StableHlo.reshape main_v65 main_v66 rfl shapeCasts_S4194304x1_S4194304,
    StableHlo.unary main_v49 main_v67 ((extractStridedSlice S4194304x1 ![0, 0] · slices_S4194304x2_S4194304x1_0_0) : (⟨S4194304x2, .f32⟩ : BufTy).Contents (Elt F) → (⟨S4194304x1, .f32⟩ : BufTy).Contents (Elt F)),
    StableHlo.reshape main_v67 main_v68 rfl shapeCasts_S4194304x1_S4194304,
    StableHlo.unary main_v49 main_v69 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v69 main_v70 rfl shapeCasts_S4194304x1_S4194304,
    StableHlo.binary main_v66 main_v68 main_v71 (cmpf .olt : (⟨S4194304, .f32⟩ : BufTy).Contents (Elt F) → (⟨S4194304, .f32⟩ : BufTy).Contents (Elt F) → (⟨S4194304, .i1⟩ : BufTy).Contents (Elt F)),
    StableHlo.binary main_v66 main_v68 main_v72 (subf : (⟨S4194304, .f32⟩ : BufTy).Contents (Elt F) → (⟨S4194304, .f32⟩ : BufTy).Contents (Elt F) → (⟨S4194304, .f32⟩ : BufTy).Contents (Elt F)),
    StableHlo.binary main_v72 main_v72 main_v73 (mulf : (⟨S4194304, .f32⟩ : BufTy).Contents (Elt F) → (⟨S4194304, .f32⟩ : BufTy).Contents (Elt F) → (⟨S4194304, .f32⟩ : BufTy).Contents (Elt F)),
    StableHlo.nullary main_cst_17 (constant S_ .f32 0x00000000#32),
    StableHlo.TRef.unary (.of main_cst_17 : StableHlo.TRef sig ⟨S_, .f32⟩) main_call3.v0 id,
    StableHlo.TRef.unary main_call3.v0 main_call3.v1 (broadcastInDim S4194304 ![] bcast_S_S4194304),
    StableHlo.TRef.ternary (.of main_v71 : StableHlo.TRef sig ⟨S4194304, .i1⟩) (.of main_v73 : StableHlo.TRef sig ⟨S4194304, .f32⟩) main_call3.v1 main_call3.v2 select,
    StableHlo.binary main_v66 main_v70 main_v75 (cmpf .ogt : (⟨S4194304, .f32⟩ : BufTy).Contents (Elt F) → (⟨S4194304, .f32⟩ : BufTy).Contents (Elt F) → (⟨S4194304, .i1⟩ : BufTy).Contents (Elt F)),
    StableHlo.binary main_v66 main_v70 main_v76 (subf : (⟨S4194304, .f32⟩ : BufTy).Contents (Elt F) → (⟨S4194304, .f32⟩ : BufTy).Contents (Elt F) → (⟨S4194304, .f32⟩ : BufTy).Contents (Elt F)),
    StableHlo.binary main_v76 main_v76 main_v77 (mulf : (⟨S4194304, .f32⟩ : BufTy).Contents (Elt F) → (⟨S4194304, .f32⟩ : BufTy).Contents (Elt F) → (⟨S4194304, .f32⟩ : BufTy).Contents (Elt F)),
    StableHlo.nullary main_cst_18 (constant S_ .f32 0x00000000#32),
    StableHlo.TRef.unary (.of main_cst_18 : StableHlo.TRef sig ⟨S_, .f32⟩) main_call4.v0 id,
    StableHlo.TRef.unary main_call4.v0 main_call4.v1 (broadcastInDim S4194304 ![] bcast_S_S4194304),
    StableHlo.TRef.ternary (.of main_v75 : StableHlo.TRef sig ⟨S4194304, .i1⟩) (.of main_v77 : StableHlo.TRef sig ⟨S4194304, .f32⟩) main_call4.v1 main_call4.v2 select,
    StableHlo.binary main_v74 main_v78 main_v79 (addf : (⟨S4194304, .f32⟩ : BufTy).Contents (Elt F) → (⟨S4194304, .f32⟩ : BufTy).Contents (Elt F) → (⟨S4194304, .f32⟩ : BufTy).Contents (Elt F)),
    StableHlo.binary main_v64 main_v79 main_v80 (addf : (⟨S4194304, .f32⟩ : BufTy).Contents (Elt F) → (⟨S4194304, .f32⟩ : BufTy).Contents (Elt F) → (⟨S4194304, .f32⟩ : BufTy).Contents (Elt F)),
    StableHlo.nullary main_cst_19 (constant S_ .f32 0x00000000#32),
    StableHlo.binary main_v80 main_cst_19 main_v81 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.binary main_v24 main_v33 main_v82 (addf : (⟨S_, .f32⟩ : BufTy).Contents (Elt F) → (⟨S_, .f32⟩ : BufTy).Contents (Elt F) → (⟨S_, .f32⟩ : BufTy).Contents (Elt F)),
    StableHlo.binary main_v82 main_v81 main_v83 (addf : (⟨S_, .f32⟩ : BufTy).Contents (Elt F) → (⟨S_, .f32⟩ : BufTy).Contents (Elt F) → (⟨S_, .f32⟩ : BufTy).Contents (Elt F)) ]

set_option maxRecDepth 4096 in
set_option maxHeartbeats 4000000 in
/-- @main is that straight line: the called functions unfolded at their calls, both sides are one chain of steps once
    sequencing is reassociated. -/
theorem main_eq (c : Dev nD) : main (F := F) c = StableHlo.seq ops := by
  simp only [main, main_part0, main_part1, fn_floor_divide.body, fn_where.body, fn_where_0.body, StableHlo.seq, bind_assoc, pure_bind]

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

set_option maxRecDepth 4096 in
/-- Every operation touches TensorCore buffers only. -/
theorem ops_sub : (ops : List (HloOp τ sig (Elt F))).Forall fun op => op.bufs ⊆ tcRefs τ sig :=
  ⟨nullary_bufs_sub .., nullary_bufs_sub .., unary_bufs_sub .., unary_bufs_sub .., reshape_bufs_sub .., nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., binary_bufs_sub .., unary_bufs_sub .., unary_bufs_sub .., binary_bufs_sub ..,
    nullary_bufs_sub .., binary_bufs_sub .., nullary_bufs_sub .., unary_bufs_sub .., binary_bufs_sub .., nullary_bufs_sub ..,
    binary_bufs_sub .., nullary_bufs_sub .., binary_bufs_sub .., unary_bufs_sub .., reshape_bufs_sub .., unary_bufs_sub ..,
    reshape_bufs_sub .., binary_bufs_sub .., binary_bufs_sub .., binary_bufs_sub .., nullary_bufs_sub .., binary_bufs_sub ..,
    nullary_bufs_sub .., binary_bufs_sub .., nullary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    reshape_bufs_sub .., unary_bufs_sub .., reshape_bufs_sub .., unary_bufs_sub .., reshape_bufs_sub .., binary_bufs_sub ..,
    binary_bufs_sub .., binary_bufs_sub .., nullary_bufs_sub .., unary_bufs_sub .., unary_bufs_sub .., ternary_bufs_sub ..,
    binary_bufs_sub .., binary_bufs_sub .., binary_bufs_sub .., nullary_bufs_sub .., unary_bufs_sub .., unary_bufs_sub ..,
    ternary_bufs_sub .., binary_bufs_sub .., unary_bufs_sub .., reshape_bufs_sub .., unary_bufs_sub .., reshape_bufs_sub ..,
    unary_bufs_sub .., reshape_bufs_sub .., binary_bufs_sub .., binary_bufs_sub .., binary_bufs_sub .., nullary_bufs_sub ..,
    unary_bufs_sub .., unary_bufs_sub .., ternary_bufs_sub .., binary_bufs_sub .., binary_bufs_sub .., binary_bufs_sub ..,
    nullary_bufs_sub .., unary_bufs_sub .., unary_bufs_sub .., ternary_bufs_sub .., binary_bufs_sub .., binary_bufs_sub ..,
    nullary_bufs_sub .., binary_bufs_sub .., binary_bufs_sub .., binary_bufs_sub ..⟩

set_option maxRecDepth 8192 in
set_option maxHeartbeats 4000000 in
/-- From any memory with zero counters every weakly fair execution of @main terminates, each buffer at the fold of
    the operations over the launch contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The seven runs -/

/-- Operations 1 to 35. The constant tables, the targets as floats, and the class weight: the third target column, its floor quotient by 100 less one, wrapped into the seven weights, gathered. -/
def opsClass : List (HloOp τ sig (Elt F)) :=
  [ StableHlo.nullary main_cst (fun i => FloatOps.ofBits .f32 (lit0 (S21x2.rowMajor i))),
    StableHlo.nullary main_cst_0 (fun i => FloatOps.ofBits .f32 (lit1 (S21x2.rowMajor i))),
    StableHlo.unary main_arg1 main_v0 (sitofp .f32 : (⟨S4194304x3, .i32⟩ : BufTy).Contents (Elt F) → (⟨S4194304x3, .f32⟩ : BufTy).Contents (Elt F)),
    StableHlo.unary main_arg1 main_v1 ((extractStridedSlice S4194304x1 ![0, 2] · slices_S4194304x3_S4194304x1_0_2) : (⟨S4194304x3, .i32⟩ : BufTy).Contents (Elt F) → (⟨S4194304x1, .i32⟩ : BufTy).Contents (Elt F)),
    StableHlo.reshape main_v1 main_v2 rfl shapeCasts_S4194304x1_S4194304,
    StableHlo.nullary main_c (constantI S_ 32 100#32),
    StableHlo.TRef.unary (.of main_c : StableHlo.TRef sig ⟨S_, .i32⟩) main_call0.v0 id,
    StableHlo.TRef.unary main_call0.v0 main_call0.v1 (broadcastInDim S4194304 ![] bcast_S_S4194304),
    StableHlo.TRef.binary (.of main_v2 : StableHlo.TRef sig ⟨S4194304, .i32⟩) main_call0.v1 main_call0.v2 Host.divsi,
    StableHlo.TRef.unary (.of main_v2 : StableHlo.TRef sig ⟨S4194304, .i32⟩) main_call0.v3 signi,
    StableHlo.TRef.unary main_call0.v0 main_call0.v4 signi,
    StableHlo.TRef.unary main_call0.v4 main_call0.v5 (broadcastInDim S4194304 ![] bcast_S_S4194304),
    StableHlo.TRef.binary main_call0.v3 main_call0.v5 main_call0.v6 (cmpi .ne),
    StableHlo.TRef.unary main_call0.v0 main_call0.v7 (broadcastInDim S4194304 ![] bcast_S_S4194304),
    StableHlo.TRef.binary (.of main_v2 : StableHlo.TRef sig ⟨S4194304, .i32⟩) main_call0.v7 main_call0.v8 Host.remsi,
    StableHlo.TRef.nullary main_call0.c (constantI S_ 32 0#32),
    StableHlo.TRef.unary main_call0.c main_call0.v9 (broadcastInDim S4194304 ![] bcast_S_S4194304),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S4194304 ![] bcast_S_S4194304),
    StableHlo.TRef.binary main_call0.v2 main_call0.v12 main_call0.v13 subi,
    StableHlo.TRef.ternary main_call0.v11 main_call0.v13 main_call0.v2 main_call0.call0.v0 select,
    StableHlo.nullary main_c_1 (constantI S_ 32 1#32),
    StableHlo.unary main_c_1 main_v4 (broadcastInDim S4194304 ![] bcast_S_S4194304 : (⟨S_, .i32⟩ : BufTy).Contents (Elt F) → (⟨S4194304, .i32⟩ : BufTy).Contents (Elt F)),
    StableHlo.binary main_v3 main_v4 main_v5 (subi : (⟨S4194304, .i32⟩ : BufTy).Contents (Elt F) → (⟨S4194304, .i32⟩ : BufTy).Contents (Elt F) → (⟨S4194304, .i32⟩ : BufTy).Contents (Elt F)),
    StableHlo.nullary main_c_2 (constantI S_ 32 0#32),
    StableHlo.unary main_c_2 main_v6 (broadcastInDim S4194304 ![] bcast_S_S4194304 : (⟨S_, .i32⟩ : BufTy).Contents (Elt F) → (⟨S4194304, .i32⟩ : BufTy).Contents (Elt F)),
    StableHlo.binary main_v5 main_v6 main_v7 (cmpi .slt : (⟨S4194304, .i32⟩ : BufTy).Contents (Elt F) → (⟨S4194304, .i32⟩ : BufTy).Contents (Elt F) → (⟨S4194304, .i1⟩ : BufTy).Contents (Elt F)),
    StableHlo.nullary main_c_3 (constantI S_ 32 7#32),
    StableHlo.unary main_c_3 main_v8 (broadcastInDim S4194304 ![] bcast_S_S4194304 : (⟨S_, .i32⟩ : BufTy).Contents (Elt F) → (⟨S4194304, .i32⟩ : BufTy).Contents (Elt F)),
    StableHlo.binary main_v5 main_v8 main_v9 (addi : (⟨S4194304, .i32⟩ : BufTy).Contents (Elt F) → (⟨S4194304, .i32⟩ : BufTy).Contents (Elt F) → (⟨S4194304, .i32⟩ : BufTy).Contents (Elt F)),
    StableHlo.ternary main_v7 main_v9 main_v5 main_v10 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    StableHlo.unary main_v10 main_v11 (broadcastInDim S4194304x1 ![0] bcast_S4194304_S4194304x1_0 : (⟨S4194304, .i32⟩ : BufTy).Contents (Elt F) → (⟨S4194304x1, .i32⟩ : BufTy).Contents (Elt F)),
    StableHlo.binary main_arg3 main_v11 main_v12 ((fun x i => Host.gather gather_S7_S4194304x1_S4194304_n_0_n_n_0_1_1 x i) : (⟨S7, .f32⟩ : BufTy).Contents (Elt F) → (⟨S4194304x1, .i32⟩ : BufTy).Contents (Elt F) → (⟨S4194304, .f32⟩ : BufTy).Contents (Elt F)) ]

/-- The buffers operations 1 to 35 write. -/
abbrev opsClass_W : List (Ref sig .tc) :=
  [main_cst, main_cst_0, main_v0, main_v1, main_v2, main_c, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v3, main_c_1, main_v4, main_v5, main_c_2, main_v6, main_v7, main_c_3, main_v8, main_v9, main_v10, main_v11, main_v12]

/-- Operations 36 to 51. The sensor term: the weighted squared differences of columns 0 and 1, halved over the two columns, averaged over the samples. -/
def opsSensor : List (HloOp τ sig (Elt F)) :=
  [ StableHlo.unary main_arg0 main_v13 ((extractStridedSlice S4194304x2 ![0, 0] · slices_S4194304x3_S4194304x2_0_0) : (⟨S4194304x3, .f32⟩ : BufTy).Contents (Elt F) → (⟨S4194304x2, .f32⟩ : BufTy).Contents (Elt F)),
    StableHlo.unary main_v0 main_v14 ((extractStridedSlice S4194304x2 ![0, 0] · slices_S4194304x3_S4194304x2_0_0) : (⟨S4194304x3, .f32⟩ : BufTy).Contents (Elt F) → (⟨S4194304x2, .f32⟩ : BufTy).Contents (Elt F)),
    StableHlo.binary main_v13 main_v14 main_v15 (subf : (⟨S4194304x2, .f32⟩ : BufTy).Contents (Elt F) → (⟨S4194304x2, .f32⟩ : BufTy).Contents (Elt F) → (⟨S4194304x2, .f32⟩ : BufTy).Contents (Elt F)),
    StableHlo.binary main_v15 main_v15 main_v16 (mulf : (⟨S4194304x2, .f32⟩ : BufTy).Contents (Elt F) → (⟨S4194304x2, .f32⟩ : BufTy).Contents (Elt F) → (⟨S4194304x2, .f32⟩ : BufTy).Contents (Elt F)),
    StableHlo.unary main_v12 main_v17 (broadcastInDim S4194304x1 ![0] bcast_S4194304_S4194304x1_0 : (⟨S4194304, .f32⟩ : BufTy).Contents (Elt F) → (⟨S4194304x1, .f32⟩ : BufTy).Contents (Elt F)),
    StableHlo.unary main_v17 main_v18 (broadcastInDim S4194304x2 ![0, 1] bcast_S4194304x1_S4194304x2_0_1 : (⟨S4194304x1, .f32⟩ : BufTy).Contents (Elt F) → (⟨S4194304x2, .f32⟩ : BufTy).Contents (Elt F)),
    StableHlo.binary main_v18 main_v16 main_v19 (mulf : (⟨S4194304x2, .f32⟩ : BufTy).Contents (Elt F) → (⟨S4194304x2, .f32⟩ : BufTy).Contents (Elt F) → (⟨S4194304x2, .f32⟩ : BufTy).Contents (Elt F)),
    StableHlo.nullary main_cst_4 (constant S_ .f32 0x00000000#32),
    StableHlo.binary main_v19 main_cst_4 main_v20 ((fun x v => Host.reduceAdd x v reducesTo_S4194304x2_S4194304_d1 h_S_) : (⟨S4194304x2, .f32⟩ : BufTy).Contents (Elt F) → (⟨S_, .f32⟩ : BufTy).Contents (Elt F) → (⟨S4194304, .f32⟩ : BufTy).Contents (Elt F)),
    StableHlo.nullary main_cst_5 (constant S_ .f32 0x40000000#32),
    StableHlo.unary main_cst_5 main_v21 (broadcastInDim S4194304 ![] bcast_S_S4194304 : (⟨S_, .f32⟩ : BufTy).Contents (Elt F) → (⟨S4194304, .f32⟩ : BufTy).Contents (Elt F)),
    StableHlo.binary main_v20 main_v21 main_v22 (Host.divf : (⟨S4194304, .f32⟩ : BufTy).Contents (Elt F) → (⟨S4194304, .f32⟩ : BufTy).Contents (Elt F) → (⟨S4194304, .f32⟩ : BufTy).Contents (Elt F)),
    StableHlo.nullary main_cst_6 (constant S_ .f32 0x00000000#32),
    StableHlo.binary main_v22 main_cst_6 main_v23 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.nullary main_cst_7 (constant S_ .f32 0x4A800000#32),
    StableHlo.binary main_v23 main_cst_7 main_v24 (Host.divf : (⟨S_, .f32⟩ : BufTy).Contents (Elt F) → (⟨S_, .f32⟩ : BufTy).Contents (Elt F) → (⟨S_, .f32⟩ : BufTy).Contents (Elt F)) ]

/-- The buffers operations 36 to 51 write. -/
abbrev opsSensor_W : List (Ref sig .tc) :=
  [main_v13, main_v14, main_v15, main_v16, main_v17, main_v18, main_v19, main_cst_4, main_v20, main_cst_5, main_v21, main_v22, main_cst_6, main_v23, main_cst_7, main_v24]

/-- Operations 52 to 62. The anomaly term: the weighted squared difference of column 2, averaged over the samples. -/
def opsAnomaly : List (HloOp τ sig (Elt F)) :=
  [ StableHlo.unary main_arg0 main_v25 ((extractStridedSlice S4194304x1 ![0, 2] · slices_S4194304x3_S4194304x1_0_2) : (⟨S4194304x3, .f32⟩ : BufTy).Contents (Elt F) → (⟨S4194304x1, .f32⟩ : BufTy).Contents (Elt F)),
    StableHlo.reshape main_v25 main_v26 rfl shapeCasts_S4194304x1_S4194304,
    StableHlo.unary main_v0 main_v27 ((extractStridedSlice S4194304x1 ![0, 2] · slices_S4194304x3_S4194304x1_0_2) : (⟨S4194304x3, .f32⟩ : BufTy).Contents (Elt F) → (⟨S4194304x1, .f32⟩ : BufTy).Contents (Elt F)),
    StableHlo.reshape main_v27 main_v28 rfl shapeCasts_S4194304x1_S4194304,
    StableHlo.binary main_v26 main_v28 main_v29 (subf : (⟨S4194304, .f32⟩ : BufTy).Contents (Elt F) → (⟨S4194304, .f32⟩ : BufTy).Contents (Elt F) → (⟨S4194304, .f32⟩ : BufTy).Contents (Elt F)),
    StableHlo.binary main_v29 main_v29 main_v30 (mulf : (⟨S4194304, .f32⟩ : BufTy).Contents (Elt F) → (⟨S4194304, .f32⟩ : BufTy).Contents (Elt F) → (⟨S4194304, .f32⟩ : BufTy).Contents (Elt F)),
    StableHlo.binary main_v12 main_v30 main_v31 (mulf : (⟨S4194304, .f32⟩ : BufTy).Contents (Elt F) → (⟨S4194304, .f32⟩ : BufTy).Contents (Elt F) → (⟨S4194304, .f32⟩ : BufTy).Contents (Elt F)),
    StableHlo.nullary main_cst_8 (constant S_ .f32 0x00000000#32),
    StableHlo.binary main_v31 main_cst_8 main_v32 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.nullary main_cst_9 (constant S_ .f32 0x4A800000#32),
    StableHlo.binary main_v32 main_cst_9 main_v33 (Host.divf : (⟨S_, .f32⟩ : BufTy).Contents (Elt F) → (⟨S_, .f32⟩ : BufTy).Contents (Elt F) → (⟨S_, .f32⟩ : BufTy).Contents (Elt F)) ]

/-- The buffers operations 52 to 62 write. -/
abbrev opsAnomaly_W : List (Ref sig .tc) :=
  [main_v25, main_v26, main_v27, main_v28, main_v29, main_v30, main_v31, main_cst_8, main_v32, main_cst_9, main_v33]

/-- Operations 63 to 83. The table rows: the cycle state less one, wrapped into the 21 rows, gathered from each of the two tables. -/
def opsRows : List (HloOp τ sig (Elt F)) :=
  [ StableHlo.nullary main_c_10 (constantI S_ 32 1#32),
    StableHlo.unary main_c_10 main_v34 (broadcastInDim S4194304 ![] bcast_S_S4194304 : (⟨S_, .i32⟩ : BufTy).Contents (Elt F) → (⟨S4194304, .i32⟩ : BufTy).Contents (Elt F)),
    StableHlo.binary main_arg2 main_v34 main_v35 (subi : (⟨S4194304, .i32⟩ : BufTy).Contents (Elt F) → (⟨S4194304, .i32⟩ : BufTy).Contents (Elt F) → (⟨S4194304, .i32⟩ : BufTy).Contents (Elt F)),
    StableHlo.nullary main_c_11 (constantI S_ 32 0#32),
    StableHlo.unary main_c_11 main_v36 (broadcastInDim S4194304 ![] bcast_S_S4194304 : (⟨S_, .i32⟩ : BufTy).Contents (Elt F) → (⟨S4194304, .i32⟩ : BufTy).Contents (Elt F)),
    StableHlo.binary main_v35 main_v36 main_v37 (cmpi .slt : (⟨S4194304, .i32⟩ : BufTy).Contents (Elt F) → (⟨S4194304, .i32⟩ : BufTy).Contents (Elt F) → (⟨S4194304, .i1⟩ : BufTy).Contents (Elt F)),
    StableHlo.nullary main_c_12 (constantI S_ 32 21#32),
    StableHlo.unary main_c_12 main_v38 (broadcastInDim S4194304 ![] bcast_S_S4194304 : (⟨S_, .i32⟩ : BufTy).Contents (Elt F) → (⟨S4194304, .i32⟩ : BufTy).Contents (Elt F)),
    StableHlo.binary main_v35 main_v38 main_v39 (addi : (⟨S4194304, .i32⟩ : BufTy).Contents (Elt F) → (⟨S4194304, .i32⟩ : BufTy).Contents (Elt F) → (⟨S4194304, .i32⟩ : BufTy).Contents (Elt F)),
    StableHlo.ternary main_v37 main_v39 main_v35 main_v40 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    StableHlo.unary main_v40 main_v41 (broadcastInDim S4194304x1 ![0] bcast_S4194304_S4194304x1_0 : (⟨S4194304, .i32⟩ : BufTy).Contents (Elt F) → (⟨S4194304x1, .i32⟩ : BufTy).Contents (Elt F)),
    StableHlo.binary main_cst main_v41 main_v42 ((fun x i => Host.gather gather_S21x2_S4194304x1_S4194304x2_1_0_n_n_0_1_12 x i) : (⟨S21x2, .f32⟩ : BufTy).Contents (Elt F) → (⟨S4194304x1, .i32⟩ : BufTy).Contents (Elt F) → (⟨S4194304x2, .f32⟩ : BufTy).Contents (Elt F)),
    StableHlo.nullary main_c_13 (constantI S_ 32 0#32),
    StableHlo.unary main_c_13 main_v43 (broadcastInDim S4194304 ![] bcast_S_S4194304 : (⟨S_, .i32⟩ : BufTy).Contents (Elt F) → (⟨S4194304, .i32⟩ : BufTy).Contents (Elt F)),
    StableHlo.binary main_v35 main_v43 main_v44 (cmpi .slt : (⟨S4194304, .i32⟩ : BufTy).Contents (Elt F) → (⟨S4194304, .i32⟩ : BufTy).Contents (Elt F) → (⟨S4194304, .i1⟩ : BufTy).Contents (Elt F)),
    StableHlo.nullary main_c_14 (constantI S_ 32 21#32),
    StableHlo.unary main_c_14 main_v45 (broadcastInDim S4194304 ![] bcast_S_S4194304 : (⟨S_, .i32⟩ : BufTy).Contents (Elt F) → (⟨S4194304, .i32⟩ : BufTy).Contents (Elt F)),
    StableHlo.binary main_v35 main_v45 main_v46 (addi : (⟨S4194304, .i32⟩ : BufTy).Contents (Elt F) → (⟨S4194304, .i32⟩ : BufTy).Contents (Elt F) → (⟨S4194304, .i32⟩ : BufTy).Contents (Elt F)),
    StableHlo.ternary main_v44 main_v46 main_v35 main_v47 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    StableHlo.unary main_v47 main_v48 (broadcastInDim S4194304x1 ![0] bcast_S4194304_S4194304x1_0 : (⟨S4194304, .i32⟩ : BufTy).Contents (Elt F) → (⟨S4194304x1, .i32⟩ : BufTy).Contents (Elt F)),
    StableHlo.binary main_cst_0 main_v48 main_v49 ((fun x i => Host.gather gather_S21x2_S4194304x1_S4194304x2_1_0_n_n_0_1_12 x i) : (⟨S21x2, .f32⟩ : BufTy).Contents (Elt F) → (⟨S4194304x1, .i32⟩ : BufTy).Contents (Elt F) → (⟨S4194304x2, .f32⟩ : BufTy).Contents (Elt F)) ]

/-- The buffers operations 63 to 83 write. -/
abbrev opsRows_W : List (Ref sig .tc) :=
  [main_c_10, main_v34, main_v35, main_c_11, main_v36, main_v37, main_c_12, main_v38, main_v39, main_v40, main_v41, main_v42, main_c_13, main_v43, main_v44, main_c_14, main_v45, main_v46, main_v47, main_v48, main_v49]

/-- Operations 84 to 104. The range charge of target 0 against the first table's window. -/
def opsPen0 : List (HloOp τ sig (Elt F)) :=
  [ StableHlo.unary main_v0 main_v50 ((extractStridedSlice S4194304x1 ![0, 0] · slices_S4194304x3_S4194304x1_0_0) : (⟨S4194304x3, .f32⟩ : BufTy).Contents (Elt F) → (⟨S4194304x1, .f32⟩ : BufTy).Contents (Elt F)),
    StableHlo.reshape main_v50 main_v51 rfl shapeCasts_S4194304x1_S4194304,
    StableHlo.unary main_v42 main_v52 ((extractStridedSlice S4194304x1 ![0, 0] · slices_S4194304x2_S4194304x1_0_0) : (⟨S4194304x2, .f32⟩ : BufTy).Contents (Elt F) → (⟨S4194304x1, .f32⟩ : BufTy).Contents (Elt F)),
    StableHlo.reshape main_v52 main_v53 rfl shapeCasts_S4194304x1_S4194304,
    StableHlo.unary main_v42 main_v54 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v54 main_v55 rfl shapeCasts_S4194304x1_S4194304,
    StableHlo.binary main_v51 main_v53 main_v56 (cmpf .olt : (⟨S4194304, .f32⟩ : BufTy).Contents (Elt F) → (⟨S4194304, .f32⟩ : BufTy).Contents (Elt F) → (⟨S4194304, .i1⟩ : BufTy).Contents (Elt F)),
    StableHlo.binary main_v51 main_v53 main_v57 (subf : (⟨S4194304, .f32⟩ : BufTy).Contents (Elt F) → (⟨S4194304, .f32⟩ : BufTy).Contents (Elt F) → (⟨S4194304, .f32⟩ : BufTy).Contents (Elt F)),
    StableHlo.binary main_v57 main_v57 main_v58 (mulf : (⟨S4194304, .f32⟩ : BufTy).Contents (Elt F) → (⟨S4194304, .f32⟩ : BufTy).Contents (Elt F) → (⟨S4194304, .f32⟩ : BufTy).Contents (Elt F)),
    StableHlo.nullary main_cst_15 (constant S_ .f32 0x00000000#32),
    StableHlo.TRef.unary (.of main_cst_15 : StableHlo.TRef sig ⟨S_, .f32⟩) main_call1.v0 id,
    StableHlo.TRef.unary main_call1.v0 main_call1.v1 (broadcastInDim S4194304 ![] bcast_S_S4194304),
    StableHlo.TRef.ternary (.of main_v56 : StableHlo.TRef sig ⟨S4194304, .i1⟩) (.of main_v58 : StableHlo.TRef sig ⟨S4194304, .f32⟩) main_call1.v1 main_call1.v2 select,
    StableHlo.binary main_v51 main_v55 main_v60 (cmpf .ogt : (⟨S4194304, .f32⟩ : BufTy).Contents (Elt F) → (⟨S4194304, .f32⟩ : BufTy).Contents (Elt F) → (⟨S4194304, .i1⟩ : BufTy).Contents (Elt F)),
    StableHlo.binary main_v51 main_v55 main_v61 (subf : (⟨S4194304, .f32⟩ : BufTy).Contents (Elt F) → (⟨S4194304, .f32⟩ : BufTy).Contents (Elt F) → (⟨S4194304, .f32⟩ : BufTy).Contents (Elt F)),
    StableHlo.binary main_v61 main_v61 main_v62 (mulf : (⟨S4194304, .f32⟩ : BufTy).Contents (Elt F) → (⟨S4194304, .f32⟩ : BufTy).Contents (Elt F) → (⟨S4194304, .f32⟩ : BufTy).Contents (Elt F)),
    StableHlo.nullary main_cst_16 (constant S_ .f32 0x00000000#32),
    StableHlo.TRef.unary (.of main_cst_16 : StableHlo.TRef sig ⟨S_, .f32⟩) main_call2.v0 id,
    StableHlo.TRef.unary main_call2.v0 main_call2.v1 (broadcastInDim S4194304 ![] bcast_S_S4194304),
    StableHlo.TRef.ternary (.of main_v60 : StableHlo.TRef sig ⟨S4194304, .i1⟩) (.of main_v62 : StableHlo.TRef sig ⟨S4194304, .f32⟩) main_call2.v1 main_call2.v2 select,
    StableHlo.binary main_v59 main_v63 main_v64 (addf : (⟨S4194304, .f32⟩ : BufTy).Contents (Elt F) → (⟨S4194304, .f32⟩ : BufTy).Contents (Elt F) → (⟨S4194304, .f32⟩ : BufTy).Contents (Elt F)) ]

/-- The buffers operations 84 to 104 write. -/
abbrev opsPen0_W : List (Ref sig .tc) :=
  [main_v50, main_v51, main_v52, main_v53, main_v54, main_v55, main_v56, main_v57, main_v58, main_cst_15, main_call1_v0, main_call1_v1, main_v59, main_v60, main_v61, main_v62, main_cst_16, main_call2_v0, main_call2_v1, main_v63, main_v64]

/-- Operations 105 to 125. The range charge of target 1 against the second table's window. -/
def opsPen1 : List (HloOp τ sig (Elt F)) :=
  [ StableHlo.unary main_v0 main_v65 ((extractStridedSlice S4194304x1 ![0, 1] · slices_S4194304x3_S4194304x1_0_1) : (⟨S4194304x3, .f32⟩ : BufTy).Contents (Elt F) → (⟨S4194304x1, .f32⟩ : BufTy).Contents (Elt F)),
    StableHlo.reshape main_v65 main_v66 rfl shapeCasts_S4194304x1_S4194304,
    StableHlo.unary main_v49 main_v67 ((extractStridedSlice S4194304x1 ![0, 0] · slices_S4194304x2_S4194304x1_0_0) : (⟨S4194304x2, .f32⟩ : BufTy).Contents (Elt F) → (⟨S4194304x1, .f32⟩ : BufTy).Contents (Elt F)),
    StableHlo.reshape main_v67 main_v68 rfl shapeCasts_S4194304x1_S4194304,
    StableHlo.unary main_v49 main_v69 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v69 main_v70 rfl shapeCasts_S4194304x1_S4194304,
    StableHlo.binary main_v66 main_v68 main_v71 (cmpf .olt : (⟨S4194304, .f32⟩ : BufTy).Contents (Elt F) → (⟨S4194304, .f32⟩ : BufTy).Contents (Elt F) → (⟨S4194304, .i1⟩ : BufTy).Contents (Elt F)),
    StableHlo.binary main_v66 main_v68 main_v72 (subf : (⟨S4194304, .f32⟩ : BufTy).Contents (Elt F) → (⟨S4194304, .f32⟩ : BufTy).Contents (Elt F) → (⟨S4194304, .f32⟩ : BufTy).Contents (Elt F)),
    StableHlo.binary main_v72 main_v72 main_v73 (mulf : (⟨S4194304, .f32⟩ : BufTy).Contents (Elt F) → (⟨S4194304, .f32⟩ : BufTy).Contents (Elt F) → (⟨S4194304, .f32⟩ : BufTy).Contents (Elt F)),
    StableHlo.nullary main_cst_17 (constant S_ .f32 0x00000000#32),
    StableHlo.TRef.unary (.of main_cst_17 : StableHlo.TRef sig ⟨S_, .f32⟩) main_call3.v0 id,
    StableHlo.TRef.unary main_call3.v0 main_call3.v1 (broadcastInDim S4194304 ![] bcast_S_S4194304),
    StableHlo.TRef.ternary (.of main_v71 : StableHlo.TRef sig ⟨S4194304, .i1⟩) (.of main_v73 : StableHlo.TRef sig ⟨S4194304, .f32⟩) main_call3.v1 main_call3.v2 select,
    StableHlo.binary main_v66 main_v70 main_v75 (cmpf .ogt : (⟨S4194304, .f32⟩ : BufTy).Contents (Elt F) → (⟨S4194304, .f32⟩ : BufTy).Contents (Elt F) → (⟨S4194304, .i1⟩ : BufTy).Contents (Elt F)),
    StableHlo.binary main_v66 main_v70 main_v76 (subf : (⟨S4194304, .f32⟩ : BufTy).Contents (Elt F) → (⟨S4194304, .f32⟩ : BufTy).Contents (Elt F) → (⟨S4194304, .f32⟩ : BufTy).Contents (Elt F)),
    StableHlo.binary main_v76 main_v76 main_v77 (mulf : (⟨S4194304, .f32⟩ : BufTy).Contents (Elt F) → (⟨S4194304, .f32⟩ : BufTy).Contents (Elt F) → (⟨S4194304, .f32⟩ : BufTy).Contents (Elt F)),
    StableHlo.nullary main_cst_18 (constant S_ .f32 0x00000000#32),
    StableHlo.TRef.unary (.of main_cst_18 : StableHlo.TRef sig ⟨S_, .f32⟩) main_call4.v0 id,
    StableHlo.TRef.unary main_call4.v0 main_call4.v1 (broadcastInDim S4194304 ![] bcast_S_S4194304),
    StableHlo.TRef.ternary (.of main_v75 : StableHlo.TRef sig ⟨S4194304, .i1⟩) (.of main_v77 : StableHlo.TRef sig ⟨S4194304, .f32⟩) main_call4.v1 main_call4.v2 select,
    StableHlo.binary main_v74 main_v78 main_v79 (addf : (⟨S4194304, .f32⟩ : BufTy).Contents (Elt F) → (⟨S4194304, .f32⟩ : BufTy).Contents (Elt F) → (⟨S4194304, .f32⟩ : BufTy).Contents (Elt F)) ]

/-- The buffers operations 105 to 125 write. -/
abbrev opsPen1_W : List (Ref sig .tc) :=
  [main_v65, main_v66, main_v67, main_v68, main_v69, main_v70, main_v71, main_v72, main_v73, main_cst_17, main_call3_v0, main_call3_v1, main_v74, main_v75, main_v76, main_v77, main_cst_18, main_call4_v0, main_call4_v1, main_v78, main_v79]

/-- Operations 126 to 130. The closing sums: the two charges added and summed over the samples, the two means added, the total. -/
def opsSum : List (HloOp τ sig (Elt F)) :=
  [ StableHlo.binary main_v64 main_v79 main_v80 (addf : (⟨S4194304, .f32⟩ : BufTy).Contents (Elt F) → (⟨S4194304, .f32⟩ : BufTy).Contents (Elt F) → (⟨S4194304, .f32⟩ : BufTy).Contents (Elt F)),
    StableHlo.nullary main_cst_19 (constant S_ .f32 0x00000000#32),
    StableHlo.binary main_v80 main_cst_19 main_v81 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.binary main_v24 main_v33 main_v82 (addf : (⟨S_, .f32⟩ : BufTy).Contents (Elt F) → (⟨S_, .f32⟩ : BufTy).Contents (Elt F) → (⟨S_, .f32⟩ : BufTy).Contents (Elt F)),
    StableHlo.binary main_v82 main_v81 main_v83 (addf : (⟨S_, .f32⟩ : BufTy).Contents (Elt F) → (⟨S_, .f32⟩ : BufTy).Contents (Elt F) → (⟨S_, .f32⟩ : BufTy).Contents (Elt F)) ]

/-- The buffers operations 126 to 130 write. -/
abbrev opsSum_W : List (Ref sig .tc) :=
  [main_v80, main_cst_19, main_v81, main_v82, main_v83]

/-- The operations are the seven runs in a row. -/
theorem ops_split : (ops : List (HloOp τ sig (Elt F))) = opsClass ++ (opsSensor ++ (opsAnomaly ++ (opsRows ++ (opsPen0 ++ (opsPen1 ++ opsSum))))) := rfl

/-! ## What each run leaves alone -/

theorem opsClass_writes : (opsClass : List (HloOp τ sig (Elt F))).Forall fun op => op.writes ⊆ (opsClass_W.map (Proc.devRef (τ := τ) .tc)).toFinset := by
  unfold opsClass
  simp only [List.Forall, nullary_writes, unary_writes, binary_writes, ternary_writes, reshape_writes, Finset.singleton_subset_iff, List.mem_toFinset]
  and_intros <;> exact List.mem_map_of_mem (by decide)

/-- A buffer this run does not write keeps its contents. -/
theorem opsClass_frame (W : Valuation τ sig (Elt F)) {r : Ref sig .tc} (h : r ∉ opsClass_W) :
    after opsClass W (no_index (Proc.devRef .tc r)) = W (Proc.devRef .tc r) :=
  after_of_writes_sub opsClass W opsClass_writes h

theorem opsSensor_writes : (opsSensor : List (HloOp τ sig (Elt F))).Forall fun op => op.writes ⊆ (opsSensor_W.map (Proc.devRef (τ := τ) .tc)).toFinset := by
  unfold opsSensor
  simp only [List.Forall, nullary_writes, unary_writes, binary_writes, ternary_writes, reshape_writes, Finset.singleton_subset_iff, List.mem_toFinset]
  and_intros <;> exact List.mem_map_of_mem (by decide)

/-- A buffer this run does not write keeps its contents. -/
theorem opsSensor_frame (W : Valuation τ sig (Elt F)) {r : Ref sig .tc} (h : r ∉ opsSensor_W) :
    after opsSensor W (no_index (Proc.devRef .tc r)) = W (Proc.devRef .tc r) :=
  after_of_writes_sub opsSensor W opsSensor_writes h

theorem opsAnomaly_writes : (opsAnomaly : List (HloOp τ sig (Elt F))).Forall fun op => op.writes ⊆ (opsAnomaly_W.map (Proc.devRef (τ := τ) .tc)).toFinset := by
  unfold opsAnomaly
  simp only [List.Forall, nullary_writes, unary_writes, binary_writes, ternary_writes, reshape_writes, Finset.singleton_subset_iff, List.mem_toFinset]
  and_intros <;> exact List.mem_map_of_mem (by decide)

/-- A buffer this run does not write keeps its contents. -/
theorem opsAnomaly_frame (W : Valuation τ sig (Elt F)) {r : Ref sig .tc} (h : r ∉ opsAnomaly_W) :
    after opsAnomaly W (no_index (Proc.devRef .tc r)) = W (Proc.devRef .tc r) :=
  after_of_writes_sub opsAnomaly W opsAnomaly_writes h

theorem opsRows_writes : (opsRows : List (HloOp τ sig (Elt F))).Forall fun op => op.writes ⊆ (opsRows_W.map (Proc.devRef (τ := τ) .tc)).toFinset := by
  unfold opsRows
  simp only [List.Forall, nullary_writes, unary_writes, binary_writes, ternary_writes, reshape_writes, Finset.singleton_subset_iff, List.mem_toFinset]
  and_intros <;> exact List.mem_map_of_mem (by decide)

/-- A buffer this run does not write keeps its contents. -/
theorem opsRows_frame (W : Valuation τ sig (Elt F)) {r : Ref sig .tc} (h : r ∉ opsRows_W) :
    after opsRows W (no_index (Proc.devRef .tc r)) = W (Proc.devRef .tc r) :=
  after_of_writes_sub opsRows W opsRows_writes h

theorem opsPen0_writes : (opsPen0 : List (HloOp τ sig (Elt F))).Forall fun op => op.writes ⊆ (opsPen0_W.map (Proc.devRef (τ := τ) .tc)).toFinset := by
  unfold opsPen0
  simp only [List.Forall, nullary_writes, unary_writes, binary_writes, ternary_writes, reshape_writes, Finset.singleton_subset_iff, List.mem_toFinset]
  and_intros <;> exact List.mem_map_of_mem (by decide)

/-- A buffer this run does not write keeps its contents. -/
theorem opsPen0_frame (W : Valuation τ sig (Elt F)) {r : Ref sig .tc} (h : r ∉ opsPen0_W) :
    after opsPen0 W (no_index (Proc.devRef .tc r)) = W (Proc.devRef .tc r) :=
  after_of_writes_sub opsPen0 W opsPen0_writes h

theorem opsPen1_writes : (opsPen1 : List (HloOp τ sig (Elt F))).Forall fun op => op.writes ⊆ (opsPen1_W.map (Proc.devRef (τ := τ) .tc)).toFinset := by
  unfold opsPen1
  simp only [List.Forall, nullary_writes, unary_writes, binary_writes, ternary_writes, reshape_writes, Finset.singleton_subset_iff, List.mem_toFinset]
  and_intros <;> exact List.mem_map_of_mem (by decide)

/-- A buffer this run does not write keeps its contents. -/
theorem opsPen1_frame (W : Valuation τ sig (Elt F)) {r : Ref sig .tc} (h : r ∉ opsPen1_W) :
    after opsPen1 W (no_index (Proc.devRef .tc r)) = W (Proc.devRef .tc r) :=
  after_of_writes_sub opsPen1 W opsPen1_writes h

theorem opsSum_writes : (opsSum : List (HloOp τ sig (Elt F))).Forall fun op => op.writes ⊆ (opsSum_W.map (Proc.devRef (τ := τ) .tc)).toFinset := by
  unfold opsSum
  simp only [List.Forall, nullary_writes, unary_writes, binary_writes, ternary_writes, reshape_writes, Finset.singleton_subset_iff, List.mem_toFinset]
  and_intros <;> exact List.mem_map_of_mem (by decide)

/-- A buffer this run does not write keeps its contents. -/
theorem opsSum_frame (W : Valuation τ sig (Elt F)) {r : Ref sig .tc} (h : r ∉ opsSum_W) :
    after opsSum W (no_index (Proc.devRef .tc r)) = W (Proc.devRef .tc r) :=
  after_of_writes_sub opsSum W opsSum_writes h

/-! ## What each run computes -/

set_option maxRecDepth 8192 in
theorem opsClass_cst (W : Valuation τ sig (Elt F)) :
    after opsClass W (no_index (Proc.devRef .tc main_cst)) = (fun i => FloatOps.ofBits .f32 (lit0 (S21x2.rowMajor i)) : FVec F S21x2 .f32) := by
  unfold opsClass
  after_results_simp
  try simp only [TRef.ofBuf, TRef.toBuf, cast_eq]
  try rfl

set_option maxRecDepth 8192 in
theorem opsClass_cst_0 (W : Valuation τ sig (Elt F)) :
    after opsClass W (no_index (Proc.devRef .tc main_cst_0)) = (fun i => FloatOps.ofBits .f32 (lit1 (S21x2.rowMajor i)) : FVec F S21x2 .f32) := by
  unfold opsClass
  after_results_simp
  try simp only [TRef.ofBuf, TRef.toBuf, cast_eq]
  try rfl

set_option maxRecDepth 8192 in
theorem opsClass_v0 (W : Valuation τ sig (Elt F)) :
    after opsClass W (no_index (Proc.devRef .tc main_v0)) = (sitofp .f32 (W (Proc.devRef .tc main_arg1)) : FVec F S4194304x3 .f32) := by
  unfold opsClass
  after_results_simp
  try simp only [TRef.ofBuf, TRef.toBuf, cast_eq]
  try rfl

set_option maxRecDepth 8192 in
/-- The class weight of every sample: the weights gathered at the wrapped class index. -/
theorem opsClass_v12 (W : Valuation τ sig (Elt F)) :
    after opsClass W (no_index (Proc.devRef .tc main_v12))
      = Host.gather gather_S7_S4194304x1_S4194304_n_0_n_n_0_1_1 (W (Proc.devRef .tc main_arg3)) (RefTerm.wrapIdx 7#32 (RefTerm.classIdx (W (Proc.devRef .tc main_arg1)))) := by
  unfold opsClass
  after_results_simp
  try simp only [TRef.ofBuf, TRef.toBuf, cast_eq]
  try rfl

set_option maxRecDepth 8192 in
theorem opsSensor_v24 (W : Valuation τ sig (Elt F)) :
    after opsSensor W (no_index (Proc.devRef .tc main_v24))
      = RefTerm.sensorTerm (F := F) (W (Proc.devRef .tc main_arg0)) (W (Proc.devRef .tc main_v0)) (W (Proc.devRef .tc main_v12)) := by
  unfold opsSensor
  after_results_simp
  try simp only [TRef.ofBuf, TRef.toBuf, cast_eq]
  try rfl

set_option maxRecDepth 8192 in
theorem opsAnomaly_v33 (W : Valuation τ sig (Elt F)) :
    after opsAnomaly W (no_index (Proc.devRef .tc main_v33))
      = RefTerm.anomalyTerm (F := F) (W (Proc.devRef .tc main_arg0)) (W (Proc.devRef .tc main_v0)) (W (Proc.devRef .tc main_v12)) := by
  unfold opsAnomaly
  after_results_simp
  try simp only [TRef.ofBuf, TRef.toBuf, cast_eq]
  try rfl

set_option maxRecDepth 8192 in
theorem opsRows_v42 (W : Valuation τ sig (Elt F)) :
    after opsRows W (no_index (Proc.devRef .tc main_v42))
      = Host.gather gather_S21x2_S4194304x1_S4194304x2_1_0_n_n_0_1_12 (W (Proc.devRef .tc main_cst)) (RefTerm.wrapIdx 21#32 (RefTerm.rowIdx (W (Proc.devRef .tc main_arg2)))) := by
  unfold opsRows
  after_results_simp
  try simp only [TRef.ofBuf, TRef.toBuf, cast_eq]
  try rfl

set_option maxRecDepth 8192 in
theorem opsRows_v49 (W : Valuation τ sig (Elt F)) :
    after opsRows W (no_index (Proc.devRef .tc main_v49))
      = Host.gather gather_S21x2_S4194304x1_S4194304x2_1_0_n_n_0_1_12 (W (Proc.devRef .tc main_cst_0)) (RefTerm.wrapIdx 21#32 (RefTerm.rowIdx (W (Proc.devRef .tc main_arg2)))) := by
  unfold opsRows
  after_results_simp
  try simp only [TRef.ofBuf, TRef.toBuf, cast_eq]
  try rfl

set_option maxRecDepth 8192 in
theorem opsPen0_v64 (W : Valuation τ sig (Elt F)) :
    after opsPen0 W (no_index (Proc.devRef .tc main_v64))
      = RefTerm.penCol (F := F) (shapeCast S4194304 (extractStridedSlice S4194304x1 ![0, 0] (W (Proc.devRef .tc main_v0)) slices_S4194304x3_S4194304x1_0_0) shapeCasts_S4194304x1_S4194304)
          (W (Proc.devRef .tc main_v42)) := by
  unfold opsPen0
  after_results_simp
  try simp only [TRef.ofBuf, TRef.toBuf, cast_eq]
  try rfl

set_option maxRecDepth 8192 in
theorem opsPen1_v79 (W : Valuation τ sig (Elt F)) :
    after opsPen1 W (no_index (Proc.devRef .tc main_v79))
      = RefTerm.penCol (F := F) (shapeCast S4194304 (extractStridedSlice S4194304x1 ![0, 1] (W (Proc.devRef .tc main_v0)) slices_S4194304x3_S4194304x1_0_1) shapeCasts_S4194304x1_S4194304)
          (W (Proc.devRef .tc main_v49)) := by
  unfold opsPen1
  after_results_simp
  try simp only [TRef.ofBuf, TRef.toBuf, cast_eq]
  try rfl

set_option maxRecDepth 8192 in
theorem opsSum_v83 (W : Valuation τ sig (Elt F)) :
    after opsSum W (no_index (Proc.devRef .tc main_v83))
      = (addf (addf (W (Proc.devRef .tc main_v24)) (W (Proc.devRef .tc main_v33)))
          (Host.reduceAdd (addf (W (Proc.devRef .tc main_v64)) (W (Proc.devRef .tc main_v79))) (constant S_ .f32 0x00000000#32) reducesTo_S4194304_S_d0 h_S_) : FVec F S_ .f32) := by
  unfold opsSum
  after_results_simp
  try simp only [TRef.ofBuf, TRef.toBuf, cast_eq]
  try rfl

/-! ## The whole line -/

set_option maxRecDepth 8192 in
set_option maxHeartbeats 2000000 in
/-- After the operations, the result buffer holds the reference term of the arguments' contents. -/
theorem out_eq (V : Valuation τ sig (Elt F)) :
    after (ops (F := F)) V (main_v83 : DevRef τ sig)
      = RefTerm.refTerm (F := F) (V (main_arg0 : DevRef τ sig)) (V (main_arg1 : DevRef τ sig)) (V (main_arg2 : DevRef τ sig)) (V (main_arg3 : DevRef τ sig)) := by
  rw [ops_split]
  simp only [after_append]
  simp (disch := decide) only [opsSum_v83, opsPen1_v79, opsPen0_v64, opsRows_v49, opsRows_v42, opsAnomaly_v33, opsSensor_v24, opsClass_v12, opsClass_v0, opsClass_cst_0, opsClass_cst,
    opsSum_frame, opsPen1_frame, opsPen0_frame, opsRows_frame, opsAnomaly_frame, opsSensor_frame, opsClass_frame]
  rfl

set_option maxRecDepth 8192 in
set_option maxHeartbeats 2000000 in
/-- No operation writes an argument. -/
theorem args_eq (V : Valuation τ sig (Elt F)) :
    after (ops (F := F)) V (main_arg0 : DevRef τ sig) = V (main_arg0 : DevRef τ sig)
    ∧ after (ops (F := F)) V (main_arg1 : DevRef τ sig) = V (main_arg1 : DevRef τ sig)
    ∧ after (ops (F := F)) V (main_arg2 : DevRef τ sig) = V (main_arg2 : DevRef τ sig)
    ∧ after (ops (F := F)) V (main_arg3 : DevRef τ sig) = V (main_arg3 : DevRef τ sig) := by
  rw [ops_split]
  simp only [after_append]
  simp (disch := decide) only [opsSum_frame, opsPen1_frame, opsPen0_frame, opsRows_frame, opsAnomaly_frame, opsSensor_frame, opsClass_frame, and_self]

/-- On every device, from any memory with zero counters: every weakly fair execution of the reference program
    terminates with the result buffer at the reference term of the arguments' launch contents, the arguments unchanged. -/
theorem run_raw (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v83)
          = RefTerm.refTerm (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h c main_v83).trans (out_eq (launchContents m c)),
       (h c main_arg0).trans (args_eq (launchContents m c)).1,
       (h c main_arg1).trans (args_eq (launchContents m c)).2.1,
       (h c main_arg2).trans (args_eq (launchContents m c)).2.2.1,
       (h c main_arg3).trans (args_eq (launchContents m c)).2.2.2⟩)
    (run_after m ρ)

end Cert.ReferenceIdeal.RefRun

end
-- ==== Proof.RefValue.lean ====
/-
  The reference's result: its host operations run one after the other to their composed value, and that value,
  read at the result's one index under the two integer ranges, is the loss in sample order.
-/
import proofs.«424041_j28518582845592_2_alg».proof.ReferenceIdeal
import proofs.«424041_j28518582845592_2_alg».proof.Proof.Gen.ReferenceIdeal
import proofs.«424041_j28518582845592_2_alg».proof.Proof.Spec
import proofs.«424041_j28518582845592_2_alg».proof.Proof.RefTerm
import proofs.«424041_j28518582845592_2_alg».proof.Proof.RefRun

noncomputable section

namespace Cert.ReferenceIdeal.RefValue

open Idealize.ShloMosaic Idealize.ShloMosaic.TcCoe Idealize.SL.Sem Idealize.ShloMosaic.ValueIdx
open Cert.ReferenceIdeal

/-- Under the two integer ranges of the precondition the program runs, leaves the loss's closed form in its result
    and its arguments as they were. -/
theorem run (m : (ℓ : Loc nD τ sig) → Buf (Elt Ideal) ℓ) (ρ : Dev nD → PrngReg)
    (hT : ∀ (c : Dev nD) (b : Fin 4194304),
      100 ≤ ((m ((c.tc : Thread nD τ).loc main_arg1) : Cert.Spec.SX.Idx → BitVec 32) (ix2 b (2 : Fin 3))).toInt
      ∧ ((m ((c.tc : Thread nD τ).loc main_arg1) : Cert.Spec.SX.Idx → BitVec 32) (ix2 b (2 : Fin 3))).toInt < 800)
    (hC : ∀ (c : Dev nD) (b : Fin 4194304),
      1 ≤ ((m ((c.tc : Thread nD τ).loc main_arg2) : Cert.Spec.SC.Idx → BitVec 32) (ix1 b)).toInt
      ∧ ((m ((c.tc : Thread nD τ).loc main_arg2) : Cert.Spec.SC.Idx → BitVec 32) (ix1 b)).toInt ≤ 21) :
    θ_run (defs (F := Ideal)) (onTc (τ := τ) (main (F := Ideal))) ⟨m, fun _ => 0, ρ⟩ (fun r => ∀ c : Dev nD,
      r.2.mem ((c.tc : Thread nD τ).loc main_v83)
          = (fun _ => Cert.Spec.Rspec (m ((c.tc : Thread nD τ).loc main_arg0)) (m ((c.tc : Thread nD τ).loc main_arg1))
              (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono
    (fun _ h c => ⟨(h c).1.trans (Cert.ReferenceIdeal.RefTerm.refTerm_eq _ _ _ _ (hT c) (hC c)), (h c).2⟩)
    (Cert.ReferenceIdeal.RefRun.run_raw m ρ)

end Cert.ReferenceIdeal.RefValue

end
-- ==== Proof.lean ====
/-
  The weighted squared-error loss with a range penalty, summed over 4,194,304 samples: the kernel tiles the samples
  over two cores and eight steps and accumulates lane by lane; the reference adds them in order. Where every third
  target lies in `[100, 800)` and every cycle state in `[1, 21]` — the ranges in which the reference's table
  lookups index inside their tables — both compute the same class weight and the same penalty windows for every
  sample, and over real predictions and weights the two orders of summation and the two ways of averaging give one
  number.
-/
import proofs.«424041_j28518582845592_2_alg».proof.Defs
import proofs.«424041_j28518582845592_2_alg».proof.Proof.Gen.Kernel
import proofs.«424041_j28518582845592_2_alg».proof.Proof.Gen.Kernel.Frame
import proofs.«424041_j28518582845592_2_alg».proof.Proof.Gen.KernelIdeal
import proofs.«424041_j28518582845592_2_alg».proof.Proof.Gen.KernelIdeal.Frame
import proofs.«424041_j28518582845592_2_alg».proof.Proof.Gen.ReferenceIdeal
import proofs.«424041_j28518582845592_2_alg».proof.Proof.Gen.Pre_finite_inputs
import proofs.«424041_j28518582845592_2_alg».proof.Proof.PreFacts
import proofs.«424041_j28518582845592_2_alg».proof.Proof.Bridge
import proofs.«424041_j28518582845592_2_alg».proof.Proof.KerValue
import proofs.«424041_j28518582845592_2_alg».proof.Proof.RefValue

noncomputable section

namespace Cert.Proof

open Idealize.ShloMosaic Idealize.SL.Sem

section
variable [hPre : Cert.Pre_finite_inputs.Facts]

theorem frame_ri [Cert.ReferenceIdeal.Facts] : Cert.frame_ReferenceIdeal := fun m ρ hpre => by
  have hf := fun c => Cert.PreFacts.of_pre _ _ _ _ (hpre c)
  exact (θ_run Cert.ReferenceIdeal.defs _ _).mono (fun _ h c => (h c).2)
    (Cert.ReferenceIdeal.RefValue.run m ρ (fun c => (hf c).2.2.1) (fun c => (hf c).2.2.2))

theorem algebraic [Cert.KernelIdeal.Facts] [Cert.ReferenceIdeal.Facts] : Cert.algebraic_KernelIdeal_ReferenceIdeal := by
  intro m ρ m' ρ' hpre hagree
  have hf := fun c => Cert.PreFacts.of_pre _ _ _ _ (hpre c)
  refine ⟨_, Cert.KernelIdeal.KerValue.run m ρ (fun c => (hf c).2.2.1) (fun c => (hf c).2.2.2), ?_⟩
  have hT' : ∀ (c : Dev Cert.ReferenceIdeal.nD) (b : Fin 4194304), _ := fun c b => by
    have := (hf c).2.2.1 b; rw [← (hagree c).2.1] at this; exact this
  have hC' : ∀ (c : Dev Cert.ReferenceIdeal.nD) (b : Fin 4194304), _ := fun c b => by
    have := (hf c).2.2.2 b; rw [← (hagree c).2.2.1] at this; exact this
  refine (θ_run Cert.ReferenceIdeal.defs _ _).mono (fun _ h c => ⟨(h c).1.trans ?_, (h c).2⟩)
    (Cert.ReferenceIdeal.RefValue.run m' ρ' hT' hC')
  rw [(hagree c).1, (hagree c).2.1, (hagree c).2.2.1, (hagree c).2.2.2]
  exact funext fun _ => (Cert.Bridge.kspec_eq_rspec _ _ _ _ (hf c).1 (hf c).2.1).symm

end

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
